-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x8 : Shape := ⟨2, ![32768, 8]⟩
abbrev S8x32 : Shape := ⟨2, ![8, 32]⟩
abbrev S32 : Shape := ⟨1, ![32]⟩
abbrev S32x2048 : Shape := ⟨2, ![32, 2048]⟩
abbrev S2048 : Shape := ⟨1, ![2048]⟩
abbrev S32x1024 : Shape := ⟨2, ![32, 1024]⟩
abbrev S1024 : Shape := ⟨1, ![1024]⟩
abbrev S512x2048 : Shape := ⟨2, ![512, 2048]⟩
abbrev S2048x1024 : Shape := ⟨2, ![2048, 1024]⟩
abbrev S1024x256 : Shape := ⟨2, ![1024, 256]⟩
abbrev S256 : Shape := ⟨1, ![256]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x8 : S_.BroadcastsInDim S32768x8 (![] : Fin 0 → Fin S32768x8.rank)
  reducesTo_S32768x8_S_d0_1 : S32768x8.ReducesTo [0, 1] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x2048 : S_.BroadcastsInDim S32x2048 (![] : Fin 0 → Fin S32x2048.rank)
  reducesTo_S32x2048_S_d0_1 : S32x2048.ReducesTo [0, 1] S_
  bcast_S_S2048 : S_.BroadcastsInDim S2048 (![] : Fin 0 → Fin S2048.rank)
  reducesTo_S2048_S_d0 : S2048.ReducesTo [0] S_
  bcast_S_S32x1024 : S_.BroadcastsInDim S32x1024 (![] : Fin 0 → Fin S32x1024.rank)
  reducesTo_S32x1024_S_d0_1 : S32x1024.ReducesTo [0, 1] S_
  bcast_S_S1024 : S_.BroadcastsInDim S1024 (![] : Fin 0 → Fin S1024.rank)
  reducesTo_S1024_S_d0 : S1024.ReducesTo [0] S_
  bcast_S_S512x2048 : S_.BroadcastsInDim S512x2048 (![] : Fin 0 → Fin S512x2048.rank)
  reducesTo_S512x2048_S_d0_1 : S512x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part6 {F : FTy → Type} [FloatOps F] (main_arg21 : FVec F S1024 .f32) (main_arg22 : FVec F S1024x256 .f32) (main_arg23 : FVec F S256 .f32) (main_v98 : IVec S_ 1) (main_v101 : IVec S2048x1024 1) (main_c_39 : IVec S_ 1) : IVec S_ 1 :=
  let main_v102 : IVec S_ 1 := (fun x v => Host.reduce IntOp.andi x v reducesTo_S2048x1024_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  let main_v109 : FVec F S1024x256 .f32 := Host.absf main_arg22
  let main_cst_42 : FVec F S_ .f32 := constant S_ .f32 0x7F800000#32
  let main_v110 : FVec F S1024x256 .f32 := broadcastInDim S1024x256 ![] bcast_S_S1024x256 main_cst_42
  let main_v111 : IVec S1024x256 1 := cmpf .olt main_v109 main_v110
  let main_c_43 : IVec S_ 1 := constantI S_ 1 1#1
  let main_v112 : IVec S_ 1 := (fun x v => Host.reduce IntOp.andi x v reducesTo_S1024x256_S_d0_1 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  main_v118

def fn_part5 {F : FTy → Type} [FloatOps F] (main_arg18 : FVec F S512x2048 .f32) (main_arg19 : FVec F S2048 .f32) (main_arg20 : FVec F S2048x1024 .f32) (main_arg21 : FVec F S1024 .f32) (main_arg22 : FVec F S1024x256 .f32) (main_arg23 : FVec F S256 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S512x2048 .f32 := Host.absf main_arg18
  let main_cst_34 : FVec F S_ .f32 := constant S_ .f32 0x7F800000#32
  let main_v90 : FVec F S512x2048 .f32 := broadcastInDim S512x2048 ![] bcast_S_S512x2048 main_cst_34
  let main_v91 : IVec S512x2048 1 := cmpf .olt main_v89 main_v90
  let main_c_35 : IVec S_ 1 := constantI S_ 1 1#1
  let main_v92 : IVec S_ 1 := (fun x v => Host.reduce IntOp.andi x v reducesTo_S512x2048_S_d0_1 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S2048x1024 .f32 := Host.absf main_arg20
  let main_cst_38 : FVec F S_ .f32 := constant S_ .f32 0x7F800000#32
  let main_v100 : FVec F S2048x1024 .f32 := broadcastInDim S2048x1024 ![] bcast_S_S2048x1024 main_cst_38
  let main_v101 : IVec S2048x1024 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S8x32 .f32) (main_arg15 : FVec F S32 .f32) (main_arg16 : FVec F S32x1024 .f32) (main_arg17 : FVec F S1024 .f32) (main_arg18 : FVec F S512x2048 .f32) (main_arg19 : FVec F S2048 .f32) (main_arg20 : FVec F S2048x1024 .f32) (main_arg21 : FVec F S1024 .f32) (main_arg22 : FVec F S1024x256 .f32) (main_arg23 : FVec F S256 .f32) (main_v63 : IVec S_ 1) (main_v67 : IVec S_ 1) : IVec S_ 1 :=
  let main_v68 : IVec S_ 1 := andi main_v63 main_v67
  let main_v69 : FVec F S8x32 .f32 := Host.absf main_arg14
  let main_cst_26 : FVec F S_ .f32 := constant S_ .f32 0x7F800000#32
  let main_v70 : FVec F S8x32 .f32 := broadcastInDim S8x32 ![] bcast_S_S8x32 main_cst_26
  let main_v71 : IVec S8x32 1 := cmpf .olt main_v69 main_v70
  let main_c_27 : IVec S_ 1 := constantI S_ 1 1#1
  let main_v72 : IVec S_ 1 := (fun x v => Host.reduce IntOp.andi x v reducesTo_S8x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x1024 .f32 := Host.absf main_arg16
  let main_cst_30 : FVec F S_ .f32 := constant S_ .f32 0x7F800000#32
  let main_v80 : FVec F S32x1024 .f32 := broadcastInDim S32x1024 ![] bcast_S_S32x1024 main_cst_30
  let main_v81 : IVec S32x1024 1 := cmpf .olt main_v79 main_v80
  let main_c_31 : IVec S_ 1 := constantI S_ 1 1#1
  let main_v82 : IVec S_ 1 := (fun x v => Host.reduce IntOp.andi x v reducesTo_S32x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S32 .f32) (main_arg12 : FVec F S32x1024 .f32) (main_arg13 : FVec F S1024 .f32) (main_arg14 : FVec F S8x32 .f32) (main_arg15 : FVec F S32 .f32) (main_arg16 : FVec F S32x1024 .f32) (main_arg17 : FVec F S1024 .f32) (main_arg18 : FVec F S512x2048 .f32) (main_arg19 : FVec F S2048 .f32) (main_arg20 : FVec F S2048x1024 .f32) (main_arg21 : FVec F S1024 .f32) (main_arg22 : FVec F S1024x256 .f32) (main_arg23 : FVec F S256 .f32) (main_v48 : IVec S_ 1) (main_v49 : FVec F S8x32 .f32) (main_v50 : FVec F S8x32 .f32) : IVec S_ 1 :=
  let main_v51 : IVec S8x32 1 := cmpf .olt main_v49 main_v50
  let main_c_19 : IVec S_ 1 := constantI S_ 1 1#1
  let main_v52 : IVec S_ 1 := (fun x v => Host.reduce IntOp.andi x v reducesTo_S8x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1024 .f32 := Host.absf main_arg12
  let main_cst_22 : FVec F S_ .f32 := constant S_ .f32 0x7F800000#32
  let main_v60 : FVec F S32x1024 .f32 := broadcastInDim S32x1024 ![] bcast_S_S32x1024 main_cst_22
  let main_v61 : IVec S32x1024 1 := cmpf .olt main_v59 main_v60
  let main_c_23 : IVec S_ 1 := constantI S_ 1 1#1
  let main_v62 : IVec S_ 1 := (fun x v => Host.reduce IntOp.andi x v reducesTo_S32x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S32 .f32) (main_arg8 : FVec F S32x2048 .f32) (main_arg9 : FVec F S2048 .f32) (main_arg10 : FVec F S8x32 .f32) (main_arg11 : FVec F S32 .f32) (main_arg12 : FVec F S32x1024 .f32) (main_arg13 : FVec F S1024 .f32) (main_arg14 : FVec F S8x32 .f32) (main_arg15 : FVec F S32 .f32) (main_arg16 : FVec F S32x1024 .f32) (main_arg17 : FVec F S1024 .f32) (main_arg18 : FVec F S512x2048 .f32) (main_arg19 : FVec F S2048 .f32) (main_arg20 : FVec F S2048x1024 .f32) (main_arg21 : FVec F S1024 .f32) (main_arg22 : FVec F S1024x256 .f32) (main_arg23 : FVec F S256 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x2048 .f32 := Host.absf main_arg8
  let main_cst_14 : FVec F S_ .f32 := constant S_ .f32 0x7F800000#32
  let main_v40 : FVec F S32x2048 .f32 := broadcastInDim S32x2048 ![] bcast_S_S32x2048 main_cst_14
  let main_v41 : IVec S32x2048 1 := cmpf .olt main_v39 main_v40
  let main_c_15 : IVec S_ 1 := constantI S_ 1 1#1
  let main_v42 : IVec S_ 1 := (fun x v => Host.reduce IntOp.andi x v reducesTo_S32x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S8x32 .f32 := Host.absf main_arg10
  let main_cst_18 : FVec F S_ .f32 := constant S_ .f32 0x7F800000#32
  let main_v50 : FVec F S8x32 .f32 := broadcastInDim S8x32 ![] bcast_S_S8x32 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S32x2048 .f32) (main_arg5 : FVec F S2048 .f32) (main_arg6 : FVec F S8x32 .f32) (main_arg7 : FVec F S32 .f32) (main_arg8 : FVec F S32x2048 .f32) (main_arg9 : FVec F S2048 .f32) (main_arg10 : FVec F S8x32 .f32) (main_arg11 : FVec F S32 .f32) (main_arg12 : FVec F S32x1024 .f32) (main_arg13 : FVec F S1024 .f32) (main_arg14 : FVec F S8x32 .f32) (main_arg15 : FVec F S32 .f32) (main_arg16 : FVec F S32x1024 .f32) (main_arg17 : FVec F S1024 .f32) (main_arg18 : FVec F S512x2048 .f32) (main_arg19 : FVec F S2048 .f32) (main_arg20 : FVec F S2048x1024 .f32) (main_arg21 : FVec F S1024 .f32) (main_arg22 : FVec F S1024x256 .f32) (main_arg23 : FVec F S256 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x2048 .f32 := Host.absf main_arg4
  let main_cst_6 : FVec F S_ .f32 := constant S_ .f32 0x7F800000#32
  let main_v20 : FVec F S32x2048 .f32 := broadcastInDim S32x2048 ![] bcast_S_S32x2048 main_cst_6
  let main_v21 : IVec S32x2048 1 := cmpf .olt main_v19 main_v20
  let main_c_7 : IVec S_ 1 := constantI S_ 1 1#1
  let main_v22 : IVec S_ 1 := (fun x v => Host.reduce IntOp.andi x v reducesTo_S32x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S8x32 .f32 := Host.absf main_arg6
  let main_cst_10 : FVec F S_ .f32 := constant S_ .f32 0x7F800000#32
  let main_v30 : FVec F S8x32 .f32 := broadcastInDim S8x32 ![] bcast_S_S8x32 main_cst_10
  let main_v31 : IVec S8x32 1 := cmpf .olt main_v29 main_v30
  let main_c_11 : IVec S_ 1 := constantI S_ 1 1#1
  let main_v32 : IVec S_ 1 := (fun x v => Host.reduce IntOp.andi x v reducesTo_S8x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S32768x512 .f32) (main_arg1 : FVec F S32768x8 .f32) (main_arg2 : FVec F S8x32 .f32) (main_arg3 : FVec F S32 .f32) (main_arg4 : FVec F S32x2048 .f32) (main_arg5 : FVec F S2048 .f32) (main_arg6 : FVec F S8x32 .f32) (main_arg7 : FVec F S32 .f32) (main_arg8 : FVec F S32x2048 .f32) (main_arg9 : FVec F S2048 .f32) (main_arg10 : FVec F S8x32 .f32) (main_arg11 : FVec F S32 .f32) (main_arg12 : FVec F S32x1024 .f32) (main_arg13 : FVec F S1024 .f32) (main_arg14 : FVec F S8x32 .f32) (main_arg15 : FVec F S32 .f32) (main_arg16 : FVec F S32x1024 .f32) (main_arg17 : FVec F S1024 .f32) (main_arg18 : FVec F S512x2048 .f32) (main_arg19 : FVec F S2048 .f32) (main_arg20 : FVec F S2048x1024 .f32) (main_arg21 : FVec F S1024 .f32) (main_arg22 : FVec F S1024x256 .f32) (main_arg23 : FVec F S256 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x8 .f32 := Host.absf main_arg1
  let main_cst_0 : FVec F S_ .f32 := constant S_ .f32 0x7F800000#32
  let main_v5 : FVec F S32768x8 .f32 := broadcastInDim S32768x8 ![] bcast_S_S32768x8 main_cst_0
  let main_v6 : IVec S32768x8 1 := cmpf .olt main_v4 main_v5
  let main_c_1 : IVec S_ 1 := constantI S_ 1 1#1
  let main_v7 : IVec S_ 1 := (fun x v => Host.reduce IntOp.andi x v reducesTo_S32768x8_S_d0_1 h_S_) main_v6 main_c_1
  let main_v8 : IVec S_ 1 := andi main_v3 main_v7
  let main_v9 : FVec F S8x32 .f32 := Host.absf main_arg2
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S32768x512 : Shape := ⟨2, ![32768, 512]⟩
abbrev S32768x8 : Shape := ⟨2, ![32768, 8]⟩
abbrev S8x32 : Shape := ⟨2, ![8, 32]⟩
abbrev S32 : Shape := ⟨1, ![32]⟩
abbrev S32x2048 : Shape := ⟨2, ![32, 2048]⟩
abbrev S2048 : Shape := ⟨1, ![2048]⟩
abbrev S32x1024 : Shape := ⟨2, ![32, 1024]⟩
abbrev S1024 : Shape := ⟨1, ![1024]⟩
abbrev S512x2048 : Shape := ⟨2, ![512, 2048]⟩
abbrev S2048x1024 : Shape := ⟨2, ![2048, 1024]⟩
abbrev S1024x256 : Shape := ⟨2, ![1024, 256]⟩
abbrev S256 : Shape := ⟨1, ![256]⟩
abbrev S1x32 : Shape := ⟨2, ![1, 32]⟩
abbrev S1x2048 : Shape := ⟨2, ![1, 2048]⟩
abbrev S1x1024 : Shape := ⟨2, ![1, 1024]⟩
abbrev S1x256 : Shape := ⟨2, ![1, 256]⟩
abbrev S32768x256 : Shape := ⟨2, ![32768, 256]⟩
abbrev S256x512 : Shape := ⟨2, ![256, 512]⟩
abbrev S256x8 : Shape := ⟨2, ![256, 8]⟩
abbrev S256x256 : Shape := ⟨2, ![256, 256]⟩
abbrev S256x32 : Shape := ⟨2, ![256, 32]⟩
abbrev S256x2048 : Shape := ⟨2, ![256, 2048]⟩
abbrev S256x1024 : Shape := ⟨2, ![256, 1024]⟩
abbrev S256x1 : Shape := ⟨2, ![256, 1]⟩

abbrev nBuf : Space → Nat
  | .hbm => 39
  | .vmem => 28
  | .smem => 0
  | _ => 0

abbrev bufTy : (tb : Table) → Fin (tcTables nBuf tb) → BufTy
  | .hbm, ⟨0, _⟩ => ⟨S32768x512, .f32⟩
  | .hbm, ⟨1, _⟩ => ⟨S32768x8, .f32⟩
  | .hbm, ⟨2, _⟩ => ⟨S8x32, .f32⟩
  | .hbm, ⟨3, _⟩ => ⟨S32, .f32⟩
  | .hbm, ⟨4, _⟩ => ⟨S32x2048, .f32⟩
  | .hbm, ⟨5, _⟩ => ⟨S2048, .f32⟩
  | .hbm, ⟨6, _⟩ => ⟨S8x32, .f32⟩
  | .hbm, ⟨7, _⟩ => ⟨S32, .f32⟩
  | .hbm, ⟨8, _⟩ => ⟨S32x2048, .f32⟩
  | .hbm, ⟨9, _⟩ => ⟨S2048, .f32⟩
  | .hbm, ⟨10, _⟩ => ⟨S8x32, .f32⟩
  | .hbm, ⟨11, _⟩ => ⟨S32, .f32⟩
  | .hbm, ⟨12, _⟩ => ⟨S32x1024, .f32⟩
  | .hbm, ⟨13, _⟩ => ⟨S1024, .f32⟩
  | .hbm, ⟨14, _⟩ => ⟨S8x32, .f32⟩
  | .hbm, ⟨15, _⟩ => ⟨S32, .f32⟩
  | .hbm, ⟨16, _⟩ => ⟨S32x1024, .f32⟩
  | .hbm, ⟨17, _⟩ => ⟨S1024, .f32⟩
  | .hbm, ⟨18, _⟩ => ⟨S512x2048, .f32⟩
  | .hbm, ⟨19, _⟩ => ⟨S2048, .f32⟩
  | .hbm, ⟨20, _⟩ => ⟨S2048x1024, .f32⟩
  | .hbm, ⟨21, _⟩ => ⟨S1024, .f32⟩
  | .hbm, ⟨22, _⟩ => ⟨S1024x256, .f32⟩
  | .hbm, ⟨23, _⟩ => ⟨S256, .f32⟩
  | .hbm, ⟨24, _⟩ => ⟨S1x32, .f32⟩
  | .hbm, ⟨25, _⟩ => ⟨S1x32, .f32⟩
  | .hbm, ⟨26, _⟩ => ⟨S1x2048, .f32⟩
  | .hbm, ⟨27, _⟩ => ⟨S1x2048, .f32⟩
  | .hbm, ⟨28, _⟩ => ⟨S1x32, .f32⟩
  | .hbm, ⟨29, _⟩ => ⟨S1x32, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S1x1024, .f32⟩
  | .hbm, ⟨34, _⟩ => ⟨S1x256, .f32⟩
  | .hbm, ⟨35, _⟩ => ⟨S512x2048, .bf16⟩
  | .hbm, ⟨36, _⟩ => ⟨S2048x1024, .bf16⟩
  | .hbm, ⟨37, _⟩ => ⟨S1024x256, .bf16⟩
  | .hbm, ⟨38, _⟩ => ⟨S32768x256, .f32⟩
  | .local _ .vmem, ⟨0, _⟩ => ⟨S256x512, .f32⟩
  | .local _ .vmem, ⟨1, _⟩ => ⟨S256x512, .f32⟩
  | .local _ .vmem, ⟨2, _⟩ => ⟨S256x8, .f32⟩
  | .local _ .vmem, ⟨3, _⟩ => ⟨S256x8, .f32⟩
  | .local _ .vmem, ⟨4, _⟩ => ⟨S8x32, .f32⟩
  | .local _ .vmem, ⟨5, _⟩ => ⟨S1x32, .f32⟩
  | .local _ .vmem, ⟨6, _⟩ => ⟨S32x2048, .f32⟩
  | .local _ .vmem, ⟨7, _⟩ => ⟨S1x2048, .f32⟩
  | .local _ .vmem, ⟨8, _⟩ => ⟨S8x32, .f32⟩
  | .local _ .vmem, ⟨9, _⟩ => ⟨S1x32, .f32⟩
  | .local _ .vmem, ⟨10, _⟩ => ⟨S32x2048, .f32⟩
  | .local _ .vmem, ⟨11, _⟩ => ⟨S1x2048, .f32⟩
  | .local _ .vmem, ⟨12, _⟩ => ⟨S8x32, .f32⟩
  | .local _ .vmem, ⟨13, _⟩ => ⟨S1x32, .f32⟩
  | .local _ .vmem, ⟨14, _⟩ => ⟨S32x1024, .f32⟩
  | .local _ .vmem, ⟨15, _⟩ => ⟨S1x1024, .f32⟩
  | .local _ .vmem, ⟨16, _⟩ => ⟨S8x32, .f32⟩
  | .local _ .vmem, ⟨17, _⟩ => ⟨S1x32, .f32⟩
  | .local _ .vmem, ⟨18, _⟩ => ⟨S32x1024, .f32⟩
  | .local _ .vmem, ⟨19, _⟩ => ⟨S1x1024, .f32⟩
  | .local _ .vmem, ⟨20, _⟩ => ⟨S512x2048, .bf16⟩
  | .local _ .vmem, ⟨21, _⟩ => ⟨S1x2048, .f32⟩
  | .local _ .vmem, ⟨22, _⟩ => ⟨S2048x1024, .bf16⟩
  | .local _ .vmem, ⟨23, _⟩ => ⟨S1x1024, .f32⟩
  | .local _ .vmem, ⟨24, _⟩ => ⟨S1024x256, .bf16⟩
  | .local _ .vmem, ⟨25, _⟩ => ⟨S1x256, .f32⟩
  | .local _ .vmem, ⟨26, _⟩ => ⟨S256x256, .f32⟩
  | .local _ .vmem, ⟨27, _⟩ => ⟨S256x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2048x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  shapeCasts_S32_S1x32 : S32.ShapeCasts S1x32
  shapeCasts_S2048_S1x2048 : S2048.ShapeCasts S1x2048
  shapeCasts_S1024_S1x1024 : S1024.ShapeCasts S1x1024
  shapeCasts_S256_S1x256 : S256.ShapeCasts S1x256
  bitsLt_bf16_f32 : FTy.bits .bf16 < FTy.bits .f32
  inb_S256x8_S256x8_0_0 : ∀ a, (![0, 0] : Fin 2 → Nat) a + S256x8.size a ≤ S256x8.size a
  h_S256x8 : 0 < S256x8.numel
  inb_S8x32_S8x32_0_0 : ∀ a, (![0, 0] : Fin 2 → Nat) a + S8x32.size a ≤ S8x32.size a
  h_S8x32 : 0 < S8x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x2048_S32x2048_0_0 : ∀ a, (![0, 0] : Fin 2 → Nat) a + S32x2048.size a ≤ S32x2048.size a
  h_S32x2048 : 0 < S32x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S32x1024_S32x1024_0_0 : ∀ a, (![0, 0] : Fin 2 → Nat) a + S32x1024.size a ≤ S32x1024.size a
  h_S32x1024 : 0 < S32x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x512_S256x512_0_0 : ∀ a, (![0, 0] : Fin 2 → Nat) a + S256x512.size a ≤ S256x512.size a
  h_S256x512 : 0 < S256x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S256x2048_S256 : S256x2048.Reduces [1] S256
  shapeCasts_S256_S256x1 : S256.ShapeCasts S256x1
  broadcasts_S256x1_S256x2048 : S256x1.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S256x1024_S256 : S256x1024.Reduces [1] S256
  broadcasts_S256x1_S256x1024 : S256x1.Broadcasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [1] S256
  broadcasts_S256x1_S256x256 : S256x1.Broadcasts S256x256
  inb_S256x256_S256x256_0_0 : ∀ a, (![0, 0] : Fin 2 → Nat) a + S256x256.size a ≤ S256x256.size a
  h_S256x256 : 0 < S256x256.numel
  dot_S256x8_S8x32_S256x32_1_0_0_1_n_n_wf : DotDims.WF S256x8 S8x32 S256x32 [1] [0] [0] [1] [] []
  dot_S256x32_S32x2048_S256x2048_1_0_0_1_n_n_wf : DotDims.WF S256x32 S32x2048 S256x2048 [1] [0] [0] [1] [] []
  dot_S256x32_S32x1024_S256x1024_1_0_0_1_n_n_wf : DotDims.WF S256x32 S32x1024 S256x1024 [1] [0] [0] [1] [] []
  dot_S256x512_S512x2048_S256x2048_1_0_0_1_n_n_wf : DotDims.WF S256x512 S512x2048 S256x2048 [1] [0] [0] [1] [] []
  dot_S256x2048_S2048x1024_S256x1024_1_0_0_1_n_n_wf : DotDims.WF S256x2048 S2048x1024 S256x1024 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S32768x512.size a
  hwx0_0 : ∀ i : grid0.Coords, EltTy.bits .f32 = 32 ∨ (Rect.block (s := S32768x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S32768x8.size a
  hwx0_1 : ∀ i : grid0.Coords, EltTy.bits .f32 = 32 ∨ (Rect.block (s := S32768x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S32x2048.size a
  hwx0_4 : ∀ i : grid0.Coords, EltTy.bits .f32 = 32 ∨ (Rect.block (s := S32x2048) S32x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x32.size a ≤ S8x32.size a
  hwx0_6 : ∀ i : grid0.Coords, EltTy.bits .f32 = 32 ∨ (Rect.block (s := S8x32) S8x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x2048.size a ≤ S32x2048.size a
  hwx0_8 : ∀ i : grid0.Coords, EltTy.bits .f32 = 32 ∨ (Rect.block (s := S32x2048) S32x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x32.size a ≤ S8x32.size a
  hwx0_10 : ∀ i : grid0.Coords, EltTy.bits .f32 = 32 ∨ (Rect.block (s := S8x32) S8x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1024.size a ≤ S32x1024.size a
  hwx0_12 : ∀ i : grid0.Coords, EltTy.bits .f32 = 32 ∨ (Rect.block (s := S32x1024) S32x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8x32.size a ≤ S8x32.size a
  hwx0_14 : ∀ i : grid0.Coords, EltTy.bits .f32 = 32 ∨ (Rect.block (s := S8x32) S8x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x32.size a ≤ S1x32.size a
  hwx0_15 : ∀ i : grid0.Coords, EltTy.bits .f32 = 32 ∨ (Rect.block (s := S1x32) S1x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x1024.size a ≤ S32x1024.size a
  hwx0_16 : ∀ i : grid0.Coords, EltTy.bits .f32 = 32 ∨ (Rect.block (s := S32x1024) S32x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x2048.size a ≤ S512x2048.size a
  hwx0_18 : ∀ i : grid0.Coords, EltTy.bits .bf16 = 32 ∨ (Rect.block (s := S512x2048) S512x2048.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x2048.size a ≤ S1x2048.size a
  hwx0_19 : ∀ i : grid0.Coords, EltTy.bits .f32 = 32 ∨ (Rect.block (s := S1x2048) S1x2048.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S2048x1024.size a ≤ S2048x1024.size a
  hwx0_20 : ∀ i : grid0.Coords, EltTy.bits .bf16 = 32 ∨ (Rect.block (s := S2048x1024) S2048x1024.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1024.size a ≤ S1x1024.size a
  hwx0_21 : ∀ i : grid0.Coords, EltTy.bits .f32 = 32 ∨ (Rect.block (s := S1x1024) S1x1024.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1024x256.size a ≤ S1024x256.size a
  hwx0_22 : ∀ i : grid0.Coords, EltTy.bits .bf16 = 32 ∨ (Rect.block (s := S1024x256) S1024x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S256x256.size a ≤ S32768x256.size a
  hwx0_24 : ∀ i : grid0.Coords, EltTy.bits .f32 = 32 ∨ (Rect.block (s := S32768x256) S256x256.size (cc0_transform_24 i) (hinb0_24 i)).WholeWords (EltTy.packing .f32)

variable [Facts₀]

def dot_S256x8_S8x32_S256x32_1_0_0_1_n_n : DotDims S256x8 S8x32 S256x32 where
  lhsContracting := [1]
  rhsContracting := [0]
  lhsNonContracting := [0]
  rhsNonContracting := [1]
  lhsBatch := []
  rhsBatch := []
  wf := dot_S256x8_S8x32_S256x32_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S32x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S8x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v5) S1x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S32x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S512x2048.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8) S1x2048.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v12) S2048x1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v9) S1x1024.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v13) S1024x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v10) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v14) S256x256.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x8 : Shape := ⟨2, ![32768, 8]⟩
abbrev S8x32 : Shape := ⟨2, ![8, 32]⟩
abbrev S32 : Shape := ⟨1, ![32]⟩
abbrev S32x2048 : Shape := ⟨2, ![32, 2048]⟩
abbrev S2048 : Shape := ⟨1, ![2048]⟩
abbrev S32x1024 : Shape := ⟨2, ![32, 1024]⟩
abbrev S1024 : Shape := ⟨1, ![1024]⟩
abbrev S512x2048 : Shape := ⟨2, ![512, 2048]⟩
abbrev S2048x1024 : Shape := ⟨2, ![2048, 1024]⟩
abbrev S1024x256 : Shape := ⟨2, ![1024, 256]⟩
abbrev S256 : Shape := ⟨1, ![256]⟩
abbrev S32768x32 : Shape := ⟨2, ![32768, 32]⟩
abbrev S1x32 : Shape := ⟨2, ![1, 32]⟩
abbrev S_ : Shape := ⟨0, ![]⟩
abbrev S32768x2048 : Shape := ⟨2, ![32768, 2048]⟩
abbrev S1x2048 : Shape := ⟨2, ![1, 2048]⟩
abbrev S32768x1024 : Shape := ⟨2, ![32768, 1024]⟩
abbrev S1x1024 : Shape := ⟨2, ![1, 1024]⟩
abbrev S32768x1x2048 : Shape := ⟨3, ![32768, 1, 2048]⟩
abbrev S32768x1 : Shape := ⟨2, ![32768, 1]⟩
abbrev S32768x1x1 : Shape := ⟨3, ![32768, 1, 1]⟩
abbrev S32768x1x1024 : Shape := ⟨3, ![32768, 1, 1024]⟩
abbrev S32768x256 : Shape := ⟨2, ![32768, 256]⟩
abbrev S1x256 : Shape := ⟨2, ![1, 256]⟩
abbrev S32768 : Shape := ⟨1, ![32768]⟩

abbrev nBuf : Space → Nat
  | .hbm => 155
  | .vmem => 0
  | .smem => 0
  | _ => 0

abbrev hbmTy0_0 (i : Nat) : BufTy := match i % 128 with
  | 0 => ⟨S32768x512, .f32⟩
  | 1 => ⟨S32768x8, .f32⟩
  | 2 => ⟨S8x32, .f32⟩
  | 3 => ⟨S32, .f32⟩
  | 4 => ⟨S32x2048, .f32⟩
  | 5 => ⟨S2048, .f32⟩
  | 6 => ⟨S8x32, .f32⟩
  | 7 => ⟨S32, .f32⟩
  | 8 => ⟨S32x2048, .f32⟩
  | 9 => ⟨S2048, .f32⟩
  | 10 => ⟨S8x32, .f32⟩
  | 11 => ⟨S32, .f32⟩
  | 12 => ⟨S32x1024, .f32⟩
  | 13 => ⟨S1024, .f32⟩
  | 14 => ⟨S8x32, .f32⟩
  | 15 => ⟨S32, .f32⟩
  | 16 => ⟨S32x1024, .f32⟩
  | 17 => ⟨S1024, .f32⟩
  | 18 => ⟨S512x2048, .f32⟩
  | 19 => ⟨S2048, .f32⟩
  | 20 => ⟨S2048x1024, .f32⟩
  | 21 => ⟨S1024, .f32⟩
  | 22 => ⟨S1024x256, .f32⟩
  | 23 => ⟨S256, .f32⟩
  | 24 => ⟨S32768x32, .f32⟩
  | 25 => ⟨S1x32, .f32⟩
  | 26 => ⟨S32768x32, .f32⟩
  | 27 => ⟨S32768x32, .f32⟩
  | 28 => ⟨S_, .f32⟩
  | 29 => ⟨S32768x32, .f32⟩
  | 30 => ⟨S32768x32, .f32⟩
  | 31 => ⟨S32768x2048, .f32⟩
  | 32 => ⟨S1x2048, .f32⟩
  | 33 => ⟨S32768x2048, .f32⟩
  | 34 => ⟨S32768x2048, .f32⟩
  | 35 => ⟨S32768x32, .f32⟩
  | 36 => ⟨S1x32, .f32⟩
  | 37 => ⟨S32768x32, .f32⟩
  | 38 => ⟨S32768x32, .f32⟩
  | 39 => ⟨S_, .f32⟩
  | 40 => ⟨S32768x32, .f32⟩
  | 41 => ⟨S32768x32, .f32⟩
  | 42 => ⟨S32768x2048, .f32⟩
  | 43 => ⟨S1x2048, .f32⟩
  | 44 => ⟨S32768x2048, .f32⟩
  | 45 => ⟨S32768x2048, .f32⟩
  | 46 => ⟨S32768x32, .f32⟩
  | 47 => ⟨S1x32, .f32⟩
  | 48 => ⟨S32768x32, .f32⟩
  | 49 => ⟨S32768x32, .f32⟩
  | 50 => ⟨S_, .f32⟩
  | 51 => ⟨S32768x32, .f32⟩
  | 52 => ⟨S32768x32, .f32⟩
  | 53 => ⟨S32768x1024, .f32⟩
  | 54 => ⟨S1x1024, .f32⟩
  | 55 => ⟨S32768x1024, .f32⟩
  | 56 => ⟨S32768x1024, .f32⟩
  | 57 => ⟨S32768x32, .f32⟩
  | 58 => ⟨S1x32, .f32⟩
  | 59 => ⟨S32768x32, .f32⟩
  | 60 => ⟨S32768x32, .f32⟩
  | 61 => ⟨S_, .f32⟩
  | 62 => ⟨S32768x32, .f32⟩
  | 63 => ⟨S32768x32, .f32⟩
  | 64 => ⟨S32768x1024, .f32⟩
  | 65 => ⟨S1x1024, .f32⟩
  | 66 => ⟨S32768x1024, .f32⟩
  | 67 => ⟨S32768x1024, .f32⟩
  | 68 => ⟨S32768x2048, .f32⟩
  | 69 => ⟨S1x2048, .f32⟩
  | 70 => ⟨S32768x2048, .f32⟩
  | 71 => ⟨S32768x2048, .f32⟩
  | 72 => ⟨S32768x1x2048, .f32⟩
  | 73 => ⟨S_, .f32⟩
  | 74 => ⟨S32768x1, .f32⟩
  | 75 => ⟨S32768x1x1, .f32⟩
  | 76 => ⟨S_, .f32⟩
  | 77 => ⟨S32768x1x1, .f32⟩
  | 78 => ⟨S32768x1x1, .f32⟩
  | 79 => ⟨S32768x1x2048, .f32⟩
  | 80 => ⟨S32768x1x2048, .f32⟩
  | 81 => ⟨S32768x1x2048, .f32⟩
  | 82 => ⟨S_, .f32⟩
  | 83 => ⟨S32768x1, .f32⟩
  | 84 => ⟨S32768x1x1, .f32⟩
  | 85 => ⟨S_, .f32⟩
  | 86 => ⟨S32768x1x1, .f32⟩
  | 87 => ⟨S32768x1x1, .f32⟩
  | 88 => ⟨S32768x1x2048, .f32⟩
  | 89 => ⟨S32768x1x2048, .f32⟩
  | 90 => ⟨S_, .f32⟩
  | 91 => ⟨S32768x1x1, .f32⟩
  | 92 => ⟨S32768x1x1, .f32⟩
  | 93 => ⟨S32768x1x1, .f32⟩
  | 94 => ⟨S32768x1x2048, .f32⟩
  | 95 => ⟨S32768x1x2048, .f32⟩
  | 96 => ⟨S32768x2048, .f32⟩
  | 97 => ⟨S32768x2048, .f32⟩
  | 98 => ⟨S32768x2048, .f32⟩
  | 99 => ⟨S_, .f32⟩
  | 100 => ⟨S32768x2048, .f32⟩
  | 101 => ⟨S32768x2048, .f32⟩
  | 102 => ⟨S32768x1024, .f32⟩
  | 103 => ⟨S1x1024, .f32⟩
  | 104 => ⟨S32768x1024, .f32⟩
  | 105 => ⟨S32768x1024, .f32⟩
  | 106 => ⟨S32768x1x1024, .f32⟩
  | 107 => ⟨S_, .f32⟩
  | 108 => ⟨S32768x1, .f32⟩
  | 109 => ⟨S32768x1x1, .f32⟩
  | 110 => ⟨S_, .f32⟩
  | 111 => ⟨S32768x1x1, .f32⟩
  | 112 => ⟨S32768x1x1, .f32⟩
  | 113 => ⟨S32768x1x1024, .f32⟩
  | 114 => ⟨S32768x1x1024, .f32⟩
  | 115 => ⟨S32768x1x1024, .f32⟩
  | 116 => ⟨S_, .f32⟩
  | 117 => ⟨S32768x1, .f32⟩
  | 118 => ⟨S32768x1x1, .f32⟩
  | 119 => ⟨S_, .f32⟩
  | 120 => ⟨S32768x1x1, .f32⟩
  | 121 => ⟨S32768x1x1, .f32⟩
  | 122 => ⟨S32768x1x1024, .f32⟩
  | 123 => ⟨S32768x1x1024, .f32⟩
  | 124 => ⟨S_, .f32⟩
  | 125 => ⟨S32768x1x1, .f32⟩
  | 126 => ⟨S32768x1x1, .f32⟩
  | 127 => ⟨S32768x1x1, .f32⟩
  | _ => ⟨S32768x512, .f32⟩

abbrev hbmTy0_1 (i : Nat) : BufTy := match i % 128 with
  | 0 => ⟨S32768x1x1024, .f32⟩
  | 1 => ⟨S32768x1x1024, .f32⟩
  | 2 => ⟨S32768x1024, .f32⟩
  | 3 => ⟨S32768x1024, .f32⟩
  | 4 => ⟨S32768x1024, .f32⟩
  | 5 => ⟨S_, .f32⟩
  | 6 => ⟨S32768x1024, .f32⟩
  | 7 => ⟨S32768x1024, .f32⟩
  | 8 => ⟨S32768x256, .f32⟩
  | 9 => ⟨S1x256, .f32⟩
  | 10 => ⟨S32768x256, .f32⟩
  | 11 => ⟨S32768x256, .f32⟩
  | 12 => ⟨S_, .f32⟩
  | 13 => ⟨S32768, .f32⟩
  | 14 => ⟨S_, .f32⟩
  | 15 => ⟨S32768, .f32⟩
  | 16 => ⟨S32768, .f32⟩
  | 17 => ⟨S32768x1, .f32⟩
  | 18 => ⟨S32768x256, .f32⟩
  | 19 => ⟨S32768x256, .f32⟩
  | 20 => ⟨S32768x256, .f32⟩
  | 21 => ⟨S_, .f32⟩
  | 22 => ⟨S32768, .f32⟩
  | 23 => ⟨S32768x1, .f32⟩
  | 24 => ⟨S32768x1, .f32⟩
  | 25 => ⟨S32768x256, .f32⟩
  | 26 => ⟨S32768x256, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call1_cst : Ref sig .tc := ⟨.hbm, 39, rfl⟩
abbrev main_call1_v0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_call2_cst : Ref sig .tc := ⟨.hbm, 50, rfl⟩
abbrev main_call2_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_call3_cst : Ref sig .tc := ⟨.hbm, 61, rfl⟩
abbrev main_call3_v0 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst : Ref sig .tc := ⟨.hbm, 73, rfl⟩
abbrev main_v41 : Ref sig .tc := ⟨.hbm, 74, rfl⟩
abbrev main_v42 : Ref sig .tc := ⟨.hbm, 75, rfl⟩
abbrev main_cst_0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_1 : Ref sig .tc := ⟨.hbm, 82, rfl⟩
abbrev main_v48 : Ref sig .tc := ⟨.hbm, 83, rfl⟩
abbrev main_v49 : Ref sig .tc := ⟨.hbm, 84, rfl⟩
abbrev main_cst_2 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_3 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call4_cst : Ref sig .tc := ⟨.hbm, 99, rfl⟩
abbrev main_call4_v0 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_4 : Ref sig .tc := ⟨.hbm, 107, rfl⟩
abbrev main_v68 : Ref sig .tc := ⟨.hbm, 108, rfl⟩
abbrev main_v69 : Ref sig .tc := ⟨.hbm, 109, rfl⟩
abbrev main_cst_5 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_6 : Ref sig .tc := ⟨.hbm, 116, rfl⟩
abbrev main_v75 : Ref sig .tc := ⟨.hbm, 117, rfl⟩
abbrev main_v76 : Ref sig .tc := ⟨.hbm, 118, rfl⟩
abbrev main_cst_7 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_8 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_call5_cst : Ref sig .tc := ⟨.hbm, 133, rfl⟩
abbrev main_call5_v0 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_call6_cst : Ref sig .tc := ⟨.hbm, 140, rfl⟩
abbrev main_call6_v0 : Ref sig .tc := ⟨.hbm, 141, rfl⟩
abbrev main_call6_cst_0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_call6_v5 : Ref sig .tc := ⟨.hbm, 147, rfl⟩
abbrev main_call6_v6 : Ref sig .tc := ⟨.hbm, 148, rfl⟩
abbrev main_call6_cst_1 : Ref sig .tc := ⟨.hbm, 149, rfl⟩
abbrev main_call6_v7 : Ref sig .tc := ⟨.hbm, 150, rfl⟩
abbrev main_call6_v8 : Ref sig .tc := ⟨.hbm, 151, rfl⟩
abbrev main_call6_v9 : Ref sig .tc := ⟨.hbm, 152, rfl⟩
abbrev main_call6_v10 : Ref sig .tc := ⟨.hbm, 153, rfl⟩
abbrev main_v94 : Ref sig .tc := ⟨.hbm, 154, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  shapeCasts_S32768x2048_S32768x1x2048 : S32768x2048.ShapeCasts S32768x1x2048
  reducesTo_S32768x1x2048_S32768x1_d2 : S32768x1x2048.ReducesTo [2] S32768x1
  h_S_ : 0 < S_.numel
  bcast_S32768x1_S32768x1x1_0_1 : S32768x1.BroadcastsInDim S32768x1x1 (![0, 1] : Fin 2 → Fin S32768x1x1.rank)
  bcast_S_S32768x1x1 : S_.BroadcastsInDim S32768x1x1 (![] : Fin 0 → Fin S32768x1x1.rank)
  bcast_S32768x1x1_S32768x1x2048_0_1_2 : S32768x1x1.BroadcastsInDim S32768x1x2048 (![0, 1, 2] : Fin 3 → Fin S32768x1x2048.rank)
  shapeCasts_S32768x1x2048_S32768x2048 : S32768x1x2048.ShapeCasts S32768x2048
  bcast_S_S32768x2048 : S_.BroadcastsInDim S32768x2048 (![] : Fin 0 → Fin S32768x2048.rank)
  shapeCasts_S32768x1024_S32768x1x1024 : S32768x1024.ShapeCasts S32768x1x1024
  reducesTo_S32768x1x1024_S32768x1_d2 : S32768x1x1024.ReducesTo [2] S32768x1
  bcast_S32768x1x1_S32768x1x1024_0_1_2 : S32768x1x1.BroadcastsInDim S32768x1x1024 (![0, 1, 2] : Fin 3 → Fin S32768x1x1024.rank)
  shapeCasts_S32768x1x1024_S32768x1024 : S32768x1x1024.ShapeCasts S32768x1024
  bcast_S_S32768x1024 : S_.BroadcastsInDim S32768x1024 (![] : Fin 0 → Fin S32768x1024.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  reducesTo_S32768x256_S32768_d1 : S32768x256.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  dot_S32768x8_S8x32_S32768x32_1_0_0_1_n_n_wf : DotDims.WF S32768x8 S8x32 S32768x32 [1] [0] [0] [1] [] []
  dot_S32768x32_S32x2048_S32768x2048_1_0_0_1_n_n_wf : DotDims.WF S32768x32 S32x2048 S32768x2048 [1] [0] [0] [1] [] []
  dot_S32768x32_S32x1024_S32768x1024_1_0_0_1_n_n_wf : DotDims.WF S32768x32 S32x1024 S32768x1024 [1] [0] [0] [1] [] []
  dot_S32768x512_S512x2048_S32768x2048_1_0_0_1_n_n_wf : DotDims.WF S32768x512 S512x2048 S32768x2048 [1] [0] [0] [1] [] []
  dot_S32768x2048_S2048x1024_S32768x1024_1_0_0_1_n_n_wf : DotDims.WF S32768x2048 S2048x1024 S32768x1024 [1] [0] [0] [1] [] []
  dot_S32768x1024_S1024x256_S32768x256_1_0_0_1_n_n_wf : DotDims.WF S32768x1024 S1024x256 S32768x256 [1] [0] [0] [1] [] []

variable [Facts₀]

def dot_S32768x8_S8x32_S32768x32_1_0_0_1_n_n : DotDims S32768x8 S8x32 S32768x32 where
  lhsContracting := [1]
  rhsContracting := [0]
  lhsNonContracting := [0]
  rhsNonContracting := [1]
  lhsBatch := []
  rhsBatch := []
  wf := dot_S32768x8_S8x32_S32768x32_1_0_0_1_n_n_wf
def dot_S32768x32_S32x2048_S32768x2048_1_0_0_1_n_n : DotDims S32768x32 S32x2048 S32768x2048 where
  lhsContracting := [1]
  rhsContracting := [0]
  lhsNonContracting := [0]
  rhsNonContracting := [1]
  lhsBatch := []
  rhsBatch := []
  wf := dot_S32768x32_S32x2048_S32768x2048_1_0_0_1_n_n_wf
def dot_S32768x32_S32x1024_S32768x1024_1_0_0_1_n_n : DotDims S32768x32 S32x1024 S32768x1024 where
  lhsContracting := [1]
  rhsContracting := [0]
  lhsNonContracting := [0]
  rhsNonContracting := [1]
  lhsBatch := []
  rhsBatch := []
  wf := dot_S32768x32_S32x1024_S32768x1024_1_0_0_1_n_n_wf
def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def dot_S32768x1024_S1024x256_S32768x256_1_0_0_1_n_n : DotDims S32768x1024 S1024x256 S32768x256 where
  lhsContracting := [1]
  rhsContracting := [0]
  lhsNonContracting := [0]
  rhsNonContracting := [1]
  lhsBatch := []
  rhsBatch := []
  wf := dot_S32768x1024_S1024x256_S32768x256_1_0_0_1_n_n_wf

class Facts : Prop extends Facts₀ where

variable [Facts]
-- ==== Proof.Spec.lean ====
/-
  A per-sample network with hypernet-generated normalisation parameters, as ONE function of a sample's
  feature row, its parameter row and the weights, on the extended reals.

  Every operation of the network acts on one sample (one row of the batch) at a time: an affine layer
  is a sum over the input channels, the normalisation's mean and variance are sums over that sample's
  channels, and the closing log-softmax takes its maximum and its sum over that sample's classes. So
  the whole network is a function of ONE row, and a batch is that function applied row by row; how the
  batch is cut into tiles never enters.

  For a sample with feature row x (512 channels) and parameter row p (8 entries):
    w1, b1 (2048 each) and w2, b2 (1024 each) are four two-layer hypernets of p,
        hyper p = relu (p · A + a) · B + b;
    y1 = relu (norm (x · L1 + l1) * w1 + b1),   y2 = relu (norm (y1 · L2 + l2) * w2 + b2),
        norm v = (v - mean v) * rsqrt (mean ((v - mean v)²) + ε), the means over the row's channels;
    the result is logSoftmax (y2 · L3 + l3).
  Sums are sums in the extended reals (a commutative monoid: no order is left in them); the quotient,
  the reciprocal square root, the exponential and the logarithm are the ideal instance's.
-/
import Idealize.ShloMosaic.PureOps.Ideal
import Idealize.ShloMosaic.Lib.ValueIdx

noncomputable section

open scoped BigOperators

namespace Cert.RowNet

open Idealize.ShloMosaic

/-- The zero the rectifier compares with, the channel counts the means divide by, the variance's
    ε and the maximum's starting value: the words both programs print, read at the ideal instance. They are
    never evaluated: the same word stands on both sides. -/
abbrev zeroW : EReal := Ideal.ofBits .f32 0x00000000#32
abbrev n2048 : EReal := Ideal.ofBits .f32 0x45000000#32
abbrev n1024 : EReal := Ideal.ofBits .f32 0x44800000#32
abbrev epsW : EReal := Ideal.ofBits .f32 0x3727C5AC#32
abbrev negInfW : EReal := Ideal.ofBits .f32 0xFF800000#32

/-- Row r of a rank-2 array, as a function of the column. -/
abbrev rowOf {M N : Nat} (a : (⟨2, ![M, N]⟩ : Shape).Idx → EReal) (r : Fin M) : Fin N → EReal :=
  fun k => a (ValueIdx.ix2 r k)

/-- A rank-2 array by its two coordinates. -/
abbrev matOf {K N : Nat} (a : (⟨2, ![K, N]⟩ : Shape).Idx → EReal) : Fin K → Fin N → EReal :=
  fun k j => a (ValueIdx.ix2 k j)

/-- A rank-1 array by its coordinate. -/
abbrev vecOf {N : Nat} (a : (⟨1, ![N]⟩ : Shape).Idx → EReal) : Fin N → EReal :=
  fun j => a (ValueIdx.ix1 j)

/-- An affine layer on one row: channel j of the result is the sum over the input channels k of
    x[k] * W[k, j], plus the bias b[j]. -/
def aff {K N : Nat} (x : Fin K → EReal) (W : Fin K → Fin N → EReal) (b : Fin N → EReal) : Fin N → EReal :=
  fun j => (∑ k : Fin K, x k * W k j) + b j

/-- The rectifier, channel by channel: the larger of the entry and zero. -/
def relu {N : Nat} (v : Fin N → EReal) : Fin N → EReal := fun j => max (v j) zeroW

/-- A two-layer hypernet of the parameter row: an affine layer, the rectifier, an affine layer. -/
def hyper {P H N : Nat} (p : Fin P → EReal) (A : Fin P → Fin H → EReal) (a : Fin H → EReal)
    (B : Fin H → Fin N → EReal) (b : Fin N → EReal) : Fin N → EReal :=
  aff (relu (aff p A a)) B b

/-- The mean of a row over its channels: their sum divided by the channel count d. -/
def mean {N : Nat} (d : EReal) (v : Fin N → EReal) : EReal := Ideal.div (∑ j : Fin N, v j) d

/-- A row centred at its mean. -/
def centred {N : Nat} (d : EReal) (v : Fin N → EReal) : Fin N → EReal := fun j => v j - mean d v

/-- The variance of a row: the mean of the squares of the centred row. -/
def variance {N : Nat} (d : EReal) (v : Fin N → EReal) : EReal :=
  mean d fun j => centred d v j * centred d v j

/-- A row normalised over its channels: centred, times the reciprocal square root of the variance plus ε. -/
def norm {N : Nat} (d : EReal) (v : Fin N → EReal) : Fin N → EReal :=
  fun j => centred d v j * Ideal.rsqrt (variance d v + epsW)

/-- A normalised row under a per-sample scale and shift, rectified. -/
def modulated {N : Nat} (d : EReal) (v w b : Fin N → EReal) : Fin N → EReal :=
  relu fun j => norm d v j * w j + b j

/-- The largest entry of a row: the fold of max from the starting value, once more against it. -/
def rowMax {N : Nat} (v : Fin N → EReal) : EReal :=
  max negInfW ((Finset.univ : Finset (Fin N)).fold max negInfW v)

/-- A row shifted down by its largest entry. -/
def shifted {N : Nat} (v : Fin N → EReal) : Fin N → EReal := fun j => v j - rowMax v

/-- The log-softmax of a row: the shifted row minus the logarithm of the sum of its exponentials. -/
def logSoftmax {N : Nat} (v : Fin N → EReal) : Fin N → EReal :=
  fun j => shifted v j - Ideal.log (∑ k : Fin N, Ideal.exp (shifted v k))

/-- The whole network on one sample. -/
def rowNet (x : Fin 512 → EReal) (p : Fin 8 → EReal)
    (A1 : Fin 8 → Fin 32 → EReal) (a1 : Fin 32 → EReal) (B1 : Fin 32 → Fin 2048 → EReal) (b1 : Fin 2048 → EReal)
    (A2 : Fin 8 → Fin 32 → EReal) (a2 : Fin 32 → EReal) (B2 : Fin 32 → Fin 2048 → EReal) (b2 : Fin 2048 → EReal)
    (A3 : Fin 8 → Fin 32 → EReal) (a3 : Fin 32 → EReal) (B3 : Fin 32 → Fin 1024 → EReal) (b3 : Fin 1024 → EReal)
    (A4 : Fin 8 → Fin 32 → EReal) (a4 : Fin 32 → EReal) (B4 : Fin 32 → Fin 1024 → EReal) (b4 : Fin 1024 → EReal)
    (L1 : Fin 512 → Fin 2048 → EReal) (l1 : Fin 2048 → EReal)
    (L2 : Fin 2048 → Fin 1024 → EReal) (l2 : Fin 1024 → EReal)
    (L3 : Fin 1024 → Fin 256 → EReal) (l3 : Fin 256 → EReal) : Fin 256 → EReal :=
  logSoftmax (aff
    (modulated n1024
      (aff (modulated n2048 (aff x L1 l1) (hyper p A1 a1 B1 b1) (hyper p A2 a2 B2 b2)) L2 l2)
      (hyper p A3 a3 B3 b3) (hyper p A4 a4 B4 b4))
    L3 l3)

/-- The network over the whole batch: entry (r, q) of the result is the network on sample r's feature row
    and parameter row, at class q. -/
def net (a0 : (⟨2, ![32768, 512]⟩ : Shape).Idx → EReal) (a1 : (⟨2, ![32768, 8]⟩ : Shape).Idx → EReal)
    (a2 : (⟨2, ![8, 32]⟩ : Shape).Idx → EReal) (a3 : (⟨1, ![32]⟩ : Shape).Idx → EReal)
    (a4 : (⟨2, ![32, 2048]⟩ : Shape).Idx → EReal) (a5 : (⟨1, ![2048]⟩ : Shape).Idx → EReal)
    (a6 : (⟨2, ![8, 32]⟩ : Shape).Idx → EReal) (a7 : (⟨1, ![32]⟩ : Shape).Idx → EReal)
    (a8 : (⟨2, ![32, 2048]⟩ : Shape).Idx → EReal) (a9 : (⟨1, ![2048]⟩ : Shape).Idx → EReal)
    (a10 : (⟨2, ![8, 32]⟩ : Shape).Idx → EReal) (a11 : (⟨1, ![32]⟩ : Shape).Idx → EReal)
    (a12 : (⟨2, ![32, 1024]⟩ : Shape).Idx → EReal) (a13 : (⟨1, ![1024]⟩ : Shape).Idx → EReal)
    (a14 : (⟨2, ![8, 32]⟩ : Shape).Idx → EReal) (a15 : (⟨1, ![32]⟩ : Shape).Idx → EReal)
    (a16 : (⟨2, ![32, 1024]⟩ : Shape).Idx → EReal) (a17 : (⟨1, ![1024]⟩ : Shape).Idx → EReal)
    (a18 : (⟨2, ![512, 2048]⟩ : Shape).Idx → EReal) (a19 : (⟨1, ![2048]⟩ : Shape).Idx → EReal)
    (a20 : (⟨2, ![2048, 1024]⟩ : Shape).Idx → EReal) (a21 : (⟨1, ![1024]⟩ : Shape).Idx → EReal)
    (a22 : (⟨2, ![1024, 256]⟩ : Shape).Idx → EReal) (a23 : (⟨1, ![256]⟩ : Shape).Idx → EReal) :
    (⟨2, ![32768, 256]⟩ : Shape).Idx → EReal :=
  fun i => rowNet (rowOf a0 (i 0)) (rowOf a1 (i 0))
    (matOf a2) (vecOf a3) (matOf a4) (vecOf a5) (matOf a6) (vecOf a7) (matOf a8) (vecOf a9)
    (matOf a10) (vecOf a11) (matOf a12) (vecOf a13) (matOf a14) (vecOf a15) (matOf a16) (vecOf a17)
    (matOf a18) (vecOf a19) (matOf a20) (vecOf a21) (matOf a22) (vecOf a23) (i 1)

end Cert.RowNet

end
-- ==== Proof.TileReads.lean ====
/-
  The weight windows' tiles are the weight arrays.

  The kernel's one grid axis runs over the batch; every weight window (the eight hypernet matrices and
  their eight biases, the three layer matrices and their three biases) has a block as large as its
  array and a block index that is zero at every grid point, so the tile the body loads from it is the
  whole array the region finds, at every point. That array is the argument itself for the hypernet
  matrices; for a bias it is the argument reshaped by a host operation from [N] to one row [1, N],
  whose entry (0, j) is the bias at j; for a layer matrix it is the argument after a change of float
  format, which at the ideal instance is the identity.
-/
import proofs.«145171_j88673894793362_1_alg».proof.Proof.Gen.KernelIdeal.Value
import proofs.«145171_j88673894793362_1_alg».proof.Proof.Spec
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Tiles

open Cert.KernelIdeal Cert.KernelIdeal.Gen Cert.KernelIdeal.Value Idealize.ShloMosaic.ValueIdx Cert.RowNet

variable (m : (ℓ : Loc nD τ sig) → Buf (Elt Ideal) ℓ)

/-! ## The argument arrays as launched, and the tiles, at their literal types -/
abbrev A0 (c : Dev nD) : S32768x512.Idx → EReal := m ((c : Thread nD τ).loc main_arg0)
abbrev A1 (c : Dev nD) : S32768x8.Idx → EReal := m ((c : Thread nD τ).loc main_arg1)
abbrev A2 (c : Dev nD) : S8x32.Idx → EReal := m ((c : Thread nD τ).loc main_arg2)
abbrev A3 (c : Dev nD) : S32.Idx → EReal := m ((c : Thread nD τ).loc main_arg3)
abbrev A4 (c : Dev nD) : S32x2048.Idx → EReal := m ((c : Thread nD τ).loc main_arg4)
abbrev A5 (c : Dev nD) : S2048.Idx → EReal := m ((c : Thread nD τ).loc main_arg5)
abbrev A6 (c : Dev nD) : S8x32.Idx → EReal := m ((c : Thread nD τ).loc main_arg6)
abbrev A7 (c : Dev nD) : S32.Idx → EReal := m ((c : Thread nD τ).loc main_arg7)
abbrev A8 (c : Dev nD) : S32x2048.Idx → EReal := m ((c : Thread nD τ).loc main_arg8)
abbrev A9 (c : Dev nD) : S2048.Idx → EReal := m ((c : Thread nD τ).loc main_arg9)
abbrev A10 (c : Dev nD) : S8x32.Idx → EReal := m ((c : Thread nD τ).loc main_arg10)
abbrev A11 (c : Dev nD) : S32.Idx → EReal := m ((c : Thread nD τ).loc main_arg11)
abbrev A12 (c : Dev nD) : S32x1024.Idx → EReal := m ((c : Thread nD τ).loc main_arg12)
abbrev A13 (c : Dev nD) : S1024.Idx → EReal := m ((c : Thread nD τ).loc main_arg13)
abbrev A14 (c : Dev nD) : S8x32.Idx → EReal := m ((c : Thread nD τ).loc main_arg14)
abbrev A15 (c : Dev nD) : S32.Idx → EReal := m ((c : Thread nD τ).loc main_arg15)
abbrev A16 (c : Dev nD) : S32x1024.Idx → EReal := m ((c : Thread nD τ).loc main_arg16)
abbrev A17 (c : Dev nD) : S1024.Idx → EReal := m ((c : Thread nD τ).loc main_arg17)
abbrev A18 (c : Dev nD) : S512x2048.Idx → EReal := m ((c : Thread nD τ).loc main_arg18)
abbrev A19 (c : Dev nD) : S2048.Idx → EReal := m ((c : Thread nD τ).loc main_arg19)
abbrev A20 (c : Dev nD) : S2048x1024.Idx → EReal := m ((c : Thread nD τ).loc main_arg20)
abbrev A21 (c : Dev nD) : S1024.Idx → EReal := m ((c : Thread nD τ).loc main_arg21)
abbrev A22 (c : Dev nD) : S1024x256.Idx → EReal := m ((c : Thread nD τ).loc main_arg22)
abbrev A23 (c : Dev nD) : S256.Idx → EReal := m ((c : Thread nD τ).loc main_arg23)

abbrev T0 (c : Dev nD) (t : Fin cfg0.N) : Vec Ideal S256x512 .f32 := iblk m c 0 t
abbrev T1 (c : Dev nD) (t : Fin cfg0.N) : Vec Ideal S256x8 .f32 := iblk m c 1 t
abbrev T2 (c : Dev nD) (t : Fin cfg0.N) : Vec Ideal S8x32 .f32 := iblk m c 2 t
abbrev T3 (c : Dev nD) (t : Fin cfg0.N) : Vec Ideal S1x32 .f32 := iblk m c 3 t
abbrev T4 (c : Dev nD) (t : Fin cfg0.N) : Vec Ideal S32x2048 .f32 := iblk m c 4 t
abbrev T5 (c : Dev nD) (t : Fin cfg0.N) : Vec Ideal S1x2048 .f32 := iblk m c 5 t
abbrev T6 (c : Dev nD) (t : Fin cfg0.N) : Vec Ideal S8x32 .f32 := iblk m c 6 t
abbrev T7 (c : Dev nD) (t : Fin cfg0.N) : Vec Ideal S1x32 .f32 := iblk m c 7 t
abbrev T8 (c : Dev nD) (t : Fin cfg0.N) : Vec Ideal S32x2048 .f32 := iblk m c 8 t
abbrev T9 (c : Dev nD) (t : Fin cfg0.N) : Vec Ideal S1x2048 .f32 := iblk m c 9 t
abbrev T10 (c : Dev nD) (t : Fin cfg0.N) : Vec Ideal S8x32 .f32 := iblk m c 10 t
abbrev T11 (c : Dev nD) (t : Fin cfg0.N) : Vec Ideal S1x32 .f32 := iblk m c 11 t
abbrev T12 (c : Dev nD) (t : Fin cfg0.N) : Vec Ideal S32x1024 .f32 := iblk m c 12 t
abbrev T13 (c : Dev nD) (t : Fin cfg0.N) : Vec Ideal S1x1024 .f32 := iblk m c 13 t
abbrev T14 (c : Dev nD) (t : Fin cfg0.N) : Vec Ideal S8x32 .f32 := iblk m c 14 t
abbrev T15 (c : Dev nD) (t : Fin cfg0.N) : Vec Ideal S1x32 .f32 := iblk m c 15 t
abbrev T16 (c : Dev nD) (t : Fin cfg0.N) : Vec Ideal S32x1024 .f32 := iblk m c 16 t
abbrev T17 (c : Dev nD) (t : Fin cfg0.N) : Vec Ideal S1x1024 .f32 := iblk m c 17 t
abbrev T18 (c : Dev nD) (t : Fin cfg0.N) : Vec Ideal S512x2048 .bf16 := iblk m c 18 t
abbrev T19 (c : Dev nD) (t : Fin cfg0.N) : Vec Ideal S1x2048 .f32 := iblk m c 19 t
abbrev T20 (c : Dev nD) (t : Fin cfg0.N) : Vec Ideal S2048x1024 .bf16 := iblk m c 20 t
abbrev T21 (c : Dev nD) (t : Fin cfg0.N) : Vec Ideal S1x1024 .f32 := iblk m c 21 t
abbrev T22 (c : Dev nD) (t : Fin cfg0.N) : Vec Ideal S1024x256 .bf16 := iblk m c 22 t
abbrev T23 (c : Dev nD) (t : Fin cfg0.N) : Vec Ideal S1x256 .f32 := iblk m c 23 t

/-! ## Window 2 -/

/-- Window 2's block index is zero at every grid point (decided over the 128 points). -/
theorem idx2 : ∀ t : Fin cfg0.N, win0_2.index t (0 : Fin 2) = 0 ∧ win0_2.index t (1 : Fin 2) = 0 :=
  (by decide +kernel : ∀ t : Fin grid0.N, _)

/-- So window 2's tile is the whole array the region finds. -/
theorem tile2_eq (c : Dev nD) (t : Fin cfg0.N) : T2 m c t = (V m c main_arg2 : S8x32.Idx → EReal) := by
  obtain ⟨e0, e1⟩ := idx2 t
  funext y
  show iblk m c 2 t y = _
  unfold iblk
  rw [View.read_apply]
  show V m c main_arg2 _ = V m c main_arg2 y
  congr 1
  funext a
  apply Fin.ext
  match a with
  | ⟨0, _⟩ => show win0_2.index t (0 : Fin 2) * 8 + 1 * (y 0).val = (y 0).val; rw [e0]; omega
  | ⟨1, _⟩ => show win0_2.index t (1 : Fin 2) * 32 + 1 * (y 1).val = (y 1).val; rw [e1]; omega

/-- No host operation writes it: by coordinates the tile is argument 2. -/
theorem tile2_mat (c : Dev nD) (t : Fin cfg0.N) : matOf (T2 m c t) = matOf (A2 m c) := by
  rw [tile2_eq]; exact congrArg matOf (V_main_arg2 m c)

/-! ## Window 3 -/

/-- The array window 3 stages is argument 3 reshaped to one row by a host operation before the region. -/
theorem V_main_v0 (c : Dev nD) : (V m c main_v0 : S1x32.Idx → EReal) = shapeCast S1x32 (A3 m c) shapeCasts_S32_S1x32 := by
  dsimp only [V, hostOps0]; after_results; rfl

/-- Window 3's block index is zero at every grid point (decided over the 128 points). -/
theorem idx3 : ∀ t : Fin cfg0.N, win0_3.index t (0 : Fin 2) = 0 ∧ win0_3.index t (1 : Fin 2) = 0 :=
  (by decide +kernel : ∀ t : Fin grid0.N, _)

/-- So window 3's tile is the whole array the region finds. -/
theorem tile3_eq (c : Dev nD) (t : Fin cfg0.N) : T3 m c t = (V m c main_v0 : S1x32.Idx → EReal) := by
  obtain ⟨e0, e1⟩ := idx3 t
  funext y
  show iblk m c 3 t y = _
  unfold iblk
  rw [View.read_apply]
  show V m c main_v0 _ = V m c main_v0 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

/-- The tile's one row is argument 3: entry (0, j) of the reshaped array is the argument at j. -/
theorem tile3_vec (c : Dev nD) (t : Fin cfg0.N) : rowOf (T3 m c t) 0 = vecOf (A3 m c) := by
  rw [tile3_eq, V_main_v0]
  funext j
  exact shapeCast_a_1a_apply (A3 m c) shapeCasts_S32_S1x32 0 j

/-! ## Window 4 -/

/-- Window 4's block index is zero at every grid point (decided over the 128 points). -/
theorem idx4 : ∀ t : Fin cfg0.N, win0_4.index t (0 : Fin 2) = 0 ∧ win0_4.index t (1 : Fin 2) = 0 :=
  (by decide +kernel : ∀ t : Fin grid0.N, _)

/-- So window 4's tile is the whole array the region finds. -/
theorem tile4_eq (c : Dev nD) (t : Fin cfg0.N) : T4 m c t = (V m c main_arg4 : S32x2048.Idx → EReal) := by
  obtain ⟨e0, e1⟩ := idx4 t
  funext y
  show iblk m c 4 t y = _
  unfold iblk
  rw [View.read_apply]
  show V m c main_arg4 _ = V m c main_arg4 y
  congr 1
  funext a
  apply Fin.ext
  match a with
  | ⟨0, _⟩ => show win0_4.index t (0 : Fin 2) * 32 + 1 * (y 0).val = (y 0).val; rw [e0]; omega
  | ⟨1, _⟩ => show win0_4.index t (1 : Fin 2) * 2048 + 1 * (y 1).val = (y 1).val; rw [e1]; omega

/-- No host operation writes it: by coordinates the tile is argument 4. -/
theorem tile4_mat (c : Dev nD) (t : Fin cfg0.N) : matOf (T4 m c t) = matOf (A4 m c) := by
  rw [tile4_eq]; exact congrArg matOf (V_main_arg4 m c)

/-! ## Window 5 -/

/-- The array window 5 stages is argument 5 reshaped to one row by a host operation before the region. -/
theorem V_main_v2 (c : Dev nD) : (V m c main_v2 : S1x2048.Idx → EReal) = shapeCast S1x2048 (A5 m c) shapeCasts_S2048_S1x2048 := by
  dsimp only [V, hostOps0]; after_results; rfl

/-- Window 5's block index is zero at every grid point (decided over the 128 points). -/
theorem idx5 : ∀ t : Fin cfg0.N, win0_5.index t (0 : Fin 2) = 0 ∧ win0_5.index t (1 : Fin 2) = 0 :=
  (by decide +kernel : ∀ t : Fin grid0.N, _)

/-- So window 5's tile is the whole array the region finds. -/
theorem tile5_eq (c : Dev nD) (t : Fin cfg0.N) : T5 m c t = (V m c main_v2 : S1x2048.Idx → EReal) := by
  obtain ⟨e0, e1⟩ := idx5 t
  funext y
  show iblk m c 5 t y = _
  unfold iblk
  rw [View.read_apply]
  show V m c main_v2 _ = V m c main_v2 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 2048 + 1 * (y 1).val = (y 1).val; rw [e1]; omega

/-- The tile's one row is argument 5: entry (0, j) of the reshaped array is the argument at j. -/
theorem tile5_vec (c : Dev nD) (t : Fin cfg0.N) : rowOf (T5 m c t) 0 = vecOf (A5 m c) := by
  rw [tile5_eq, V_main_v2]
  funext j
  exact shapeCast_a_1a_apply (A5 m c) shapeCasts_S2048_S1x2048 0 j

/-! ## Window 6 -/

/-- Window 6's block index is zero at every grid point (decided over the 128 points). -/
theorem idx6 : ∀ t : Fin cfg0.N, win0_6.index t (0 : Fin 2) = 0 ∧ win0_6.index t (1 : Fin 2) = 0 :=
  (by decide +kernel : ∀ t : Fin grid0.N, _)

/-- So window 6's tile is the whole array the region finds. -/
theorem tile6_eq (c : Dev nD) (t : Fin cfg0.N) : T6 m c t = (V m c main_arg6 : S8x32.Idx → EReal) := by
  obtain ⟨e0, e1⟩ := idx6 t
  funext y
  show iblk m c 6 t y = _
  unfold iblk
  rw [View.read_apply]
  show V m c main_arg6 _ = V m c main_arg6 y
  congr 1
  funext a
  apply Fin.ext
  match a with
  | ⟨0, _⟩ => show win0_6.index t (0 : Fin 2) * 8 + 1 * (y 0).val = (y 0).val; rw [e0]; omega
  | ⟨1, _⟩ => show win0_6.index t (1 : Fin 2) * 32 + 1 * (y 1).val = (y 1).val; rw [e1]; omega

/-- No host operation writes it: by coordinates the tile is argument 6. -/
theorem tile6_mat (c : Dev nD) (t : Fin cfg0.N) : matOf (T6 m c t) = matOf (A6 m c) := by
  rw [tile6_eq]; exact congrArg matOf (V_main_arg6 m c)

/-! ## Window 7 -/

/-- The array window 7 stages is argument 7 reshaped to one row by a host operation before the region. -/
theorem V_main_v1 (c : Dev nD) : (V m c main_v1 : S1x32.Idx → EReal) = shapeCast S1x32 (A7 m c) shapeCasts_S32_S1x32 := by
  dsimp only [V, hostOps0]; after_results; rfl

/-- Window 7's block index is zero at every grid point (decided over the 128 points). -/
theorem idx7 : ∀ t : Fin cfg0.N, win0_7.index t (0 : Fin 2) = 0 ∧ win0_7.index t (1 : Fin 2) = 0 :=
  (by decide +kernel : ∀ t : Fin grid0.N, _)

/-- So window 7's tile is the whole array the region finds. -/
theorem tile7_eq (c : Dev nD) (t : Fin cfg0.N) : T7 m c t = (V m c main_v1 : S1x32.Idx → EReal) := by
  obtain ⟨e0, e1⟩ := idx7 t
  funext y
  show iblk m c 7 t y = _
  unfold iblk
  rw [View.read_apply]
  show V m c main_v1 _ = V m c main_v1 y
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 32 + 1 * (y 1).val = (y 1).val; rw [e1]; omega

/-- The tile's one row is argument 7: entry (0, j) of the reshaped array is the argument at j. -/
theorem tile7_vec (c : Dev nD) (t : Fin cfg0.N) : rowOf (T7 m c t) 0 = vecOf (A7 m c) := by
  rw [tile7_eq, V_main_v1]
  funext j
  exact shapeCast_a_1a_apply (A7 m c) shapeCasts_S32_S1x32 0 j

/-! ## Window 8 -/

/-- Window 8's block index is zero at every grid point (decided over the 128 points). -/
theorem idx8 : ∀ t : Fin cfg0.N, win0_8.index t (0 : Fin 2) = 0 ∧ win0_8.index t (1 : Fin 2) = 0 :=
  (by decide +kernel : ∀ t : Fin grid0.N, _)

/-- So window 8's tile is the whole array the region finds. -/
theorem tile8_eq (c : Dev nD) (t : Fin cfg0.N) : T8 m c t = (V m c main_arg8 : S32x2048.Idx → EReal) := by
  obtain ⟨e0, e1⟩ := idx8 t
  funext y
  show iblk m c 8 t y = _
  unfold iblk
  rw [View.read_apply]
  show V m c main_arg8 _ = V m c main_arg8 y
  congr 1
  funext a
  apply Fin.ext
  match a with
  | ⟨0, _⟩ => show win0_8.index t (0 : Fin 2) * 32 + 1 * (y 0).val = (y 0).val; rw [e0]; omega
  | ⟨1, _⟩ => show win0_8.index t (1 : Fin 2) * 2048 + 1 * (y 1).val = (y 1).val; rw [e1]; omega

/-- No host operation writes it: by coordinates the tile is argument 8. -/
theorem tile8_mat (c : Dev nD) (t : Fin cfg0.N) : matOf (T8 m c t) = matOf (A8 m c) := by
  rw [tile8_eq]; exact congrArg matOf (V_main_arg8 m c)

/-! ## Window 9 -/

/-- The array window 9 stages is argument 9 reshaped to one row by a host operation before the region. -/
theorem V_main_v3 (c : Dev nD) : (V m c main_v3 : S1x2048.Idx → EReal) = shapeCast S1x2048 (A9 m c) shapeCasts_S2048_S1x2048 := by
  dsimp only [V, hostOps0]; after_results; rfl

/-- Window 9's block index is zero at every grid point (decided over the 128 points). -/
theorem idx9 : ∀ t : Fin cfg0.N, win0_9.index t (0 : Fin 2) = 0 ∧ win0_9.index t (1 : Fin 2) = 0 :=
  (by decide +kernel : ∀ t : Fin grid0.N, _)

/-- So window 9's tile is the whole array the region finds. -/
theorem tile9_eq (c : Dev nD) (t : Fin cfg0.N) : T9 m c t = (V m c main_v3 : S1x2048.Idx → EReal) := by
  obtain ⟨e0, e1⟩ := idx9 t
  funext y
  show iblk m c 9 t y = _
  unfold iblk
  rw [View.read_apply]
  show V m c main_v3 _ = V m c main_v3 y
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 2048 + 1 * (y 1).val = (y 1).val; rw [e1]; omega

/-- The tile's one row is argument 9: entry (0, j) of the reshaped array is the argument at j. -/
theorem tile9_vec (c : Dev nD) (t : Fin cfg0.N) : rowOf (T9 m c t) 0 = vecOf (A9 m c) := by
  rw [tile9_eq, V_main_v3]
  funext j
  exact shapeCast_a_1a_apply (A9 m c) shapeCasts_S2048_S1x2048 0 j

/-! ## Window 10 -/

/-- Window 10's block index is zero at every grid point (decided over the 128 points). -/
theorem idx10 : ∀ t : Fin cfg0.N, win0_10.index t (0 : Fin 2) = 0 ∧ win0_10.index t (1 : Fin 2) = 0 :=
  (by decide +kernel : ∀ t : Fin grid0.N, _)

/-- So window 10's tile is the whole array the region finds. -/
theorem tile10_eq (c : Dev nD) (t : Fin cfg0.N) : T10 m c t = (V m c main_arg10 : S8x32.Idx → EReal) := by
  obtain ⟨e0, e1⟩ := idx10 t
  funext y
  show iblk m c 10 t y = _
  unfold iblk
  rw [View.read_apply]
  show V m c main_arg10 _ = V m c main_arg10 y
  congr 1
  funext a
  apply Fin.ext
  match a with
  | ⟨0, _⟩ => show win0_10.index t (0 : Fin 2) * 8 + 1 * (y 0).val = (y 0).val; rw [e0]; omega
  | ⟨1, _⟩ => show win0_10.index t (1 : Fin 2) * 32 + 1 * (y 1).val = (y 1).val; rw [e1]; omega

/-- No host operation writes it: by coordinates the tile is argument 10. -/
theorem tile10_mat (c : Dev nD) (t : Fin cfg0.N) : matOf (T10 m c t) = matOf (A10 m c) := by
  rw [tile10_eq]; exact congrArg matOf (V_main_arg10 m c)

/-! ## Window 11 -/

/-- The array window 11 stages is argument 11 reshaped to one row by a host operation before the region. -/
theorem V_main_v4 (c : Dev nD) : (V m c main_v4 : S1x32.Idx → EReal) = shapeCast S1x32 (A11 m c) shapeCasts_S32_S1x32 := by
  dsimp only [V, hostOps0]; after_results; rfl

/-- Window 11's block index is zero at every grid point (decided over the 128 points). -/
theorem idx11 : ∀ t : Fin cfg0.N, win0_11.index t (0 : Fin 2) = 0 ∧ win0_11.index t (1 : Fin 2) = 0 :=
  (by decide +kernel : ∀ t : Fin grid0.N, _)

/-- So window 11's tile is the whole array the region finds. -/
theorem tile11_eq (c : Dev nD) (t : Fin cfg0.N) : T11 m c t = (V m c main_v4 : S1x32.Idx → EReal) := by
  obtain ⟨e0, e1⟩ := idx11 t
  funext y
  show iblk m c 11 t y = _
  unfold iblk
  rw [View.read_apply]
  show V m c main_v4 _ = V m c main_v4 y
  congr 1
  funext a
  apply Fin.ext
  match a with
  | ⟨0, _⟩ => show win0_11.index t (0 : Fin 2) * 1 + 1 * (y 0).val = (y 0).val; rw [e0]; omega
  | ⟨1, _⟩ => show win0_11.index t (1 : Fin 2) * 32 + 1 * (y 1).val = (y 1).val; rw [e1]; omega

/-- The tile's one row is argument 11: entry (0, j) of the reshaped array is the argument at j. -/
theorem tile11_vec (c : Dev nD) (t : Fin cfg0.N) : rowOf (T11 m c t) 0 = vecOf (A11 m c) := by
  rw [tile11_eq, V_main_v4]
  funext j
  exact shapeCast_a_1a_apply (A11 m c) shapeCasts_S32_S1x32 0 j

/-! ## Window 12 -/

/-- Window 12's block index is zero at every grid point (decided over the 128 points). -/
theorem idx12 : ∀ t : Fin cfg0.N, win0_12.index t (0 : Fin 2) = 0 ∧ win0_12.index t (1 : Fin 2) = 0 :=
  (by decide +kernel : ∀ t : Fin grid0.N, _)

/-- So window 12's tile is the whole array the region finds. -/
theorem tile12_eq (c : Dev nD) (t : Fin cfg0.N) : T12 m c t = (V m c main_arg12 : S32x1024.Idx → EReal) := by
  obtain ⟨e0, e1⟩ := idx12 t
  funext y
  show iblk m c 12 t y = _
  unfold iblk
  rw [View.read_apply]
  show V m c main_arg12 _ = V m c main_arg12 y
  congr 1
  funext a
  apply Fin.ext
  match a with
  | ⟨0, _⟩ => show win0_12.index t (0 : Fin 2) * 32 + 1 * (y 0).val = (y 0).val; rw [e0]; omega
  | ⟨1, _⟩ => show win0_12.index t (1 : Fin 2) * 1024 + 1 * (y 1).val = (y 1).val; rw [e1]; omega

/-- No host operation writes it: by coordinates the tile is argument 12. -/
theorem tile12_mat (c : Dev nD) (t : Fin cfg0.N) : matOf (T12 m c t) = matOf (A12 m c) := by
  rw [tile12_eq]; exact congrArg matOf (V_main_arg12 m c)

/-! ## Window 13 -/

/-- The array window 13 stages is argument 13 reshaped to one row by a host operation before the region. -/
theorem V_main_v6 (c : Dev nD) : (V m c main_v6 : S1x1024.Idx → EReal) = shapeCast S1x1024 (A13 m c) shapeCasts_S1024_S1x1024 := by
  dsimp only [V, hostOps0]; after_results; rfl

/-- Window 13's block index is zero at every grid point (decided over the 128 points). -/
theorem idx13 : ∀ t : Fin cfg0.N, win0_13.index t (0 : Fin 2) = 0 ∧ win0_13.index t (1 : Fin 2) = 0 :=
  (by decide +kernel : ∀ t : Fin grid0.N, _)

/-- So window 13's tile is the whole array the region finds. -/
theorem tile13_eq (c : Dev nD) (t : Fin cfg0.N) : T13 m c t = (V m c main_v6 : S1x1024.Idx → EReal) := by
  obtain ⟨e0, e1⟩ := idx13 t
  funext y
  show iblk m c 13 t y = _
  unfold iblk
  rw [View.read_apply]
  show V m c main_v6 _ = V m c main_v6 y
  congr 1
  funext a
  apply Fin.ext
  match a with
  | ⟨0, _⟩ => show win0_13.index t (0 : Fin 2) * 1 + 1 * (y 0).val = (y 0).val; rw [e0]; omega
  | ⟨1, _⟩ => show win0_13.index t (1 : Fin 2) * 1024 + 1 * (y 1).val = (y 1).val; rw [e1]; omega

/-- The tile's one row is argument 13: entry (0, j) of the reshaped array is the argument at j. -/
theorem tile13_vec (c : Dev nD) (t : Fin cfg0.N) : rowOf (T13 m c t) 0 = vecOf (A13 m c) := by
  rw [tile13_eq, V_main_v6]
  funext j
  exact shapeCast_a_1a_apply (A13 m c) shapeCasts_S1024_S1x1024 0 j

/-! ## Window 14 -/

/-- Window 14's block index is zero at every grid point (decided over the 128 points). -/
theorem idx14 : ∀ t : Fin cfg0.N, win0_14.index t (0 : Fin 2) = 0 ∧ win0_14.index t (1 : Fin 2) = 0 :=
  (by decide +kernel : ∀ t : Fin grid0.N, _)

/-- So window 14's tile is the whole array the region finds. -/
theorem tile14_eq (c : Dev nD) (t : Fin cfg0.N) : T14 m c t = (V m c main_arg14 : S8x32.Idx → EReal) := by
  obtain ⟨e0, e1⟩ := idx14 t
  funext y
  show iblk m c 14 t y = _
  unfold iblk
  rw [View.read_apply]
  show V m c main_arg14 _ = V m c main_arg14 y
  congr 1
  funext a
  apply Fin.ext
  match a with
  | ⟨0, _⟩ => show win0_14.index t (0 : Fin 2) * 8 + 1 * (y 0).val = (y 0).val; rw [e0]; omega
  | ⟨1, _⟩ => show win0_14.index t (1 : Fin 2) * 32 + 1 * (y 1).val = (y 1).val; rw [e1]; omega

/-- No host operation writes it: by coordinates the tile is argument 14. -/
theorem tile14_mat (c : Dev nD) (t : Fin cfg0.N) : matOf (T14 m c t) = matOf (A14 m c) := by
  rw [tile14_eq]; exact congrArg matOf (V_main_arg14 m c)

/-! ## Window 15 -/

/-- The array window 15 stages is argument 15 reshaped to one row by a host operation before the region. -/
theorem V_main_v5 (c : Dev nD) : (V m c main_v5 : S1x32.Idx → EReal) = shapeCast S1x32 (A15 m c) shapeCasts_S32_S1x32 := by
  dsimp only [V, hostOps0]; after_results; rfl

/-- Window 15's block index is zero at every grid point (decided over the 128 points). -/
theorem idx15 : ∀ t : Fin cfg0.N, win0_15.index t (0 : Fin 2) = 0 ∧ win0_15.index t (1 : Fin 2) = 0 :=
  (by decide +kernel : ∀ t : Fin grid0.N, _)

/-- So window 15's tile is the whole array the region finds. -/
theorem tile15_eq (c : Dev nD) (t : Fin cfg0.N) : T15 m c t = (V m c main_v5 : S1x32.Idx → EReal) := by
  obtain ⟨e0, e1⟩ := idx15 t
  funext y
  show iblk m c 15 t y = _
  unfold iblk
  rw [View.read_apply]
  show V m c main_v5 _ = V m c main_v5 y
  congr 1
  funext a
  apply Fin.ext
  match a with
  | ⟨0, _⟩ => show win0_15.index t (0 : Fin 2) * 1 + 1 * (y 0).val = (y 0).val; rw [e0]; omega
  | ⟨1, _⟩ => show win0_15.index t (1 : Fin 2) * 32 + 1 * (y 1).val = (y 1).val; rw [e1]; omega

/-- The tile's one row is argument 15: entry (0, j) of the reshaped array is the argument at j. -/
theorem tile15_vec (c : Dev nD) (t : Fin cfg0.N) : rowOf (T15 m c t) 0 = vecOf (A15 m c) := by
  rw [tile15_eq, V_main_v5]
  funext j
  exact shapeCast_a_1a_apply (A15 m c) shapeCasts_S32_S1x32 0 j

/-! ## Window 16 -/

/-- Window 16's block index is zero at every grid point (decided over the 128 points). -/
theorem idx16 : ∀ t : Fin cfg0.N, win0_16.index t (0 : Fin 2) = 0 ∧ win0_16.index t (1 : Fin 2) = 0 :=
  (by decide +kernel : ∀ t : Fin grid0.N, _)

/-- So window 16's tile is the whole array the region finds. -/
theorem tile16_eq (c : Dev nD) (t : Fin cfg0.N) : T16 m c t = (V m c main_arg16 : S32x1024.Idx → EReal) := by
  obtain ⟨e0, e1⟩ := idx16 t
  funext y
  show iblk m c 16 t y = _
  unfold iblk
  rw [View.read_apply]
  show V m c main_arg16 _ = V m c main_arg16 y
  congr 1
  funext a
  apply Fin.ext
  match a with
  | ⟨0, _⟩ => show win0_16.index t (0 : Fin 2) * 32 + 1 * (y 0).val = (y 0).val; rw [e0]; omega
  | ⟨1, _⟩ => show win0_16.index t (1 : Fin 2) * 1024 + 1 * (y 1).val = (y 1).val; rw [e1]; omega

/-- No host operation writes it: by coordinates the tile is argument 16. -/
theorem tile16_mat (c : Dev nD) (t : Fin cfg0.N) : matOf (T16 m c t) = matOf (A16 m c) := by
  rw [tile16_eq]; exact congrArg matOf (V_main_arg16 m c)

/-! ## Window 17 -/

/-- The array window 17 stages is argument 17 reshaped to one row by a host operation before the region. -/
theorem V_main_v7 (c : Dev nD) : (V m c main_v7 : S1x1024.Idx → EReal) = shapeCast S1x1024 (A17 m c) shapeCasts_S1024_S1x1024 := by
  dsimp only [V, hostOps0]; after_results; rfl

/-- Window 17's block index is zero at every grid point (decided over the 128 points). -/
theorem idx17 : ∀ t : Fin cfg0.N, win0_17.index t (0 : Fin 2) = 0 ∧ win0_17.index t (1 : Fin 2) = 0 :=
  (by decide +kernel : ∀ t : Fin grid0.N, _)

/-- So window 17's tile is the whole array the region finds. -/
theorem tile17_eq (c : Dev nD) (t : Fin cfg0.N) : T17 m c t = (V m c main_v7 : S1x1024.Idx → EReal) := by
  obtain ⟨e0, e1⟩ := idx17 t
  funext y
  show iblk m c 17 t y = _
  unfold iblk
  rw [View.read_apply]
  show V m c main_v7 _ = V m c main_v7 y
  congr 1
  funext a
  apply Fin.ext
  match a with
  | ⟨0, _⟩ => show win0_17.index t (0 : Fin 2) * 1 + 1 * (y 0).val = (y 0).val; rw [e0]; omega
  | ⟨1, _⟩ => show win0_17.index t (1 : Fin 2) * 1024 + 1 * (y 1).val = (y 1).val; rw [e1]; omega

/-- The tile's one row is argument 17: entry (0, j) of the reshaped array is the argument at j. -/
theorem tile17_vec (c : Dev nD) (t : Fin cfg0.N) : rowOf (T17 m c t) 0 = vecOf (A17 m c) := by
  rw [tile17_eq, V_main_v7]
  funext j
  exact shapeCast_a_1a_apply (A17 m c) shapeCasts_S1024_S1x1024 0 j

/-! ## Window 18 -/

/-- The array window 18 stages is argument 18 after a change of float format: the identity at the ideal instance. -/
theorem V_main_v11 (c : Dev nD) : (V m c main_v11 : S512x2048.Idx → EReal) = A18 m c := by
  dsimp only [V, hostOps0]; after_results; rfl

/-- Window 18's block index is zero at every grid point (decided over the 128 points). -/
theorem idx18 : ∀ t : Fin cfg0.N, win0_18.index t (0 : Fin 2) = 0 ∧ win0_18.index t (1 : Fin 2) = 0 :=
  (by decide +kernel : ∀ t : Fin grid0.N, _)

/-- So window 18's tile is the whole array the region finds. -/
theorem tile18_eq (c : Dev nD) (t : Fin cfg0.N) : T18 m c t = (V m c main_v11 : S512x2048.Idx → EReal) := by
  obtain ⟨e0, e1⟩ := idx18 t
  funext y
  show iblk m c 18 t y = _
  unfold iblk
  rw [View.read_apply]
  show V m c main_v11 _ = V m c main_v11 y
  congr 1
  funext a
  apply Fin.ext
  match a with
  | ⟨0, _⟩ => show win0_18.index t (0 : Fin 2) * 512 + 1 * (y 0).val = (y 0).val; rw [e0]; omega
  | ⟨1, _⟩ => show win0_18.index t (1 : Fin 2) * 2048 + 1 * (y 1).val = (y 1).val; rw [e1]; omega

/-- By coordinates the tile is argument 18. -/
theorem tile18_mat (c : Dev nD) (t : Fin cfg0.N) : matOf (T18 m c t) = matOf (A18 m c) := by
  rw [tile18_eq, V_main_v11]

/-! ## Window 19 -/

/-- The array window 19 stages is argument 19 reshaped to one row by a host operation before the region. -/
theorem V_main_v8 (c : Dev nD) : (V m c main_v8 : S1x2048.Idx → EReal) = shapeCast S1x2048 (A19 m c) shapeCasts_S2048_S1x2048 := by
  dsimp only [V, hostOps0]; after_results; rfl

/-- Window 19's block index is zero at every grid point (decided over the 128 points). -/
theorem idx19 : ∀ t : Fin cfg0.N, win0_19.index t (0 : Fin 2) = 0 ∧ win0_19.index t (1 : Fin 2) = 0 :=
  (by decide +kernel : ∀ t : Fin grid0.N, _)

/-- So window 19's tile is the whole array the region finds. -/
theorem tile19_eq (c : Dev nD) (t : Fin cfg0.N) : T19 m c t = (V m c main_v8 : S1x2048.Idx → EReal) := by
  obtain ⟨e0, e1⟩ := idx19 t
  funext y
  show iblk m c 19 t y = _
  unfold iblk
  rw [View.read_apply]
  show V m c main_v8 _ = V m c main_v8 y
  congr 1
  funext a
  apply Fin.ext
  match a with
  | ⟨0, _⟩ => show win0_19.index t (0 : Fin 2) * 1 + 1 * (y 0).val = (y 0).val; rw [e0]; omega
  | ⟨1, _⟩ => show win0_19.index t (1 : Fin 2) * 2048 + 1 * (y 1).val = (y 1).val; rw [e1]; omega

/-- The tile's one row is argument 19: entry (0, j) of the reshaped array is the argument at j. -/
theorem tile19_vec (c : Dev nD) (t : Fin cfg0.N) : rowOf (T19 m c t) 0 = vecOf (A19 m c) := by
  rw [tile19_eq, V_main_v8]
  funext j
  exact shapeCast_a_1a_apply (A19 m c) shapeCasts_S2048_S1x2048 0 j

/-! ## Window 20 -/

/-- The array window 20 stages is argument 20 after a change of float format: the identity at the ideal instance. -/
theorem V_main_v12 (c : Dev nD) : (V m c main_v12 : S2048x1024.Idx → EReal) = A20 m c := by
  dsimp only [V, hostOps0]; after_results; rfl

/-- Window 20's block index is zero at every grid point (decided over the 128 points). -/
theorem idx20 : ∀ t : Fin cfg0.N, win0_20.index t (0 : Fin 2) = 0 ∧ win0_20.index t (1 : Fin 2) = 0 :=
  (by decide +kernel : ∀ t : Fin grid0.N, _)

/-- So window 20's tile is the whole array the region finds. -/
theorem tile20_eq (c : Dev nD) (t : Fin cfg0.N) : T20 m c t = (V m c main_v12 : S2048x1024.Idx → EReal) := by
  obtain ⟨e0, e1⟩ := idx20 t
  funext y
  show iblk m c 20 t y = _
  unfold iblk
  rw [View.read_apply]
  show V m c main_v12 _ = V m c main_v12 y
  congr 1
  funext a
  apply Fin.ext
  match a with
  | ⟨0, _⟩ => show win0_20.index t (0 : Fin 2) * 2048 + 1 * (y 0).val = (y 0).val; rw [e0]; omega
  | ⟨1, _⟩ => show win0_20.index t (1 : Fin 2) * 1024 + 1 * (y 1).val = (y 1).val; rw [e1]; omega

/-- By coordinates the tile is argument 20. -/
theorem tile20_mat (c : Dev nD) (t : Fin cfg0.N) : matOf (T20 m c t) = matOf (A20 m c) := by
  rw [tile20_eq, V_main_v12]

/-! ## Window 21 -/

/-- The array window 21 stages is argument 21 reshaped to one row by a host operation before the region. -/
theorem V_main_v9 (c : Dev nD) : (V m c main_v9 : S1x1024.Idx → EReal) = shapeCast S1x1024 (A21 m c) shapeCasts_S1024_S1x1024 := by
  dsimp only [V, hostOps0]; after_results; rfl

/-- Window 21's block index is zero at every grid point (decided over the 128 points). -/
theorem idx21 : ∀ t : Fin cfg0.N, win0_21.index t (0 : Fin 2) = 0 ∧ win0_21.index t (1 : Fin 2) = 0 :=
  (by decide +kernel : ∀ t : Fin grid0.N, _)

/-- So window 21's tile is the whole array the region finds. -/
theorem tile21_eq (c : Dev nD) (t : Fin cfg0.N) : T21 m c t = (V m c main_v9 : S1x1024.Idx → EReal) := by
  obtain ⟨e0, e1⟩ := idx21 t
  funext y
  show iblk m c 21 t y = _
  unfold iblk
  rw [View.read_apply]
  show V m c main_v9 _ = V m c main_v9 y
  congr 1
  funext a
  apply Fin.ext
  match a with
  | ⟨0, _⟩ => show win0_21.index t (0 : Fin 2) * 1 + 1 * (y 0).val = (y 0).val; rw [e0]; omega
  | ⟨1, _⟩ => show win0_21.index t (1 : Fin 2) * 1024 + 1 * (y 1).val = (y 1).val; rw [e1]; omega

/-- The tile's one row is argument 21: entry (0, j) of the reshaped array is the argument at j. -/
theorem tile21_vec (c : Dev nD) (t : Fin cfg0.N) : rowOf (T21 m c t) 0 = vecOf (A21 m c) := by
  rw [tile21_eq, V_main_v9]
  funext j
  exact shapeCast_a_1a_apply (A21 m c) shapeCasts_S1024_S1x1024 0 j

/-! ## Window 22 -/

/-- The array window 22 stages is argument 22 after a change of float format: the identity at the ideal instance. -/
theorem V_main_v13 (c : Dev nD) : (V m c main_v13 : S1024x256.Idx → EReal) = A22 m c := by
  dsimp only [V, hostOps0]; after_results; rfl

/-- Window 22's block index is zero at every grid point (decided over the 128 points). -/
theorem idx22 : ∀ t : Fin cfg0.N, win0_22.index t (0 : Fin 2) = 0 ∧ win0_22.index t (1 : Fin 2) = 0 :=
  (by decide +kernel : ∀ t : Fin grid0.N, _)

/-- So window 22's tile is the whole array the region finds. -/
theorem tile22_eq (c : Dev nD) (t : Fin cfg0.N) : T22 m c t = (V m c main_v13 : S1024x256.Idx → EReal) := by
  obtain ⟨e0, e1⟩ := idx22 t
  funext y
  show iblk m c 22 t y = _
  unfold iblk
  rw [View.read_apply]
  show V m c main_v13 _ = V m c main_v13 y
  congr 1
  funext a
  apply Fin.ext
  match a with
  | ⟨0, _⟩ => show win0_22.index t (0 : Fin 2) * 1024 + 1 * (y 0).val = (y 0).val; rw [e0]; omega
  | ⟨1, _⟩ => show win0_22.index t (1 : Fin 2) * 256 + 1 * (y 1).val = (y 1).val; rw [e1]; omega

/-- By coordinates the tile is argument 22. -/
theorem tile22_mat (c : Dev nD) (t : Fin cfg0.N) : matOf (T22 m c t) = matOf (A22 m c) := by
  rw [tile22_eq, V_main_v13]

/-! ## Window 23 -/

/-- The array window 23 stages is argument 23 reshaped to one row by a host operation before the region. -/
theorem V_main_v10 (c : Dev nD) : (V m c main_v10 : S1x256.Idx → EReal) = shapeCast S1x256 (A23 m c) shapeCasts_S256_S1x256 := by
  dsimp only [V, hostOps0]; after_results; rfl

/-- Window 23's block index is zero at every grid point (decided over the 128 points). -/
theorem idx23 : ∀ t : Fin cfg0.N, win0_23.index t (0 : Fin 2) = 0 ∧ win0_23.index t (1 : Fin 2) = 0 :=
  (by decide +kernel : ∀ t : Fin grid0.N, _)

/-- So window 23's tile is the whole array the region finds. -/
theorem tile23_eq (c : Dev nD) (t : Fin cfg0.N) : T23 m c t = (V m c main_v10 : S1x256.Idx → EReal) := by
  obtain ⟨e0, e1⟩ := idx23 t
  funext y
  show iblk m c 23 t y = _
  unfold iblk
  rw [View.read_apply]
  show V m c main_v10 _ = V m c main_v10 y
  congr 1
  funext a
  apply Fin.ext
  match a with
  | ⟨0, _⟩ => show win0_23.index t (0 : Fin 2) * 1 + 1 * (y 0).val = (y 0).val; rw [e0]; omega
  | ⟨1, _⟩ => show win0_23.index t (1 : Fin 2) * 256 + 1 * (y 1).val = (y 1).val; rw [e1]; omega

/-- The tile's one row is argument 23: entry (0, j) of the reshaped array is the argument at j. -/
theorem tile23_vec (c : Dev nD) (t : Fin cfg0.N) : rowOf (T23 m c t) 0 = vecOf (A23 m c) := by
  rw [tile23_eq, V_main_v10]
  funext j
  exact shapeCast_a_1a_apply (A23 m c) shapeCasts_S256_S1x256 0 j

end Cert.KernelIdeal.Tiles

end
-- ==== Proof.RowRead.lean ====
/-
  Small reading lemmas for rank-2 arrays at the ideal instance, at an index written by its coordinates.

  A column ([a] cast to [a, 1]) read at (i, u) is the vector at i; a column broadcast along its unit
  axis ([a, 1] to [a, b]) read at (p, c) is the column at (p, 0); a reduction of an [M, N] array along
  its second axis, read at row p, runs over that row's entries: a sum for an add reduction, the fold of
  max from the starting value for a maximum reduction. The same for the host's one-operand reduce.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout

noncomputable section

open scoped BigOperators

namespace Cert.RowRead

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index p with the second axis's coordinate k put back is (p, k). -/
theorem lift_row {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- An add reduction of an [M, N] array along its second axis, at row p: the sum of that row's entries. -/
theorem rowSum_apply {M N : ℕ} {φ : FTy} (src : FVec Ideal ⟨2, ![M, N]⟩ φ) (acc : BitVec φ.bits)
    (h : (⟨2, ![M, N]⟩ : Shape).Reduces [1] (⟨1, ![M]⟩ : Shape)) (hφ : FKind.Formats φ)
    (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- A maximum reduction of an [M, N] array along its second axis, at row p: the fold of max from the
    starting value over that row's entries. -/
theorem rowMax_apply {M N : ℕ} {φ : FTy} (src : FVec Ideal ⟨2, ![M, N]⟩ φ) (acc : BitVec φ.bits)
    (h : (⟨2, ![M, N]⟩ : Shape).Reduces [1] (⟨1, ![M]⟩ : Shape)) (hφ : FKind.Formats φ)
    (hacc : acc = FKind.maximumf.neutral φ hφ) (p : Fin M) :
    multiReduction .maximumf [1] ⟨1, ![M]⟩ src acc h hφ hacc (ix1 p)
      = (Finset.univ : Finset (Fin N)).fold max (Ideal.ofBits φ acc) fun k => src (ix2 p k) := by
  rw [Ideal.multiReduction_maximumf_single]
  have hf : (src ∘ h.lift (ix1 p)) = fun k : Fin N => src (ix2 p k) := funext fun k => congrArg src (lift_row h p k)
  exact congrArg (fun f => Finset.fold max (Ideal.ofBits φ acc) f (Finset.univ : Finset (Fin N))) hf

/-- The host's reduce with a maximum body of an [M, N] array along its second axis, at row p: the fold of
    max from the initial value over that row's entries. -/
theorem hostRowMax_apply {M N : ℕ} {φ : FTy} (x : FVec Ideal ⟨2, ![M, N]⟩ φ) (init : FVec Ideal ⟨0, ![]⟩ φ)
    (h' : (⟨2, ![M, N]⟩ : Shape).ReducesTo [1] (⟨1, ![M]⟩ : Shape))
    (h : (⟨2, ![M, N]⟩ : Shape).Reduces [1] (⟨1, ![M]⟩ : Shape)) (hu : 0 < (⟨0, ![]⟩ : Shape).numel) (p : Fin M) :
    Host.reduce FloatOps.maximumf x init h' hu (ix1 p)
      = (Finset.univ : Finset (Fin N)).fold max (init (Shape.Idx.first hu)) fun k => x (ix2 p k) := by
  rw [Host.reduce_eq_fold_single FloatOps.maximumf x init h' h hu]
  have hf : (x ∘ h.lift (ix1 p)) = fun k : Fin N => x (ix2 p k) := funext fun k => congrArg x (lift_row h p k)
  exact congrArg (fun f => Finset.fold max (init (Shape.Idx.first hu)) f (Finset.univ : Finset (Fin N))) hf

end Cert.RowRead

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KernelRows1.lean ====
/-
  The kernel body's first values at one row of a tile: the four hypernet legs and the first linear layer.

  A tile holds 256 samples. Each of these values, read at row p and channel q of the tile, depends on
  row p of the tile's parameter block (or feature block) and on the weights only: a matrix product
  into a zero accumulator is the sum over the contracted channel, a bias row broadcast over the tile
  is the bias at the channel, the rectifier acts entry by entry. So each is the row function of the
  specification at row p.
-/
import proofs.«145171_j88673894793362_1_alg».proof.Proof.Gen.KernelIdeal.Skeleton
import proofs.«145171_j88673894793362_1_alg».proof.Proof.Spec
import proofs.«145171_j88673894793362_1_alg».proof.Proof.RowRead
import proofs.«145171_j88673894793362_1_alg».proof.Proof.LibDot2
import Idealize.ShloMosaic.Lib.ValueIdx
import Idealize.ShloMosaic.Lib.ValueLayout
import Idealize.ShloMosaic.Lib.Pipeline.Value

noncomputable section

open scoped BigOperators

namespace Cert.KernelIdeal.Rows

open Cert.KernelIdeal Cert.KernelIdeal.Gen Idealize.ShloMosaic Idealize.ShloMosaic.ValueIdx Cert.RowNet Cert.RowRead

/-! ## An affine layer and a rectifier on a tile, read at a row

Three facts carry the whole file. A product of an [M, K] tile by a [K, N] weight into a zero
accumulator, plus a [1, N] bias row spread over the M rows, is at (p, q) the affine layer of row p of
the tile at channel q: the product contributes the sum over the contracted channel k of
tile[p, k] * weight[k, q] and the spread row contributes bias[0, q], whatever p. The entrywise maximum
with the zero word acts inside each row, so row p of the rectified tile is the rectifier of row p.
A hypernet leg is these two composed: affine, rectifier, affine. -/

/-- A tile times a weight matrix into the zero accumulator, plus the bias row broadcast over the tile's
    rows (the row first recast to its own shape, which changes nothing), read at row p and channel q:
    the affine layer of row p at channel q. -/
theorem aff_read {M K N : ℕ} {φ₁ φ₂ : FTy}
    (wf : DotDims.WF ⟨2, ![M, K]⟩ ⟨2, ![K, N]⟩ ⟨2, ![M, N]⟩ [1] [0] [0] [1] [] [])
    (hs : (⟨2, ![1, N]⟩ : Shape).ShapeCasts ⟨2, ![1, N]⟩)
    (hb : (⟨2, ![1, N]⟩ : Shape).Broadcasts ⟨2, ![M, N]⟩)
    (l : FVec Ideal ⟨2, ![M, K]⟩ φ₁) (W : FVec Ideal ⟨2, ![K, N]⟩ φ₂) (b : FVec Ideal ⟨2, ![1, N]⟩ .f32)
    (p : Fin M) (q : Fin N) :
    addf (matmul (Dot2.mmDims M K N wf) none l W (constant ⟨2, ![M, N]⟩ .f32 0x00000000#32))
        (broadcastTo ⟨2, ![M, N]⟩ (shapeCast ⟨2, ![1, N]⟩ b hs) hb) (ix2 p q)
      = aff (rowOf l p) (matOf W) (rowOf b 0) q := by
  have hprod : matmul (Dot2.mmDims M K N wf) none l W (constant ⟨2, ![M, N]⟩ .f32 0x00000000#32) (ix2 p q)
      = ∑ k : Fin K, l (ix2 p k) * W (ix2 k q) := Dot2.matmul_zero_mm_apply wf none l W p q
  have hbias : broadcastTo ⟨2, ![M, N]⟩ (shapeCast ⟨2, ![1, N]⟩ b hs) hb (ix2 p q) = b (ix2 (0 : Fin 1) q) :=
    (broadcastTo_1b_ab_apply (shapeCast ⟨2, ![1, N]⟩ b hs) hb p q).trans
      (congrFun (shapeCast_self b hs) (ix2 (0 : Fin 1) q))
  show matmul (Dot2.mmDims M K N wf) none l W (constant ⟨2, ![M, N]⟩ .f32 0x00000000#32) (ix2 p q)
      + broadcastTo ⟨2, ![M, N]⟩ (shapeCast ⟨2, ![1, N]⟩ b hs) hb (ix2 p q)
    = (∑ k : Fin K, l (ix2 p k) * W (ix2 k q)) + b (ix2 (0 : Fin 1) q)
  rw [hprod, hbias]

/-- The entrywise maximum of a tile with the zero word, read along row p: the rectifier of what the
    tile holds along row p. -/
theorem relu_read {M N : ℕ} (v : FVec Ideal ⟨2, ![M, N]⟩ .f32) (p : Fin M) (f : Fin N → EReal)
    (h : ∀ k : Fin N, v (ix2 p k) = f k) :
    rowOf (maximumf v (broadcast ⟨2, ![M, N]⟩ (Scalar.ofBits (F := Ideal) .f32 0x00000000#32))) p = relu f :=
  funext fun k => congrArg (fun t : EReal => max t zeroW) (h k)

/-- A hypernet leg on a tile of parameter rows, read at row p and channel q: affine, rectifier, affine,
    each acting on row p alone. -/
theorem hyper_read {M P H N : ℕ}
    (wf₁ : DotDims.WF ⟨2, ![M, P]⟩ ⟨2, ![P, H]⟩ ⟨2, ![M, H]⟩ [1] [0] [0] [1] [] [])
    (wf₂ : DotDims.WF ⟨2, ![M, H]⟩ ⟨2, ![H, N]⟩ ⟨2, ![M, N]⟩ [1] [0] [0] [1] [] [])
    (hs₁ : (⟨2, ![1, H]⟩ : Shape).ShapeCasts ⟨2, ![1, H]⟩) (hb₁ : (⟨2, ![1, H]⟩ : Shape).Broadcasts ⟨2, ![M, H]⟩)
    (hs₂ : (⟨2, ![1, N]⟩ : Shape).ShapeCasts ⟨2, ![1, N]⟩) (hb₂ : (⟨2, ![1, N]⟩ : Shape).Broadcasts ⟨2, ![M, N]⟩)
    (x : FVec Ideal ⟨2, ![M, P]⟩ .f32) (A : FVec Ideal ⟨2, ![P, H]⟩ .f32) (a : FVec Ideal ⟨2, ![1, H]⟩ .f32)
    (B : FVec Ideal ⟨2, ![H, N]⟩ .f32) (b : FVec Ideal ⟨2, ![1, N]⟩ .f32) (p : Fin M) (q : Fin N) :
    addf
        (matmul (Dot2.mmDims M H N wf₂) none
          (maximumf
            (addf (matmul (Dot2.mmDims M P H wf₁) none x A (constant ⟨2, ![M, H]⟩ .f32 0x00000000#32))
              (broadcastTo ⟨2, ![M, H]⟩ (shapeCast ⟨2, ![1, H]⟩ a hs₁) hb₁))
            (broadcast ⟨2, ![M, H]⟩ (Scalar.ofBits (F := Ideal) .f32 0x00000000#32)))
          B (constant ⟨2, ![M, N]⟩ .f32 0x00000000#32))
        (broadcastTo ⟨2, ![M, N]⟩ (shapeCast ⟨2, ![1, N]⟩ b hs₂) hb₂) (ix2 p q)
      = hyper (rowOf x p) (matOf A) (rowOf a 0) (matOf B) (rowOf b 0) q := by
  refine (aff_read wf₂ hs₂ hb₂ _ B b p q).trans ?_
  unfold hyper
  exact congrArg (fun r : Fin H → EReal => aff r (matOf B) (rowOf b 0) q)
    (relu_read _ p _ fun k => aff_read wf₁ hs₁ hb₁ x A a p k)

/-! ## The printed products' dimension records

Each record the body cites contracts the left operand's second axis with the right operand's first and
has no batch axis: the plain matrix product's dimension numbers. -/

theorem dot_8_32 : dot_S256x8_S8x32_S256x32_1_0_0_1_n_n
    = Dot2.mmDims 256 8 32 Facts₀.dot_S256x8_S8x32_S256x32_1_0_0_1_n_n_wf := rfl

theorem dot_32_2048 : dot_S256x32_S32x2048_S256x2048_1_0_0_1_n_n
    = Dot2.mmDims 256 32 2048 Facts₀.dot_S256x32_S32x2048_S256x2048_1_0_0_1_n_n_wf := rfl

theorem dot_32_1024 : dot_S256x32_S32x1024_S256x1024_1_0_0_1_n_n
    = Dot2.mmDims 256 32 1024 Facts₀.dot_S256x32_S32x1024_S256x1024_1_0_0_1_n_n_wf := rfl

theorem dot_512_2048 : dot_S256x512_S512x2048_S256x2048_1_0_0_1_n_n
    = Dot2.mmDims 256 512 2048 Facts₀.dot_S256x512_S512x2048_S256x2048_1_0_0_1_n_n_wf := rfl

/-! ## The body's values -/

/-- The scale of the first normalisation (a hypernet of the parameter row), at row p. -/
theorem scale1_row (v0 : Vec Ideal S256x8 .f32) (v1 : Vec Ideal S8x32 .f32) (v3 : Vec Ideal S1x32 .f32)
    (v9 : Vec Ideal S32x2048 .f32) (v11 : Vec Ideal S1x2048 .f32) (p : Fin 256) (q : Fin 2048) :
    k0_pay2 (F := Ideal) v0 v1 v3 v9 v11 (ix2 p q)
      = hyper (rowOf v0 p) (matOf v1) (rowOf v3 0) (matOf v9) (rowOf v11 0) q := by
  unfold k0_pay2
  rw [dot_8_32, dot_32_2048]
  exact hyper_read _ _ _ _ _ _ v0 v1 v3 v9 v11 p q

/-- The shift of the first normalisation, at row p. -/
theorem shift1_row (v0 : Vec Ideal S256x8 .f32) (v15 : Vec Ideal S8x32 .f32) (v17 : Vec Ideal S1x32 .f32)
    (v23 : Vec Ideal S32x2048 .f32) (v25 : Vec Ideal S1x2048 .f32) (p : Fin 256) (q : Fin 2048) :
    k0_pay3 (F := Ideal) v0 v15 v17 v23 v25 (ix2 p q)
      = hyper (rowOf v0 p) (matOf v15) (rowOf v17 0) (matOf v23) (rowOf v25 0) q := by
  unfold k0_pay3
  rw [dot_8_32, dot_32_2048]
  exact hyper_read _ _ _ _ _ _ v0 v15 v17 v23 v25 p q

/-- The scale of the second normalisation, at row p: its first product and the rest of the hypernet
    are two values of the body; together they are the hypernet. -/
theorem scale2_row (v0 : Vec Ideal S256x8 .f32) (v29 : Vec Ideal S8x32 .f32) (v31 : Vec Ideal S1x32 .f32)
    (v37 : Vec Ideal S32x1024 .f32) (v39 : Vec Ideal S1x1024 .f32) (p : Fin 256) (q : Fin 1024) :
    k0_pay5 (F := Ideal) (k0_pay4 (F := Ideal) v0 v29) v31 v37 v39 (ix2 p q)
      = hyper (rowOf v0 p) (matOf v29) (rowOf v31 0) (matOf v37) (rowOf v39 0) q := by
  unfold k0_pay5 k0_pay4
  rw [dot_8_32, dot_32_1024]
  exact hyper_read _ _ _ _ _ _ v0 v29 v31 v37 v39 p q

/-- The shift of the second normalisation, at row p. -/
theorem shift2_row (v0 : Vec Ideal S256x8 .f32) (v43 : Vec Ideal S8x32 .f32) (v45 : Vec Ideal S1x32 .f32)
    (v51 : Vec Ideal S32x1024 .f32) (v53 : Vec Ideal S1x1024 .f32) (p : Fin 256) (q : Fin 1024) :
    k0_pay6 (F := Ideal) v0 v43 v45 v51 v53 (ix2 p q)
      = hyper (rowOf v0 p) (matOf v43) (rowOf v45 0) (matOf v51) (rowOf v53 0) q := by
  unfold k0_pay6
  rw [dot_8_32, dot_32_1024]
  exact hyper_read _ _ _ _ _ _ v0 v43 v45 v51 v53 p q

/-- The first linear layer of the feature row, at row p (the change of format of the features and of the
    weights is the identity). -/
theorem lin1_row (v57 : Vec Ideal S256x512 .f32) (v59 : Vec Ideal S512x2048 .bf16) (v62 : Vec Ideal S1x2048 .f32)
    (p : Fin 256) (q : Fin 2048) :
    k0_pay7 (F := Ideal) v57 v59 v62 (ix2 p q) = aff (rowOf v57 p) (matOf v59) (rowOf v62 0) q := by
  unfold k0_pay7
  rw [dot_512_2048]
  refine (aff_read _ _ _ _ _ v62 p q).trans ?_
  -- the feature tile's change of format is the identity entry by entry, and a weight block recast to
  -- its own shape is the block itself
  exact congrArg (fun W : FVec Ideal S512x2048 .bf16 => aff (rowOf v57 p) (matOf W) (rowOf v62 0) q)
    (shapeCast_self v59 _)

end Cert.KernelIdeal.Rows

end
-- ==== Proof.KernelRows2.lean ====
/-
  The kernel body's later values at one row of a tile: the first normalisation under its scale and shift,
  the second linear layer, the second normalisation's mean, variance and centred row, and the closing
  linear layer with its log-softmax; and the whole body's result as the specification's row function.

  The body computes a row's mean as the lane sum of the row over the channel count, broadcasts it
  back along the row and subtracts; the variance is the same of the squares; the reciprocal square
  root of the variance plus ε scales the centred row. The log-softmax takes the row's maximum (a lane
  maximum, once more against the starting value), subtracts it, and subtracts the logarithm of the lane
  sum of the exponentials. Every step reads at (p, q) as the row function's step on row p.
-/
import proofs.«145171_j88673894793362_1_alg».proof.Proof.Gen.KernelIdeal.Skeleton
import proofs.«145171_j88673894793362_1_alg».proof.Proof.Spec
import proofs.«145171_j88673894793362_1_alg».proof.Proof.RowRead
import proofs.«145171_j88673894793362_1_alg».proof.Proof.LibDot2
import proofs.«145171_j88673894793362_1_alg».proof.Proof.KernelRows1

noncomputable section

open scoped BigOperators

namespace Cert.KernelIdeal.Rows

open Cert.KernelIdeal Cert.KernelIdeal.Gen Idealize.ShloMosaic Idealize.ShloMosaic.ValueIdx Cert.RowNet Cert.RowRead

/-! ### Reading a tile at one row, for any tile height and row length

The body writes a row statistic as a lane reduction of the tile, cast to a column and broadcast back along
the row. Read at row p each of these is the statistic of row p alone. -/

section Read
variable {M N K : ℕ}

/-- The lane sum of a tile over a channel count, as a column: at row p it is the mean of row p. -/
theorem meanCol_apply (src : FVec Ideal ⟨2, ![M, N]⟩ .f32) (w : BitVec 32) (acc : BitVec (FTy.bits .f32))
    (hr : (⟨2, ![M, N]⟩ : Shape).Reduces [1] (⟨1, ![M]⟩ : Shape)) (hφ : FKind.Formats .f32)
    (hacc : acc = FKind.add.neutral .f32 hφ)
    (hc : (⟨1, ![M]⟩ : Shape).ShapeCasts ⟨2, ![M, 1]⟩) (p : Fin M) (u : Fin 1) :
    divf (shapeCast ⟨2, ![M, 1]⟩ (multiReduction (F := Ideal) .add [1] ⟨1, ![M]⟩ src acc hr hφ hacc) hc)
        (broadcast ⟨2, ![M, 1]⟩ (Scalar.ofBits (F := Ideal) .f32 w)) (ix2 p u)
      = mean (Ideal.ofBits .f32 w) (rowOf src p) := by
  show Ideal.div (shapeCast ⟨2, ![M, 1]⟩ _ hc (ix2 p u)) (Ideal.ofBits .f32 w) = _
  rw [shapeCast_a_a1_apply, rowSum_apply]
  rfl

/-- A tile minus a column broadcast along the rows: where the column holds row p's mean, row p centred. -/
theorem centredRow_apply (X : FVec Ideal ⟨2, ![M, N]⟩ .f32) (c : FVec Ideal ⟨2, ![M, 1]⟩ .f32)
    (hb : (⟨2, ![M, 1]⟩ : Shape).Broadcasts ⟨2, ![M, N]⟩) (d : EReal) (p : Fin M)
    (hc : ∀ u : Fin 1, c (ix2 p u) = mean d (rowOf X p)) (q : Fin N) :
    subf X (broadcastTo ⟨2, ![M, N]⟩ c hb) (ix2 p q) = centred d (rowOf X p) q := by
  show X (ix2 p q) - broadcastTo ⟨2, ![M, N]⟩ c hb (ix2 p q) = _
  rw [broadcastTo_a1_ab_apply, hc]
  rfl

/-- The mean column of the squares of a tile whose row p is a centred row: that row's variance. -/
theorem varCol_apply (cen : FVec Ideal ⟨2, ![M, N]⟩ .f32) (w : BitVec 32) (acc : BitVec (FTy.bits .f32))
    (hr : (⟨2, ![M, N]⟩ : Shape).Reduces [1] (⟨1, ![M]⟩ : Shape)) (hφ : FKind.Formats .f32)
    (hacc : acc = FKind.add.neutral .f32 hφ)
    (hc : (⟨1, ![M]⟩ : Shape).ShapeCasts ⟨2, ![M, 1]⟩) (v : Fin N → EReal) (p : Fin M)
    (hcen : ∀ k : Fin N, cen (ix2 p k) = centred (Ideal.ofBits .f32 w) v k) (u : Fin 1) :
    divf (shapeCast ⟨2, ![M, 1]⟩ (multiReduction (F := Ideal) .add [1] ⟨1, ![M]⟩ (mulf cen cen) acc hr hφ hacc) hc)
        (broadcast ⟨2, ![M, 1]⟩ (Scalar.ofBits (F := Ideal) .f32 w)) (ix2 p u)
      = variance (Ideal.ofBits .f32 w) v := by
  refine (meanCol_apply (mulf cen cen) w acc hr hφ hacc hc p u).trans ?_
  have hsq : rowOf (mulf cen cen) p = fun j => centred (Ideal.ofBits .f32 w) v j * centred (Ideal.ofBits .f32 w) v j :=
    funext fun k => by
      show cen (ix2 p k) * cen (ix2 p k) = _
      rw [hcen]
  rw [hsq]
  rfl

/-- A tile times the reciprocal square root of the sum of two columns, broadcast along the rows. -/
theorem scaledRow_apply (c : FVec Ideal ⟨2, ![M, N]⟩ .f32) (s e : FVec Ideal ⟨2, ![M, 1]⟩ .f32)
    (hb : (⟨2, ![M, 1]⟩ : Shape).Broadcasts ⟨2, ![M, N]⟩) (p : Fin M) (q : Fin N) :
    mulf c (broadcastTo ⟨2, ![M, N]⟩ (rsqrt (addf s e)) hb) (ix2 p q)
      = c (ix2 p q) * Ideal.rsqrt (s (ix2 p (0 : Fin 1)) + e (ix2 p (0 : Fin 1))) := by
  show c (ix2 p q) * broadcastTo ⟨2, ![M, N]⟩ (rsqrt (addf s e)) hb (ix2 p q) = _
  rw [broadcastTo_a1_ab_apply]
  rfl

/-- Scale, shift, rectify and change format, entry by entry (the change of format is the identity). -/
theorem reluRow_apply {s : Shape} (nr w b : FVec Ideal s .f32) (h : FTy.bits .bf16 < FTy.bits .f32) (i : s.Idx) :
    (truncf .bf16 (maximumf (addf (mulf nr w) b) (broadcast s (Scalar.ofBits (F := Ideal) .f32 0x00000000#32))) h
        : FVec Ideal s .bf16) i
      = max (nr i * w i + b i) zeroW := rfl

/-- A matrix product into a zero accumulator plus a bias row broadcast over the tile: at (p, q) the affine
    layer of row p of the left operand. -/
theorem affine_apply {φ₁ φ₂ : FTy} (D : DotDims ⟨2, ![M, K]⟩ ⟨2, ![K, N]⟩ ⟨2, ![M, N]⟩)
    (wf : DotDims.WF ⟨2, ![M, K]⟩ ⟨2, ![K, N]⟩ ⟨2, ![M, N]⟩ [1] [0] [0] [1] [] []) (hD : D = Dot2.mmDims M K N wf)
    (l : FVec Ideal ⟨2, ![M, K]⟩ φ₁) (r : FVec Ideal ⟨2, ![K, N]⟩ φ₂)
    (hs : (⟨2, ![K, N]⟩ : Shape).ShapeCasts ⟨2, ![K, N]⟩)
    (b : FVec Ideal ⟨2, ![1, N]⟩ .f32) (hs1 : (⟨2, ![1, N]⟩ : Shape).ShapeCasts ⟨2, ![1, N]⟩)
    (hb : (⟨2, ![1, N]⟩ : Shape).Broadcasts ⟨2, ![M, N]⟩) (p : Fin M) (q : Fin N) :
    addf (matmul D none l (shapeCast ⟨2, ![K, N]⟩ r hs) (constant ⟨2, ![M, N]⟩ .f32 0x00000000#32))
        (broadcastTo ⟨2, ![M, N]⟩ (shapeCast ⟨2, ![1, N]⟩ b hs1) hb) (ix2 p q)
      = aff (rowOf l p) (matOf r) (rowOf b 0) q := by
  subst hD
  rw [shapeCast_self, shapeCast_self]
  show FloatOps.matmul _ none l r _ (ix2 p q) + broadcastTo ⟨2, ![M, N]⟩ b hb (ix2 p q) = _
  rw [Dot2.matmul_zero_mm_apply, broadcastTo_1b_ab_apply]
  rfl

end Read

section ReadSoftmax
variable {M N : ℕ}

/-- The lane maximum of a tile, once more against the starting value, as a column: where row p of the tile is
    the row v, the largest entry of v. -/
theorem rowMaxCol_apply (y : FVec Ideal ⟨2, ![M, N]⟩ .f32)
    (hr : (⟨2, ![M, N]⟩ : Shape).Reduces [1] (⟨1, ![M]⟩ : Shape)) (hφ : FKind.Formats .f32)
    (hacc : (0xFF800000#32 : BitVec (FTy.bits .f32)) = FKind.maximumf.neutral .f32 hφ)
    (hc : (⟨1, ![M]⟩ : Shape).ShapeCasts ⟨2, ![M, 1]⟩) (v : Fin N → EReal) (p : Fin M)
    (hy : ∀ k : Fin N, y (ix2 p k) = v k) (u : Fin 1) :
    shapeCast ⟨2, ![M, 1]⟩ (maximumf (broadcast ⟨1, ![M]⟩ (Scalar.ofBits (F := Ideal) .f32 0xFF800000#32))
        (multiReduction (F := Ideal) .maximumf [1] ⟨1, ![M]⟩ y 0xFF800000#32 hr hφ hacc)) hc (ix2 p u)
      = rowMax v := by
  rw [shapeCast_a_a1_apply]
  show max negInfW (multiReduction (F := Ideal) .maximumf [1] ⟨1, ![M]⟩ y 0xFF800000#32 hr hφ hacc (ix1 p)) = _
  rw [rowMax_apply]
  have hrow : (fun k : Fin N => y (ix2 p k)) = v := funext hy
  rw [hrow]
  rfl

/-- A tile minus a column broadcast along the rows: where row p is v and the column holds v's largest
    entry, v shifted down by it. -/
theorem shiftedRow_apply (y : FVec Ideal ⟨2, ![M, N]⟩ .f32) (m : FVec Ideal ⟨2, ![M, 1]⟩ .f32)
    (hb : (⟨2, ![M, 1]⟩ : Shape).Broadcasts ⟨2, ![M, N]⟩) (v : Fin N → EReal) (p : Fin M)
    (hy : ∀ k : Fin N, y (ix2 p k) = v k) (hm : ∀ u : Fin 1, m (ix2 p u) = rowMax v) (q : Fin N) :
    subf y (broadcastTo ⟨2, ![M, N]⟩ m hb) (ix2 p q) = shifted v q := by
  show y (ix2 p q) - broadcastTo ⟨2, ![M, N]⟩ m hb (ix2 p q) = _
  rw [broadcastTo_a1_ab_apply, hy, hm]
  rfl

/-- The logarithm of the lane sum of the exponentials of a tile, as a column: where row p is v, the
    logarithm of the sum of the exponentials of v. -/
theorem logSumCol_apply (sh : FVec Ideal ⟨2, ![M, N]⟩ .f32) (acc : BitVec (FTy.bits .f32))
    (hr : (⟨2, ![M, N]⟩ : Shape).Reduces [1] (⟨1, ![M]⟩ : Shape)) (hφ : FKind.Formats .f32)
    (hacc : acc = FKind.add.neutral .f32 hφ)
    (hc : (⟨1, ![M]⟩ : Shape).ShapeCasts ⟨2, ![M, 1]⟩) (v : Fin N → EReal) (p : Fin M)
    (hsh : ∀ k : Fin N, sh (ix2 p k) = v k) (u : Fin 1) :
    log (shapeCast ⟨2, ![M, 1]⟩ (multiReduction (F := Ideal) .add [1] ⟨1, ![M]⟩ (exp sh) acc hr hφ hacc) hc) (ix2 p u)
      = Ideal.log (∑ k : Fin N, Ideal.exp (v k)) := by
  show Ideal.log (shapeCast ⟨2, ![M, 1]⟩ _ hc (ix2 p u)) = _
  rw [shapeCast_a_a1_apply, rowSum_apply]
  refine congrArg Ideal.log (Finset.sum_congr rfl fun k _ => ?_)
  show Ideal.exp (sh (ix2 p k)) = _
  rw [hsh]

/-- THE LOG-SOFTMAX OF A TILE AT ONE ROW: the tile minus its lane maximum, minus the logarithm of the lane
    sum of the exponentials of that difference, is at (p, q) the log-softmax of row p. -/
theorem logSoftmaxTile_apply (y : FVec Ideal ⟨2, ![M, N]⟩ .f32) (acc : BitVec (FTy.bits .f32))
    (hr : (⟨2, ![M, N]⟩ : Shape).Reduces [1] (⟨1, ![M]⟩ : Shape)) (hφ : FKind.Formats .f32)
    (haccM : (0xFF800000#32 : BitVec (FTy.bits .f32)) = FKind.maximumf.neutral .f32 hφ)
    (hφ' : FKind.Formats .f32) (hacc : acc = FKind.add.neutral .f32 hφ')
    (hc : (⟨1, ![M]⟩ : Shape).ShapeCasts ⟨2, ![M, 1]⟩)
    (hb : (⟨2, ![M, 1]⟩ : Shape).Broadcasts ⟨2, ![M, N]⟩) (v : Fin N → EReal) (p : Fin M)
    (hy : ∀ k : Fin N, y (ix2 p k) = v k) (q : Fin N) :
    subf
        (subf y (broadcastTo ⟨2, ![M, N]⟩
          (shapeCast ⟨2, ![M, 1]⟩ (maximumf (broadcast ⟨1, ![M]⟩ (Scalar.ofBits (F := Ideal) .f32 0xFF800000#32))
            (multiReduction (F := Ideal) .maximumf [1] ⟨1, ![M]⟩ y 0xFF800000#32 hr hφ haccM)) hc) hb))
        (broadcastTo ⟨2, ![M, N]⟩
          (log (shapeCast ⟨2, ![M, 1]⟩ (multiReduction (F := Ideal) .add [1] ⟨1, ![M]⟩
            (exp (subf y (broadcastTo ⟨2, ![M, N]⟩
              (shapeCast ⟨2, ![M, 1]⟩ (maximumf (broadcast ⟨1, ![M]⟩ (Scalar.ofBits (F := Ideal) .f32 0xFF800000#32))
                (multiReduction (F := Ideal) .maximumf [1] ⟨1, ![M]⟩ y 0xFF800000#32 hr hφ haccM)) hc) hb)))
            acc hr hφ' hacc) hc)) hb) (ix2 p q)
      = logSoftmax v q := by
  have hsh := fun k : Fin N =>
    shiftedRow_apply y _ hb v p hy (fun u => rowMaxCol_apply y hr hφ haccM hc v p hy u) k
  have hlc := fun u : Fin 1 => logSumCol_apply _ acc hr hφ' hacc hc (shifted v) p hsh u
  show (subf y _ (ix2 p q)) - broadcastTo ⟨2, ![M, N]⟩ _ hb (ix2 p q) = _
  rw [broadcastTo_a1_ab_apply, hsh, hlc]
  rfl

/-- A rectified row built entry by entry from a centred row, a variance, the ε, a scale and a shift is the
    specification's modulated row. -/
theorem modulated_of (d : EReal) (v w b c w' b' : Fin N → EReal) (s e : EReal)
    (hc : ∀ j, c j = centred d v j) (hs : s = variance d v) (he : e = epsW)
    (hw : ∀ j, w' j = w j) (hb : ∀ j, b' j = b j) :
    (relu fun j => c j * Ideal.rsqrt (s + e) * w' j + b' j) = modulated d v w b := by
  funext j
  show max (c j * Ideal.rsqrt (s + e) * w' j + b' j) zeroW = _
  rw [hc, hs, he, hw, hb]
  rfl

end ReadSoftmax

/-- The printed dimension numbers of the second linear layer's product are the plain matrix product's. -/
theorem dot2_eq : dot_S256x2048_S2048x1024_S256x1024_1_0_0_1_n_n
    = Dot2.mmDims 256 2048 1024 dot_S256x2048_S2048x1024_S256x1024_1_0_0_1_n_n_wf := rfl

/-- The printed dimension numbers of the closing layer's product are the plain matrix product's. -/
theorem dot3_eq : dot_S256x1024_S1024x256_S256x256_1_0_0_1_n_n
    = Dot2.mmDims 256 1024 256 dot_S256x1024_S1024x256_S256x256_1_0_0_1_n_n_wf := rfl

/-- The second linear layer of the modulated first hidden row, at row p. -/
theorem lin2_row (v14 v28 v65 : FVec Ideal S256x2048 .f32) (v89 : Vec Ideal S2048x1024 .bf16)
    (v92 : Vec Ideal S1x1024 .f32) (p : Fin 256) (q : Fin 1024) :
    k0_pay8 (F := Ideal) v14 v28 v65 v89 v92 (ix2 p q)
      = aff (modulated n2048 (rowOf v65 p) (rowOf v14 p) (rowOf v28 p)) (matOf v89) (rowOf v92 0) q := by
  unfold k0_pay8
  -- the product and the bias: the affine layer of row p of the rectified, modulated tile
  refine (affine_apply _ _ dot2_eq _ v89 _ v92 _ _ p q).trans ?_
  refine congrArg (fun x => aff x (matOf v89) (rowOf v92 0) q) (funext fun k => ?_)
  -- that tile at (p, k): the larger of zero and the normalised entry under the scale and the shift
  refine (reluRow_apply _ v14 v28 _ (ix2 p k)).trans ?_
  refine congrArg (fun t => max (t * v14 (ix2 p k) + v28 (ix2 p k)) zeroW) ?_
  -- the normalised entry: the centred entry times the reciprocal square root of the variance plus ε
  refine (scaledRow_apply _ _ _ _ p k).trans ?_
  have hm := fun u : Fin 1 =>
    meanCol_apply v65 0x45000000#32 0x00000000#32 reduces_S256x2048_S256 (.inl rfl) rfl shapeCasts_S256_S256x1 p u
  have hc := fun j : Fin 2048 => centredRow_apply v65 _ broadcasts_S256x1_S256x2048 n2048 p hm j
  have hv := fun u : Fin 1 =>
    varCol_apply _ 0x45000000#32 0x00000000#32 reduces_S256x2048_S256 (.inl rfl) rfl shapeCasts_S256_S256x1
      (rowOf v65 p) p hc u
  exact congrArg₂ (fun a b => a * Ideal.rsqrt (b + epsW)) (hc k) (hv 0)

/-- The mean of the second hidden row, at row p (a column: the unit coordinate is any). -/
theorem mean2_row (v14 v28 v65 : FVec Ideal S256x2048 .f32) (v89 : Vec Ideal S2048x1024 .bf16)
    (v92 : Vec Ideal S1x1024 .f32) (p : Fin 256) (u : Fin 1) :
    k0_pay9 (F := Ideal) v14 v28 v65 v89 v92 (ix2 p u)
      = mean n1024 (rowOf (k0_pay8 (F := Ideal) v14 v28 v65 v89 v92) p) := by
  unfold k0_pay9
  exact meanCol_apply (k0_pay8 (F := Ideal) v14 v28 v65 v89 v92) 0x44800000#32 0x00000000#32 _ _ _ _ p u

/-- The variance of the second hidden row, at row p. -/
theorem var2_row (v14 v28 v65 : FVec Ideal S256x2048 .f32) (v89 : Vec Ideal S2048x1024 .bf16)
    (v92 : Vec Ideal S1x1024 .f32) (p : Fin 256) (u : Fin 1) :
    k0_pay10 (F := Ideal) v14 v28 v65 v89 v92 (ix2 p u)
      = variance n1024 (rowOf (k0_pay8 (F := Ideal) v14 v28 v65 v89 v92) p) := by
  unfold k0_pay10
  exact varCol_apply _ 0x44800000#32 0x00000000#32 _ _ _ _
    (rowOf (k0_pay8 (F := Ideal) v14 v28 v65 v89 v92) p) p
    (fun k => centredRow_apply (k0_pay8 (F := Ideal) v14 v28 v65 v89 v92) (k0_pay9 (F := Ideal) v14 v28 v65 v89 v92) _
      n1024 p (fun u' => mean2_row v14 v28 v65 v89 v92 p u') k) u

/-- The centred second hidden row, at row p. -/
theorem centred2_row (v14 v28 v65 : FVec Ideal S256x2048 .f32) (v89 : Vec Ideal S2048x1024 .bf16)
    (v92 : Vec Ideal S1x1024 .f32) (p : Fin 256) (q : Fin 1024) :
    k0_pay11 (F := Ideal) v14 v28 v65 v89 v92 (ix2 p q)
      = centred n1024 (rowOf (k0_pay8 (F := Ideal) v14 v28 v65 v89 v92) p) q := by
  unfold k0_pay11
  exact centredRow_apply (k0_pay8 (F := Ideal) v14 v28 v65 v89 v92) (k0_pay9 (F := Ideal) v14 v28 v65 v89 v92) _
    n1024 p (fun u => mean2_row v14 v28 v65 v89 v92 p u) q

/-- The variance's ε as a column, at any index. -/
theorem eps_row (p : Fin 256) (u : Fin 1) : k0_pay12 (F := Ideal) (ix2 p u) = epsW := by
  unfold k0_pay12
  rfl

/-- The closing value, at row p: from a centred row c, a variance column s, the ε column e, a scale w and a
    shift b, the log-softmax of the closing linear layer of the rectified c * rsqrt (s + e) * w + b. -/
theorem close_row (v42 v56 : FVec Ideal S256x1024 .f32) (v106 : FVec Ideal S256x1 .f32)
    (v108 : FVec Ideal S256x1024 .f32) (v109 : FVec Ideal S256x1 .f32) (v119 : Vec Ideal S1024x256 .bf16)
    (v122 : Vec Ideal S1x256 .f32) (p : Fin 256) (q : Fin 256) :
    k0_pay1 (F := Ideal) v42 v56 v106 v108 v109 v119 v122 (ix2 p q)
      = logSoftmax (aff (relu fun j : Fin 1024 =>
            v108 (ix2 p j) * Ideal.rsqrt (v106 (ix2 p (0 : Fin 1)) + v109 (ix2 p (0 : Fin 1))) * v42 (ix2 p j)
              + v56 (ix2 p j))
          (matOf v119) (rowOf v122 0)) q := by
  unfold k0_pay1
  -- the log-softmax of the closing layer's tile, once that tile's row p is the affine layer of the rectified row
  refine logSoftmaxTile_apply _ 0x00000000#32 _ _ _ _ _ _ _ _ p (fun k => ?_) q
  refine (affine_apply _ _ dot3_eq _ v119 _ v122 _ _ p k).trans ?_
  refine congrArg (fun x => aff x (matOf v119) (rowOf v122 0) k) (funext fun j => ?_)
  refine (reluRow_apply _ v42 v56 _ (ix2 p j)).trans ?_
  refine congrArg (fun t => max (t * v42 (ix2 p j) + v56 (ix2 p j)) zeroW) ?_
  exact scaledRow_apply v108 v106 v109 _ p j

/-- THE BODY'S RESULT AT ONE ROW: the value the body stores, as a term of the tile's input blocks, is at
    (p, q) the specification's network on row p of the feature and parameter blocks. -/
theorem body_row (x0 : Vec Ideal S256x512 .f32) (x1 : Vec Ideal S256x8 .f32) (x2 : Vec Ideal S8x32 .f32)
    (x3 : Vec Ideal S1x32 .f32) (x4 : Vec Ideal S32x2048 .f32) (x5 : Vec Ideal S1x2048 .f32)
    (x6 : Vec Ideal S8x32 .f32) (x7 : Vec Ideal S1x32 .f32) (x8 : Vec Ideal S32x2048 .f32)
    (x9 : Vec Ideal S1x2048 .f32) (x10 : Vec Ideal S8x32 .f32) (x11 : Vec Ideal S1x32 .f32)
    (x12 : Vec Ideal S32x1024 .f32) (x13 : Vec Ideal S1x1024 .f32) (x14 : Vec Ideal S8x32 .f32)
    (x15 : Vec Ideal S1x32 .f32) (x16 : Vec Ideal S32x1024 .f32) (x17 : Vec Ideal S1x1024 .f32)
    (x18 : Vec Ideal S512x2048 .bf16) (x19 : Vec Ideal S1x2048 .f32) (x20 : Vec Ideal S2048x1024 .bf16)
    (x21 : Vec Ideal S1x1024 .f32) (x22 : Vec Ideal S1024x256 .bf16) (x23 : Vec Ideal S1x256 .f32)
    (p : Fin 256) (q : Fin 256) :
    k0_pay1 (F := Ideal) (k0_pay5 (k0_pay4 x1 x10) x11 x12 x13) (k0_pay6 x1 x14 x15 x16 x17)
        (k0_pay10 (k0_pay2 x1 x2 x3 x4 x5) (k0_pay3 x1 x6 x7 x8 x9) (k0_pay7 x0 x18 x19) x20 x21)
        (k0_pay11 (k0_pay2 x1 x2 x3 x4 x5) (k0_pay3 x1 x6 x7 x8 x9) (k0_pay7 x0 x18 x19) x20 x21)
        (k0_pay12 (F := Ideal)) x22 x23 (ix2 p q)
      = rowNet (rowOf x0 p) (rowOf x1 p)
          (matOf x2) (rowOf x3 0) (matOf x4) (rowOf x5 0) (matOf x6) (rowOf x7 0) (matOf x8) (rowOf x9 0)
          (matOf x10) (rowOf x11 0) (matOf x12) (rowOf x13 0) (matOf x14) (rowOf x15 0) (matOf x16) (rowOf x17 0)
          (matOf x18) (rowOf x19 0) (matOf x20) (rowOf x21 0) (matOf x22) (rowOf x23 0) q := by
  -- the first normalisation's scale and shift and the first linear layer, as rows
  have hA : rowOf (k0_pay2 (F := Ideal) x1 x2 x3 x4 x5) p
      = hyper (rowOf x1 p) (matOf x2) (rowOf x3 0) (matOf x4) (rowOf x5 0) :=
    funext fun j => scale1_row x1 x2 x3 x4 x5 p j
  have hB : rowOf (k0_pay3 (F := Ideal) x1 x6 x7 x8 x9) p
      = hyper (rowOf x1 p) (matOf x6) (rowOf x7 0) (matOf x8) (rowOf x9 0) :=
    funext fun j => shift1_row x1 x6 x7 x8 x9 p j
  have hC : rowOf (k0_pay7 (F := Ideal) x0 x18 x19) p = aff (rowOf x0 p) (matOf x18) (rowOf x19 0) :=
    funext fun j => lin1_row x0 x18 x19 p j
  -- the second linear layer's row
  have h8 : rowOf (k0_pay8 (F := Ideal) (k0_pay2 x1 x2 x3 x4 x5) (k0_pay3 x1 x6 x7 x8 x9) (k0_pay7 x0 x18 x19) x20 x21) p
      = aff (modulated n2048 (aff (rowOf x0 p) (matOf x18) (rowOf x19 0))
            (hyper (rowOf x1 p) (matOf x2) (rowOf x3 0) (matOf x4) (rowOf x5 0))
            (hyper (rowOf x1 p) (matOf x6) (rowOf x7 0) (matOf x8) (rowOf x9 0)))
          (matOf x20) (rowOf x21 0) :=
    funext fun j => (lin2_row _ _ _ x20 x21 p j).trans (by rw [hA, hB, hC])
  -- the closing value, then the second normalisation under its scale and shift
  refine (close_row _ _ _ _ _ x22 x23 p q).trans ?_
  unfold rowNet
  refine congrArg (fun x => logSoftmax (aff x (matOf x22) (rowOf x23 0)) q) ?_
  refine (modulated_of n1024
    (rowOf (k0_pay8 (F := Ideal) (k0_pay2 x1 x2 x3 x4 x5) (k0_pay3 x1 x6 x7 x8 x9) (k0_pay7 x0 x18 x19) x20 x21) p)
    (hyper (rowOf x1 p) (matOf x10) (rowOf x11 0) (matOf x12) (rowOf x13 0))
    (hyper (rowOf x1 p) (matOf x14) (rowOf x15 0) (matOf x16) (rowOf x17 0)) _ _ _ _ _
    (fun j => centred2_row _ _ _ x20 x21 p j) (var2_row _ _ _ x20 x21 p 0) (eps_row p 0)
    (fun j => scale2_row x1 x10 x11 x12 x13 p j) (fun j => shift2_row x1 x14 x15 x16 x17 p j)).trans ?_
  rw [h8]

end Cert.KernelIdeal.Rows

end
-- ==== Proof.Blocks.lean ====
/-
  From tiles to the whole batch: what the kernel's run leaves in the result array.

  The grid has 128 points; point t stages rows 256 t ... 256 t + 255 of the feature and parameter
  arrays and the whole of every weight array, runs the body on the tile and writes the tile's
  256 x 256 result back to rows 256 t ... 256 t + 255 of the result array. Row p of tile t is sample
  256 t + p of the batch, so by the body's row lemma the tile written back is the tile of the
  whole-batch network of the argument arrays; the 128 tiles cover the result array (row r lies in
  tile r / 256), which therefore ends holding that network.
-/
import proofs.«145171_j88673894793362_1_alg».proof.Proof.TileReads
import proofs.«145171_j88673894793362_1_alg».proof.Proof.KernelRows2

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.KernelIdeal.Tiles Idealize.ShloMosaic.ValueIdx Cert.RowNet

variable (m : (ℓ : Loc nD τ sig) → Buf (Elt Ideal) ℓ) (ρ : Dev nD → PrngReg)

/-- The zero offsets of a whole-block load or store, however they are spelt. -/
theorem hz : (![0, 0] : Fin 2 → Nat) = fun _ => 0 := funext fun a => by fin_cases a <;> rfl

/-- The feature, parameter and result windows move one block down the rows per grid point and stay at
    column block zero (decided over the 128 points). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_24.index t (0 : Fin 2) = t.val ∧ win0_24.index t (1 : Fin 2) = 0 :=
  (by decide +kernel : ∀ t : Fin grid0.N, _)

theorem N_eq : cfg0.N = 128 := N_0

/-- Sample 256 t + p of the batch: row p of tile t. -/
abbrev sample (t : Fin cfg0.N) (p : Fin 256) : Fin 32768 :=
  ⟨256 * t.val + p.val, by have := t.isLt; have := p.isLt; have := N_eq; omega⟩

/-- Row p of the feature tile at point t is sample 256 t + p's feature row. -/
theorem tile0_row (c : Dev nD) (t : Fin cfg0.N) (p : Fin 256) : rowOf (T0 m c t) p = rowOf (A0 m c) (sample t p) := by
  obtain ⟨e0, e1, -, -, -, -⟩ := idx_rows t
  funext k
  show iblk m c 0 t (ix2 p k) = _
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 512 + 1 * k.val = k.val; rw [e1]; omega

/-- Row p of the parameter tile at point t is sample 256 t + p's parameter row. -/
theorem tile1_row (c : Dev nD) (t : Fin cfg0.N) (p : Fin 256) : rowOf (T1 m c t) p = rowOf (A1 m c) (sample t p) := by
  obtain ⟨-, -, e2, e3, -, -⟩ := idx_rows t
  funext k
  show iblk m c 1 t (ix2 p k) = _
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 256 + 1 * p.val = 256 * t.val + p.val; rw [e2]; omega
  | ⟨1, _⟩ => show win0_1.index t (1 : Fin 2) * 8 + 1 * k.val = k.val; rw [e3]; omega

/-- The network over the whole batch, of the argument arrays as launched. -/
abbrev result (c : Dev nD) : S32768x256.Idx → EReal :=
  net (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c)

/-- Entry (p, q) of result tile t is entry (256 t + p, q) of the result array. -/
theorem emb_result (t : Fin cfg0.N) (p q : Fin 256) :
    ((cfg0.win 24).blk t).view.emb (ix2 p q) = (ix2 (sample t p) q : S32768x256.Idx) := by
  obtain ⟨-, -, -, -, e4, e5⟩ := idx_rows t
  funext a
  apply Fin.ext
  match a with
  | ⟨0, _⟩ => show win0_24.index t (0 : Fin 2) * 256 + 1 * p.val = 256 * t.val + p.val; rw [e4]; omega
  | ⟨1, _⟩ => show win0_24.index t (1 : Fin 2) * 256 + 1 * q.val = q.val; rw [e5]; omega

/-- WHAT POINT t WRITES BACK is tile t of the whole-batch network: the body's one store covers the tile,
    every load is a whole block, and the stored value at (p, q) is the network on sample 256 t + p. -/
theorem flushed_eq (c : Dev nD) (t : Fin cfg0.N) :
    (dats m 0 c).flushed 24 t = ((cfg0.win 24).blk t).view.read (Elt Ideal) (result m c) := by
  rw [flushed24]
  unfold out0_24
  rw [View.canon_unit_zero hz]
  simp only [View.ld_unit_zero (S := S256x512) hz, View.ld_unit_zero (S := S256x8) hz, View.ld_unit_zero (S := S8x32) hz,
    View.ld_unit_zero (S := S1x32) hz, View.ld_unit_zero (S := S32x2048) hz, View.ld_unit_zero (S := S1x2048) hz,
    View.ld_unit_zero (S := S32x1024) hz, View.ld_unit_zero (S := S1x1024) hz, View.ld_unit_zero (S := S512x2048) hz,
    View.ld_unit_zero (S := S2048x1024) hz, View.ld_unit_zero (S := S1024x256) hz, View.ld_unit_zero (S := S1x256) hz]
  funext y
  obtain ⟨p, q, rfl⟩ : ∃ (p : Fin 256) (q : Fin 256), y = ix2 p q := ⟨y 0, y 1, eq_ix2 y⟩
  rw [View.read_apply]
  show _ = result m c (((cfg0.win 24).blk t).view.emb (ix2 p q))
  rw [emb_result]
  refine (Rows.body_row (T0 m c t) (T1 m c t) (T2 m c t) (T3 m c t) (T4 m c t) (T5 m c t) (T6 m c t) (T7 m c t) (T8 m c t) (T9 m c t) (T10 m c t) (T11 m c t) (T12 m c t) (T13 m c t) (T14 m c t) (T15 m c t) (T16 m c t) (T17 m c t) (T18 m c t) (T19 m c t) (T20 m c t) (T21 m c t) (T22 m c t) (T23 m c t) p q).trans ?_
  show rowNet _ _ _ _ _ _ _ _ _ _ _ _ _ _ _ _ _ _ _ _ _ _ _ _ _ = rowNet _ _ _ _ _ _ _ _ _ _ _ _ _ _ _ _ _ _ _ _ _ _ _ _ _
  rw [tile0_row m c t p, tile1_row m c t p, tile2_mat m c t, tile3_vec m c t, tile4_mat m c t, tile5_vec m c t, tile6_mat m c t, tile7_vec m c t, tile8_mat m c t, tile9_vec m c t, tile10_mat m c t, tile11_vec m c t, tile12_mat m c t, tile13_vec m c t, tile14_mat m c t, tile15_vec m c t, tile16_mat m c t, tile17_vec m c t, tile18_mat m c t, tile19_vec m c t, tile20_mat m c t, tile21_vec m c t, tile22_mat m c t, tile23_vec m c t]

/-- An index of the result array is in point t's tile iff each coordinate is in the tile's range on its axis. -/
theorem mem_tile (t : Fin cfg0.N) (i : S32768x256.Idx) :
    i ∈ ((cfg0.win 24).blk t).view.set ↔ ∀ a : Fin 2, win0_24.index t a * S256x256.size a ≤ (i a).val ∧ (i a).val < win0_24.index t a * S256x256.size a + S256x256.size a := by
  show i ∈ ((View.whole main_v14).slice (win0_24.rect t)).set ↔ _
  rw [View.set_slice_whole, Rect.mem_set_unit]
  exact Iff.rfl

/-- THE TILES COVER the result array: row r lies in the tile of point r / 256, which writes back. -/
theorem cover (i : S32768x256.Idx) :
    ∃ t : Fin cfg0.N, (cfg0.win 24).flush t = true ∧ i ∈ ((cfg0.win 24).blk t).view.set := by
  have h0 : (i 0).val < 32768 := (i 0).isLt
  have h1 : (i 1).val < 256 := (i 1).isLt
  have hN := N_eq
  refine ⟨⟨(i 0).val / 256, by omega⟩, flush0_24 _, (mem_tile _ i).mpr fun a => ?_⟩
  obtain ⟨-, -, -, -, e4, e5⟩ := idx_rows ⟨(i 0).val / 256, by omega⟩
  match a with
  | ⟨0, _⟩ =>
    show win0_24.index _ (0 : Fin 2) * 256 ≤ (i 0).val ∧ (i 0).val < win0_24.index _ (0 : Fin 2) * 256 + 256
    rw [e4]; show (i 0).val / 256 * 256 ≤ (i 0).val ∧ (i 0).val < (i 0).val / 256 * 256 + 256; omega
  | ⟨1, _⟩ =>
    show win0_24.index _ (1 : Fin 2) * 256 ≤ (i 1).val ∧ (i 1).val < win0_24.index _ (1 : Fin 2) * 256 + 256
    rw [e5]; omega

/-- THE RESULT ARRAY after the run is the whole-batch network of the argument arrays. -/
theorem final (c : Dev nD) : (dats m 0 c).arrAt 24 cfg0.N = result m c :=
  (dats m 0 c).arrAt_eq_of_cover 24 (result m c) (fun t _ => flushed_eq m c t) cover

end Cert.KernelIdeal.Blocks

end
-- ==== Proof.RefKept.lean ====
/-
  A stretch of the reference leaves what it does not write.

  Each operation of the reference writes one buffer, its result's. A stretch of operations therefore
  changes only the buffers on the list of its results, and every other buffer holds after the stretch
  what it held before: in particular the 24 argument buffers, which no operation writes, and the
  earlier stretches' results, which later stretches read.
-/
import proofs.«145171_j88673894793362_1_alg».proof.Proof.RefRun
import Idealize.ShloMosaic.Lib.StableHlo.Run

noncomputable section

namespace Cert.ReferenceIdeal.Link

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F] (V : Valuation τ sig (Elt F))

/-- The argument buffers. -/
abbrev argList : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-! ## Stretch 1 -/

/-- The buffers stretch 1 writes. -/
abbrev W1 : List (Ref sig .tc) :=
  [main_v0, main_v1, main_v2, main_v3, main_call0_cst, main_call0_v0, main_v4, main_v5, main_v6, main_v7, main_v8]

/-- Every operation of stretch 1 writes one of them. -/
theorem writes1 : (ops_c1 : List (HloOp τ sig (Elt F))).Forall fun op => op.writes ⊆ (W1.map (Proc.devRef (τ := τ) .tc)).toFinset := by
  simp only [ops_c1, List.Forall, nullary_writes, unary_writes, binary_writes, reshape_writes, Finset.singleton_subset_iff, List.mem_toFinset]
  repeat' apply And.intro
  all_goals exact List.mem_map_of_mem (by decide)

/-- So stretch 1 leaves a buffer it does not write as it was. -/
theorem kept1 (r : Ref sig .tc) (hr : r ∉ W1) : after ops_c1 V (Proc.devRef .tc r) = V (Proc.devRef .tc r) :=
  after_of_writes_sub ops_c1 V writes1 hr

/-- In particular every argument buffer. -/
theorem keptArgs1 : ∀ r ∈ argList, after ops_c1 V (Proc.devRef .tc r) = V (Proc.devRef .tc r) :=
  fun r hr => kept1 V r ((by decide : ∀ r ∈ argList, r ∉ W1) r hr)

/-! ## Stretch 2 -/

/-- The buffers stretch 2 writes. -/
abbrev W2 : List (Ref sig .tc) :=
  [main_v9, main_v10, main_v11, main_v12, main_call1_cst, main_call1_v0, main_v13, main_v14, main_v15, main_v16, main_v17]

/-- Every operation of stretch 2 writes one of them. -/
theorem writes2 : (ops_c2 : List (HloOp τ sig (Elt F))).Forall fun op => op.writes ⊆ (W2.map (Proc.devRef (τ := τ) .tc)).toFinset := by
  simp only [ops_c2, List.Forall, nullary_writes, unary_writes, binary_writes, reshape_writes, Finset.singleton_subset_iff, List.mem_toFinset]
  repeat' apply And.intro
  all_goals exact List.mem_map_of_mem (by decide)

/-- So stretch 2 leaves a buffer it does not write as it was. -/
theorem kept2 (r : Ref sig .tc) (hr : r ∉ W2) : after ops_c2 V (Proc.devRef .tc r) = V (Proc.devRef .tc r) :=
  after_of_writes_sub ops_c2 V writes2 hr

/-- In particular every argument buffer. -/
theorem keptArgs2 : ∀ r ∈ argList, after ops_c2 V (Proc.devRef .tc r) = V (Proc.devRef .tc r) :=
  fun r hr => kept2 V r ((by decide : ∀ r ∈ argList, r ∉ W2) r hr)

/-! ## Stretch 3 -/

/-- The buffers stretch 3 writes. -/
abbrev W3 : List (Ref sig .tc) :=
  [main_v18, main_v19, main_v20, main_v21, main_call2_cst, main_call2_v0, main_v22, main_v23, main_v24, main_v25, main_v26]

/-- Every operation of stretch 3 writes one of them. -/
theorem writes3 : (ops_c3 : List (HloOp τ sig (Elt F))).Forall fun op => op.writes ⊆ (W3.map (Proc.devRef (τ := τ) .tc)).toFinset := by
  simp only [ops_c3, List.Forall, nullary_writes, unary_writes, binary_writes, reshape_writes, Finset.singleton_subset_iff, List.mem_toFinset]
  repeat' apply And.intro
  all_goals exact List.mem_map_of_mem (by decide)

/-- So stretch 3 leaves a buffer it does not write as it was. -/
theorem kept3 (r : Ref sig .tc) (hr : r ∉ W3) : after ops_c3 V (Proc.devRef .tc r) = V (Proc.devRef .tc r) :=
  after_of_writes_sub ops_c3 V writes3 hr

/-- In particular every argument buffer. -/
theorem keptArgs3 : ∀ r ∈ argList, after ops_c3 V (Proc.devRef .tc r) = V (Proc.devRef .tc r) :=
  fun r hr => kept3 V r ((by decide : ∀ r ∈ argList, r ∉ W3) r hr)

/-! ## Stretch 4 -/

/-- The buffers stretch 4 writes. -/
abbrev W4 : List (Ref sig .tc) :=
  [main_v27, main_v28, main_v29, main_v30, main_call3_cst, main_call3_v0, main_v31, main_v32, main_v33, main_v34, main_v35]

/-- Every operation of stretch 4 writes one of them. -/
theorem writes4 : (ops_c4 : List (HloOp τ sig (Elt F))).Forall fun op => op.writes ⊆ (W4.map (Proc.devRef (τ := τ) .tc)).toFinset := by
  simp only [ops_c4, List.Forall, nullary_writes, unary_writes, binary_writes, reshape_writes, Finset.singleton_subset_iff, List.mem_toFinset]
  repeat' apply And.intro
  all_goals exact List.mem_map_of_mem (by decide)

/-- So stretch 4 leaves a buffer it does not write as it was. -/
theorem kept4 (r : Ref sig .tc) (hr : r ∉ W4) : after ops_c4 V (Proc.devRef .tc r) = V (Proc.devRef .tc r) :=
  after_of_writes_sub ops_c4 V writes4 hr

/-- In particular every argument buffer. -/
theorem keptArgs4 : ∀ r ∈ argList, after ops_c4 V (Proc.devRef .tc r) = V (Proc.devRef .tc r) :=
  fun r hr => kept4 V r ((by decide : ∀ r ∈ argList, r ∉ W4) r hr)

/-! ## Stretch 5 -/

/-- The buffers stretch 5 writes. -/
abbrev W5 : List (Ref sig .tc) :=
  [main_v36, main_v37, main_v38, main_v39]

/-- Every operation of stretch 5 writes one of them. -/
theorem writes5 : (ops_c5 : List (HloOp τ sig (Elt F))).Forall fun op => op.writes ⊆ (W5.map (Proc.devRef (τ := τ) .tc)).toFinset := by
  simp only [ops_c5, List.Forall, nullary_writes, unary_writes, binary_writes, reshape_writes, Finset.singleton_subset_iff, List.mem_toFinset]
  repeat' apply And.intro
  all_goals exact List.mem_map_of_mem (by decide)

/-- So stretch 5 leaves a buffer it does not write as it was. -/
theorem kept5 (r : Ref sig .tc) (hr : r ∉ W5) : after ops_c5 V (Proc.devRef .tc r) = V (Proc.devRef .tc r) :=
  after_of_writes_sub ops_c5 V writes5 hr

/-- In particular every argument buffer. -/
theorem keptArgs5 : ∀ r ∈ argList, after ops_c5 V (Proc.devRef .tc r) = V (Proc.devRef .tc r) :=
  fun r hr => kept5 V r ((by decide : ∀ r ∈ argList, r ∉ W5) r hr)

/-! ## Stretch 6 -/

/-- The buffers stretch 6 writes. -/
abbrev W6 : List (Ref sig .tc) :=
  [main_v40, main_cst, main_v41, main_v42, main_cst_0, main_v43, main_v44, main_v45, main_v46, main_v47, main_cst_1, main_v48, main_v49, main_cst_2, main_v50, main_v51, main_v52, main_v53, main_cst_3, main_v54, main_v55, main_v56, main_v57, main_v58, main_v59, main_v60, main_v61, main_call4_cst, main_call4_v0, main_v62]

/-- Every operation of stretch 6 writes one of them. -/
theorem writes6 : (ops_c6 : List (HloOp τ sig (Elt F))).Forall fun op => op.writes ⊆ (W6.map (Proc.devRef (τ := τ) .tc)).toFinset := by
  simp only [ops_c6, List.Forall, nullary_writes, unary_writes, binary_writes, reshape_writes, Finset.singleton_subset_iff, List.mem_toFinset]
  repeat' apply And.intro
  all_goals exact List.mem_map_of_mem (by decide)

/-- So stretch 6 leaves a buffer it does not write as it was. -/
theorem kept6 (r : Ref sig .tc) (hr : r ∉ W6) : after ops_c6 V (Proc.devRef .tc r) = V (Proc.devRef .tc r) :=
  after_of_writes_sub ops_c6 V writes6 hr

/-- In particular every argument buffer. -/
theorem keptArgs6 : ∀ r ∈ argList, after ops_c6 V (Proc.devRef .tc r) = V (Proc.devRef .tc r) :=
  fun r hr => kept6 V r ((by decide : ∀ r ∈ argList, r ∉ W6) r hr)

/-! ## Stretch 7 -/

/-- The buffers stretch 7 writes. -/
abbrev W7 : List (Ref sig .tc) :=
  [main_v63, main_v64, main_v65, main_v66]

/-- Every operation of stretch 7 writes one of them. -/
theorem writes7 : (ops_c7 : List (HloOp τ sig (Elt F))).Forall fun op => op.writes ⊆ (W7.map (Proc.devRef (τ := τ) .tc)).toFinset := by
  simp only [ops_c7, List.Forall, nullary_writes, unary_writes, binary_writes, reshape_writes, Finset.singleton_subset_iff, List.mem_toFinset]
  repeat' apply And.intro
  all_goals exact List.mem_map_of_mem (by decide)

/-- So stretch 7 leaves a buffer it does not write as it was. -/
theorem kept7 (r : Ref sig .tc) (hr : r ∉ W7) : after ops_c7 V (Proc.devRef .tc r) = V (Proc.devRef .tc r) :=
  after_of_writes_sub ops_c7 V writes7 hr

/-- In particular every argument buffer. -/
theorem keptArgs7 : ∀ r ∈ argList, after ops_c7 V (Proc.devRef .tc r) = V (Proc.devRef .tc r) :=
  fun r hr => kept7 V r ((by decide : ∀ r ∈ argList, r ∉ W7) r hr)

/-! ## Stretch 8 -/

/-- The buffers stretch 8 writes. -/
abbrev W8 : List (Ref sig .tc) :=
  [main_v67, main_cst_4, main_v68, main_v69, main_cst_5, main_v70, main_v71, main_v72, main_v73, main_v74, main_cst_6, main_v75, main_v76, main_cst_7, main_v77, main_v78, main_v79, main_v80, main_cst_8, main_v81, main_v82, main_v83, main_v84, main_v85, main_v86, main_v87, main_v88, main_call5_cst, main_call5_v0, main_v89]

/-- Every operation of stretch 8 writes one of them. -/
theorem writes8 : (ops_c8 : List (HloOp τ sig (Elt F))).Forall fun op => op.writes ⊆ (W8.map (Proc.devRef (τ := τ) .tc)).toFinset := by
  simp only [ops_c8, List.Forall, nullary_writes, unary_writes, binary_writes, reshape_writes, Finset.singleton_subset_iff, List.mem_toFinset]
  repeat' apply And.intro
  all_goals exact List.mem_map_of_mem (by decide)

/-- So stretch 8 leaves a buffer it does not write as it was. -/
theorem kept8 (r : Ref sig .tc) (hr : r ∉ W8) : after ops_c8 V (Proc.devRef .tc r) = V (Proc.devRef .tc r) :=
  after_of_writes_sub ops_c8 V writes8 hr

/-- In particular every argument buffer. -/
theorem keptArgs8 : ∀ r ∈ argList, after ops_c8 V (Proc.devRef .tc r) = V (Proc.devRef .tc r) :=
  fun r hr => kept8 V r ((by decide : ∀ r ∈ argList, r ∉ W8) r hr)

/-! ## Stretch 9 -/

/-- The buffers stretch 9 writes. -/
abbrev W9 : List (Ref sig .tc) :=
  [main_v90, main_v91, main_v92, main_v93]

/-- Every operation of stretch 9 writes one of them. -/
theorem writes9 : (ops_c9 : List (HloOp τ sig (Elt F))).Forall fun op => op.writes ⊆ (W9.map (Proc.devRef (τ := τ) .tc)).toFinset := by
  simp only [ops_c9, List.Forall, nullary_writes, unary_writes, binary_writes, reshape_writes, Finset.singleton_subset_iff, List.mem_toFinset]
  repeat' apply And.intro
  all_goals exact List.mem_map_of_mem (by decide)

/-- So stretch 9 leaves a buffer it does not write as it was. -/
theorem kept9 (r : Ref sig .tc) (hr : r ∉ W9) : after ops_c9 V (Proc.devRef .tc r) = V (Proc.devRef .tc r) :=
  after_of_writes_sub ops_c9 V writes9 hr

/-- In particular every argument buffer. -/
theorem keptArgs9 : ∀ r ∈ argList, after ops_c9 V (Proc.devRef .tc r) = V (Proc.devRef .tc r) :=
  fun r hr => kept9 V r ((by decide : ∀ r ∈ argList, r ∉ W9) r hr)

/-! ## Stretch 10 -/

/-- The buffers stretch 10 writes. -/
abbrev W10 : List (Ref sig .tc) :=
  [main_call6_cst, main_call6_v0, main_call6_cst_0, main_call6_v1, main_call6_v2, main_call6_v3, main_call6_v4, main_call6_v5, main_call6_v6, main_call6_cst_1, main_call6_v7, main_call6_v8, main_call6_v9, main_call6_v10, main_v94]

/-- Every operation of stretch 10 writes one of them. -/
theorem writes10 : (ops_c10 : List (HloOp τ sig (Elt F))).Forall fun op => op.writes ⊆ (W10.map (Proc.devRef (τ := τ) .tc)).toFinset := by
  simp only [ops_c10, List.Forall, nullary_writes, unary_writes, binary_writes, reshape_writes, Finset.singleton_subset_iff, List.mem_toFinset]
  repeat' apply And.intro
  all_goals exact List.mem_map_of_mem (by decide)

/-- So stretch 10 leaves a buffer it does not write as it was. -/
theorem kept10 (r : Ref sig .tc) (hr : r ∉ W10) : after ops_c10 V (Proc.devRef .tc r) = V (Proc.devRef .tc r) :=
  after_of_writes_sub ops_c10 V writes10 hr

/-- In particular every argument buffer. -/
theorem keptArgs10 : ∀ r ∈ argList, after ops_c10 V (Proc.devRef .tc r) = V (Proc.devRef .tc r) :=
  fun r hr => kept10 V r ((by decide : ∀ r ∈ argList, r ∉ W10) r hr)

end Cert.ReferenceIdeal.Link

end
-- ==== Proof.RefRows1.lean ====
/-
  The reference's first stages at one sample: the four hypernets of the parameter rows and the first linear
  layer of the feature rows, each over the whole batch of 32768 samples.

  Read at sample r and channel q, a general dot product is the sum over the contracted channel of
  row r of its left operand against the right operand's column; a bias vector broadcast over the
  batch is the bias at the channel; the rectifier acts entry by entry. So each stage is the row
  function of the specification at sample r.
-/
import proofs.«145171_j88673894793362_1_alg».proof.Proof.RefRead
import proofs.«145171_j88673894793362_1_alg».proof.Proof.Spec
import proofs.«145171_j88673894793362_1_alg».proof.Proof.RowRead

noncomputable section

open scoped BigOperators

namespace Cert.ReferenceIdeal.Rows

open Cert.ReferenceIdeal Cert.ReferenceIdeal.Read Idealize.ShloMosaic Idealize.ShloMosaic.ValueIdx Cert.RowNet Cert.RowRead

/-- The hidden layer of the first normalisation's scale over the batch, at sample r: the rectified affine
    image of the sample's parameter row, at hidden channel k. -/
theorem scale1_hidden_row (x1 : (⟨S32768x8, .f32⟩ : BufTy).Contents (Elt Ideal)) (x2 : (⟨S8x32, .f32⟩ : BufTy).Contents (Elt Ideal)) (x3 : (⟨S32, .f32⟩ : BufTy).Contents (Elt Ideal))
    (r : Fin 32768) (k : Fin 32) :
    val_main_v4 (F := Ideal) x1 x2 x3 (ix2 r k) = relu (aff (rowOf x1 r) (matOf x2) (vecOf x3)) k := by
  rw [val_main_v4_apply, val_main_v3_apply, val_main_v0_apply, val_main_v2_apply, val_main_v1_apply,
    val_main_call0_v0_apply, val_main_call0_cst_apply]
  -- the contracted channel c pairs entry (r, c) of the parameter rows with entry (c, k) of the weights
  have el : ∀ c : Fin 8, lidx_main_v0 (ix2 r k) c = ix2 r c := fun c => by
    funext a; match a with | ⟨0, _⟩ => rfl | ⟨1, _⟩ => rfl
  have er : ∀ c : Fin 8, ridx_main_v0 (ix2 r k) c = ix2 c k := fun c => by
    funext a; match a with | ⟨0, _⟩ => rfl | ⟨1, _⟩ => rfl
  -- the bias vector, spread over the batch in two steps, is read at the channel alone
  have eb : idx_main_v1 (idx_main_v2 (ix2 r k)) = ix1 k := by
    funext a; match a with | ⟨0, _⟩ => rfl
  rw [eb]
  show max ((∑ c : Fin 8, x1 (lidx_main_v0 (ix2 r k) c) * x2 (ridx_main_v0 (ix2 r k) c)) + x3 (ix1 k)) zeroW
      = max ((∑ c : Fin 8, x1 (ix2 r c) * x2 (ix2 c k)) + x3 (ix1 k)) zeroW
  refine congrArg (fun s => max (s + x3 (ix1 k)) zeroW) ?_
  exact Finset.sum_congr rfl fun c _ => by rw [el, er]

/-- The scale of the first normalisation over the batch, at sample r. -/
theorem scale1_row (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal))
    (r : Fin 32768) (q : Fin 2048) :
    val_main_v8 (F := Ideal) x1 x2 x3 x4 x5 (ix2 r q)
      = hyper (rowOf x1 r) (matOf x2) (vecOf x3) (matOf x4) (vecOf x5) q := by
  rw [val_main_v8_apply, val_main_v5_apply, val_main_v7_apply, val_main_v6_apply]
  -- the contracted hidden channel k pairs entry (r, k) of the hidden layer with entry (k, q) of the weights
  have el : ∀ k : Fin 32, lidx_main_v5 (ix2 r q) k = ix2 r k := fun k => by
    funext a; match a with | ⟨0, _⟩ => rfl | ⟨1, _⟩ => rfl
  have er : ∀ k : Fin 32, ridx_main_v5 (ix2 r q) k = ix2 k q := fun k => by
    funext a; match a with | ⟨0, _⟩ => rfl | ⟨1, _⟩ => rfl
  have eb : idx_main_v6 (idx_main_v7 (ix2 r q)) = ix1 q := by
    funext a; match a with | ⟨0, _⟩ => rfl
  rw [eb]
  show (∑ k : Fin 32, val_main_v4 (F := Ideal) x1 x2 x3 (lidx_main_v5 (ix2 r q) k) * x4 (ridx_main_v5 (ix2 r q) k)) + x5 (ix1 q)
      = (∑ k : Fin 32, relu (aff (rowOf x1 r) (matOf x2) (vecOf x3)) k * x4 (ix2 k q)) + x5 (ix1 q)
  refine congrArg (fun s => s + x5 (ix1 q)) ?_
  exact Finset.sum_congr rfl fun k _ => by rw [el, er, scale1_hidden_row]

/-- The hidden layer of the first normalisation's shift over the batch, at sample r and hidden channel k. -/
theorem shift1_hidden_row (x1 : (⟨S32768x8, .f32⟩ : BufTy).Contents (Elt Ideal)) (x6 : (⟨S8x32, .f32⟩ : BufTy).Contents (Elt Ideal)) (x7 : (⟨S32, .f32⟩ : BufTy).Contents (Elt Ideal))
    (r : Fin 32768) (k : Fin 32) :
    val_main_v13 (F := Ideal) x1 x6 x7 (ix2 r k) = relu (aff (rowOf x1 r) (matOf x6) (vecOf x7)) k := by
  rw [val_main_v13_apply, val_main_v12_apply, val_main_v9_apply, val_main_v11_apply, val_main_v10_apply,
    val_main_call1_v0_apply, val_main_call1_cst_apply]
  -- the contracted channel c pairs entry (r, c) of the parameter rows with entry (c, k) of the weights
  have el : ∀ c : Fin 8, lidx_main_v9 (ix2 r k) c = ix2 r c := fun c => by
    funext a; match a with | ⟨0, _⟩ => rfl | ⟨1, _⟩ => rfl
  have er : ∀ c : Fin 8, ridx_main_v9 (ix2 r k) c = ix2 c k := fun c => by
    funext a; match a with | ⟨0, _⟩ => rfl | ⟨1, _⟩ => rfl
  -- the bias vector, spread over the batch in two steps, is read at the channel alone
  have eb : idx_main_v10 (idx_main_v11 (ix2 r k)) = ix1 k := by
    funext a; match a with | ⟨0, _⟩ => rfl
  rw [eb]
  show max ((∑ c : Fin 8, x1 (lidx_main_v9 (ix2 r k) c) * x6 (ridx_main_v9 (ix2 r k) c)) + x7 (ix1 k)) zeroW
      = max ((∑ c : Fin 8, x1 (ix2 r c) * x6 (ix2 c k)) + x7 (ix1 k)) zeroW
  refine congrArg (fun s => max (s + x7 (ix1 k)) zeroW) ?_
  exact Finset.sum_congr rfl fun c _ => by rw [el, er]

/-- The shift of the first normalisation over the batch, at sample r. -/
theorem shift1_row (x1 : (⟨S32768x8, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal))
    (r : Fin 32768) (q : Fin 2048) :
    val_main_v17 (F := Ideal) x1 x6 x7 x8 x9 (ix2 r q)
      = hyper (rowOf x1 r) (matOf x6) (vecOf x7) (matOf x8) (vecOf x9) q := by
  rw [val_main_v17_apply, val_main_v14_apply, val_main_v16_apply, val_main_v15_apply]
  -- the contracted hidden channel k pairs entry (r, k) of the hidden layer with entry (k, q) of the weights
  have el : ∀ k : Fin 32, lidx_main_v14 (ix2 r q) k = ix2 r k := fun k => by
    funext a; match a with | ⟨0, _⟩ => rfl | ⟨1, _⟩ => rfl
  have er : ∀ k : Fin 32, ridx_main_v14 (ix2 r q) k = ix2 k q := fun k => by
    funext a; match a with | ⟨0, _⟩ => rfl | ⟨1, _⟩ => rfl
  have eb : idx_main_v15 (idx_main_v16 (ix2 r q)) = ix1 q := by
    funext a; match a with | ⟨0, _⟩ => rfl
  rw [eb]
  show (∑ k : Fin 32, val_main_v13 (F := Ideal) x1 x6 x7 (lidx_main_v14 (ix2 r q) k) * x8 (ridx_main_v14 (ix2 r q) k)) + x9 (ix1 q)
      = (∑ k : Fin 32, relu (aff (rowOf x1 r) (matOf x6) (vecOf x7)) k * x8 (ix2 k q)) + x9 (ix1 q)
  refine congrArg (fun s => s + x9 (ix1 q)) ?_
  exact Finset.sum_congr rfl fun k _ => by rw [el, er, shift1_hidden_row]

/-- The hidden layer of the second normalisation's scale over the batch, at sample r and hidden channel k. -/
theorem scale2_hidden_row (x1 : (⟨S32768x8, .f32⟩ : BufTy).Contents (Elt Ideal)) (x10 : (⟨S8x32, .f32⟩ : BufTy).Contents (Elt Ideal)) (x11 : (⟨S32, .f32⟩ : BufTy).Contents (Elt Ideal))
    (r : Fin 32768) (k : Fin 32) :
    val_main_v22 (F := Ideal) x1 x10 x11 (ix2 r k) = relu (aff (rowOf x1 r) (matOf x10) (vecOf x11)) k := by
  rw [val_main_v22_apply, val_main_v21_apply, val_main_v18_apply, val_main_v20_apply, val_main_v19_apply,
    val_main_call2_v0_apply, val_main_call2_cst_apply]
  -- the contracted channel c pairs entry (r, c) of the parameter rows with entry (c, k) of the weights
  have el : ∀ c : Fin 8, lidx_main_v18 (ix2 r k) c = ix2 r c := fun c => by
    funext a; match a with | ⟨0, _⟩ => rfl | ⟨1, _⟩ => rfl
  have er : ∀ c : Fin 8, ridx_main_v18 (ix2 r k) c = ix2 c k := fun c => by
    funext a; match a with | ⟨0, _⟩ => rfl | ⟨1, _⟩ => rfl
  -- the bias vector, spread over the batch in two steps, is read at the channel alone
  have eb : idx_main_v19 (idx_main_v20 (ix2 r k)) = ix1 k := by
    funext a; match a with | ⟨0, _⟩ => rfl
  rw [eb]
  show max ((∑ c : Fin 8, x1 (lidx_main_v18 (ix2 r k) c) * x10 (ridx_main_v18 (ix2 r k) c)) + x11 (ix1 k)) zeroW
      = max ((∑ c : Fin 8, x1 (ix2 r c) * x10 (ix2 c k)) + x11 (ix1 k)) zeroW
  refine congrArg (fun s => max (s + x11 (ix1 k)) zeroW) ?_
  exact Finset.sum_congr rfl fun c _ => by rw [el, er]

/-- The scale of the second normalisation over the batch, at sample r. -/
theorem scale2_row (x1 : (⟨S32768x8, .f32⟩ : BufTy).Contents (Elt Ideal)) (x10 : (⟨S8x32, .f32⟩ : BufTy).Contents (Elt Ideal)) (x11 : (⟨S32, .f32⟩ : BufTy).Contents (Elt Ideal)) (x12 : (⟨S32x1024, .f32⟩ : BufTy).Contents (Elt Ideal)) (x13 : (⟨S1024, .f32⟩ : BufTy).Contents (Elt Ideal))
    (r : Fin 32768) (q : Fin 1024) :
    val_main_v26 (F := Ideal) x1 x10 x11 x12 x13 (ix2 r q)
      = hyper (rowOf x1 r) (matOf x10) (vecOf x11) (matOf x12) (vecOf x13) q := by
  rw [val_main_v26_apply, val_main_v23_apply, val_main_v25_apply, val_main_v24_apply]
  -- the contracted hidden channel k pairs entry (r, k) of the hidden layer with entry (k, q) of the weights
  have el : ∀ k : Fin 32, lidx_main_v23 (ix2 r q) k = ix2 r k := fun k => by
    funext a; match a with | ⟨0, _⟩ => rfl | ⟨1, _⟩ => rfl
  have er : ∀ k : Fin 32, ridx_main_v23 (ix2 r q) k = ix2 k q := fun k => by
    funext a; match a with | ⟨0, _⟩ => rfl | ⟨1, _⟩ => rfl
  have eb : idx_main_v24 (idx_main_v25 (ix2 r q)) = ix1 q := by
    funext a; match a with | ⟨0, _⟩ => rfl
  rw [eb]
  show (∑ k : Fin 32, val_main_v22 (F := Ideal) x1 x10 x11 (lidx_main_v23 (ix2 r q) k) * x12 (ridx_main_v23 (ix2 r q) k)) + x13 (ix1 q)
      = (∑ k : Fin 32, relu (aff (rowOf x1 r) (matOf x10) (vecOf x11)) k * x12 (ix2 k q)) + x13 (ix1 q)
  refine congrArg (fun s => s + x13 (ix1 q)) ?_
  exact Finset.sum_congr rfl fun k _ => by rw [el, er, scale2_hidden_row]

/-- The hidden layer of the second normalisation's shift over the batch, at sample r and hidden channel k. -/
theorem shift2_hidden_row (x1 : (⟨S32768x8, .f32⟩ : BufTy).Contents (Elt Ideal)) (x14 : (⟨S8x32, .f32⟩ : BufTy).Contents (Elt Ideal)) (x15 : (⟨S32, .f32⟩ : BufTy).Contents (Elt Ideal))
    (r : Fin 32768) (k : Fin 32) :
    val_main_v31 (F := Ideal) x1 x14 x15 (ix2 r k) = relu (aff (rowOf x1 r) (matOf x14) (vecOf x15)) k := by
  rw [val_main_v31_apply, val_main_v30_apply, val_main_v27_apply, val_main_v29_apply, val_main_v28_apply,
    val_main_call3_v0_apply, val_main_call3_cst_apply]
  -- the contracted channel c pairs entry (r, c) of the parameter rows with entry (c, k) of the weights
  have el : ∀ c : Fin 8, lidx_main_v27 (ix2 r k) c = ix2 r c := fun c => by
    funext a; match a with | ⟨0, _⟩ => rfl | ⟨1, _⟩ => rfl
  have er : ∀ c : Fin 8, ridx_main_v27 (ix2 r k) c = ix2 c k := fun c => by
    funext a; match a with | ⟨0, _⟩ => rfl | ⟨1, _⟩ => rfl
  -- the bias vector, spread over the batch in two steps, is read at the channel alone
  have eb : idx_main_v28 (idx_main_v29 (ix2 r k)) = ix1 k := by
    funext a; match a with | ⟨0, _⟩ => rfl
  rw [eb]
  show max ((∑ c : Fin 8, x1 (lidx_main_v27 (ix2 r k) c) * x14 (ridx_main_v27 (ix2 r k) c)) + x15 (ix1 k)) zeroW
      = max ((∑ c : Fin 8, x1 (ix2 r c) * x14 (ix2 c k)) + x15 (ix1 k)) zeroW
  refine congrArg (fun s => max (s + x15 (ix1 k)) zeroW) ?_
  exact Finset.sum_congr rfl fun c _ => by rw [el, er]

/-- The shift of the second normalisation over the batch, at sample r. -/
theorem shift2_row (x1 : (⟨S32768x8, .f32⟩ : BufTy).Contents (Elt Ideal)) (x14 : (⟨S8x32, .f32⟩ : BufTy).Contents (Elt Ideal)) (x15 : (⟨S32, .f32⟩ : BufTy).Contents (Elt Ideal)) (x16 : (⟨S32x1024, .f32⟩ : BufTy).Contents (Elt Ideal)) (x17 : (⟨S1024, .f32⟩ : BufTy).Contents (Elt Ideal))
    (r : Fin 32768) (q : Fin 1024) :
    val_main_v35 (F := Ideal) x1 x14 x15 x16 x17 (ix2 r q)
      = hyper (rowOf x1 r) (matOf x14) (vecOf x15) (matOf x16) (vecOf x17) q := by
  rw [val_main_v35_apply, val_main_v32_apply, val_main_v34_apply, val_main_v33_apply]
  -- the contracted hidden channel k pairs entry (r, k) of the hidden layer with entry (k, q) of the weights
  have el : ∀ k : Fin 32, lidx_main_v32 (ix2 r q) k = ix2 r k := fun k => by
    funext a; match a with | ⟨0, _⟩ => rfl | ⟨1, _⟩ => rfl
  have er : ∀ k : Fin 32, ridx_main_v32 (ix2 r q) k = ix2 k q := fun k => by
    funext a; match a with | ⟨0, _⟩ => rfl | ⟨1, _⟩ => rfl
  have eb : idx_main_v33 (idx_main_v34 (ix2 r q)) = ix1 q := by
    funext a; match a with | ⟨0, _⟩ => rfl
  rw [eb]
  show (∑ k : Fin 32, val_main_v31 (F := Ideal) x1 x14 x15 (lidx_main_v32 (ix2 r q) k) * x16 (ridx_main_v32 (ix2 r q) k)) + x17 (ix1 q)
      = (∑ k : Fin 32, relu (aff (rowOf x1 r) (matOf x14) (vecOf x15)) k * x16 (ix2 k q)) + x17 (ix1 q)
  refine congrArg (fun s => s + x17 (ix1 q)) ?_
  exact Finset.sum_congr rfl fun k _ => by rw [el, er, shift2_hidden_row]

/-- The first linear layer over the batch, at sample r. -/
theorem lin1_row (x0 : (⟨S32768x512, .f32⟩ : BufTy).Contents (Elt Ideal)) (x18 : (⟨S512x2048, .f32⟩ : BufTy).Contents (Elt Ideal)) (x19 : (⟨S2048, .f32⟩ : BufTy).Contents (Elt Ideal))
    (r : Fin 32768) (q : Fin 2048) :
    val_main_v39 (F := Ideal) x0 x18 x19 (ix2 r q) = aff (rowOf x0 r) (matOf x18) (vecOf x19) q := by
  rw [val_main_v39_apply, val_main_v36_apply, val_main_v38_apply, val_main_v37_apply]
  -- the contracted input channel k pairs entry (r, k) of the feature rows with entry (k, q) of the weights
  have el : ∀ k : Fin 512, lidx_main_v36 (ix2 r q) k = ix2 r k := fun k => by
    funext a; match a with | ⟨0, _⟩ => rfl | ⟨1, _⟩ => rfl
  have er : ∀ k : Fin 512, ridx_main_v36 (ix2 r q) k = ix2 k q := fun k => by
    funext a; match a with | ⟨0, _⟩ => rfl | ⟨1, _⟩ => rfl
  have eb : idx_main_v37 (idx_main_v38 (ix2 r q)) = ix1 q := by
    funext a; match a with | ⟨0, _⟩ => rfl
  rw [eb]
  show (∑ k : Fin 512, x0 (lidx_main_v36 (ix2 r q) k) * x18 (ridx_main_v36 (ix2 r q) k)) + x19 (ix1 q)
      = (∑ k : Fin 512, x0 (ix2 r k) * x18 (ix2 k q)) + x19 (ix1 q)
  refine congrArg (fun s => s + x19 (ix1 q)) ?_
  exact Finset.sum_congr rfl fun k _ => by rw [el, er]

end Cert.ReferenceIdeal.Rows

end
-- ==== Proof.RefRows2.lean ====
/-
  The reference's first normalisation at one sample, under its per-sample scale and shift, and the second
  linear layer.

  The reference views the [32768, 2048] hidden array as [32768, 1, 2048] (one group per sample), sums
  each sample's channels, divides by the channel count, broadcasts the mean back and subtracts; the
  variance is the same of the squares; the reciprocal square root of the variance plus ε scales the
  centred array, which is viewed as [32768, 2048] again. Read at sample r and channel q each step is
  the row function's step on row r of the hidden array: the group axis has one coordinate, so the
  view changes no entry, and the sums run over the sample's own channels.
-/
import proofs.«145171_j88673894793362_1_alg».proof.Proof.RefRead
import proofs.«145171_j88673894793362_1_alg».proof.Proof.Spec
import proofs.«145171_j88673894793362_1_alg».proof.Proof.RowRead

noncomputable section

open scoped BigOperators

namespace Cert.ReferenceIdeal.Rows

open Cert.ReferenceIdeal Cert.ReferenceIdeal.Read Idealize.ShloMosaic Idealize.ShloMosaic.ValueIdx Cert.RowNet Cert.RowRead

/-! ### Where the index maps send a sample's coordinates

The grouped view [32768, 1, 2048] and the flat view [32768, 2048] list the same entries in the same
order: entry (r, 0, q) of the one is entry (r, q) of the other, because r * 2048 + q divided by 2048 is
r with remainder q. The per-sample arrays [32768, 1] and [32768, 1, 1] are read at (r, 0) and (r, 0, 0)
from wherever in sample r's group they are broadcast to. -/

/-- The flat entry (r, q) is the grouped entry (r, 0, q). -/
private theorem idx59_row (r : Fin 32768) (q : Fin 2048) :
    idx_main_v59 (ix2 r q) = ix3 r (0 : Fin 1) q := by
  have hr := r.isLt
  have hq := q.isLt
  funext a; apply Fin.ext
  match a with
  | ⟨0, _⟩ => show (r.val * 2048 + q.val) / 2048 = r.val; omega
  | ⟨1, _⟩ => rfl
  | ⟨2, _⟩ => show (r.val * 2048 + q.val) % 2048 = q.val; omega

/-- The grouped entry (r, 0, k) is the flat entry (r, k). -/
private theorem idx40_row (r : Fin 32768) (k : Fin 2048) :
    idx_main_v40 (ix3 r (0 : Fin 1) k) = ix2 r k := by
  have hr := r.isLt
  have hk := k.isLt
  funext a; apply Fin.ext
  match a with
  | ⟨0, _⟩ => show ((r.val * 1 + 0) * 2048 + k.val) / 2048 = r.val; omega
  | ⟨1, _⟩ => show ((r.val * 1 + 0) * 2048 + k.val) % 2048 = k.val; omega

/-- A per-sample value broadcast over the sample's channels is read at (r, 0, 0), whatever the channel. -/
private theorem idx45_row (r : Fin 32768) (k : Fin 2048) :
    idx_main_v45 (ix3 r (0 : Fin 1) k) = ix3 r (0 : Fin 1) (0 : Fin 1) := by
  funext a; match a with | ⟨0, _⟩ => rfl | ⟨1, _⟩ => rfl | ⟨2, _⟩ => rfl

private theorem idx52_row (r : Fin 32768) (k : Fin 2048) :
    idx_main_v52 (ix3 r (0 : Fin 1) k) = ix3 r (0 : Fin 1) (0 : Fin 1) := by
  funext a; match a with | ⟨0, _⟩ => rfl | ⟨1, _⟩ => rfl | ⟨2, _⟩ => rfl

private theorem idx57_row (r : Fin 32768) (k : Fin 2048) :
    idx_main_v57 (ix3 r (0 : Fin 1) k) = ix3 r (0 : Fin 1) (0 : Fin 1) := by
  funext a; match a with | ⟨0, _⟩ => rfl | ⟨1, _⟩ => rfl | ⟨2, _⟩ => rfl

/-- The k-th term of sample r's channel sum, traced back from (r, 0, 0), is the grouped entry (r, 0, k). -/
private theorem idx41_row (r : Fin 32768) (k : Fin 2048) :
    idx_main_v41 (idx_main_v42 (ix3 r (0 : Fin 1) (0 : Fin 1))) k = ix3 r (0 : Fin 1) k := by
  funext a; match a with | ⟨0, _⟩ => rfl | ⟨1, _⟩ => rfl | ⟨2, _⟩ => rfl

private theorem idx48_row (r : Fin 32768) (k : Fin 2048) :
    idx_main_v48 (idx_main_v49 (ix3 r (0 : Fin 1) (0 : Fin 1))) k = ix3 r (0 : Fin 1) k := by
  funext a; match a with | ⟨0, _⟩ => rfl | ⟨1, _⟩ => rfl | ⟨2, _⟩ => rfl

/-! ### The stages of the normalisation at sample r -/

/-- The grouped view of the hidden array at (r, 0, k) is the hidden array at (r, k). -/
private theorem v40_row (x0 : (⟨S32768x512, .f32⟩ : BufTy).Contents (Elt Ideal)) (x18 : (⟨S512x2048, .f32⟩ : BufTy).Contents (Elt Ideal)) (x19 : (⟨S2048, .f32⟩ : BufTy).Contents (Elt Ideal))
    (r : Fin 32768) (k : Fin 2048) :
    val_main_v40 (F := Ideal) x0 x18 x19 (ix3 r (0 : Fin 1) k)
      = val_main_v39 (F := Ideal) x0 x18 x19 (ix2 r k) := by
  rw [val_main_v40_apply, idx40_row]

/-- The mean stage at sample r: the sum of row r's channels (the sum's starting value is zero and drops
    out) divided by the channel count. -/
private theorem mean1_row (x0 : (⟨S32768x512, .f32⟩ : BufTy).Contents (Elt Ideal)) (x18 : (⟨S512x2048, .f32⟩ : BufTy).Contents (Elt Ideal)) (x19 : (⟨S2048, .f32⟩ : BufTy).Contents (Elt Ideal))
    (r : Fin 32768) :
    val_main_v44 (F := Ideal) x0 x18 x19 (ix3 r (0 : Fin 1) (0 : Fin 1))
      = mean n2048 (rowOf (val_main_v39 (F := Ideal) x0 x18 x19) r) := by
  rw [val_main_v44_apply, val_main_v42_apply, val_main_v43_apply, val_main_v41_apply]
  have hsum : (∑ k : Fin 2048, val_main_v40 (F := Ideal) x0 x18 x19
        (idx_main_v41 (idx_main_v42 (ix3 r (0 : Fin 1) (0 : Fin 1))) k))
      = ∑ k : Fin 2048, val_main_v39 (F := Ideal) x0 x18 x19 (ix2 r k) :=
    Finset.sum_congr rfl fun k _ => by rw [idx41_row, v40_row]
  rw [hsum]
  show Ideal.div (Ideal.ofBits .f32 0x00000000#32 + ∑ k : Fin 2048, val_main_v39 (F := Ideal) x0 x18 x19 (ix2 r k))
      (Ideal.ofBits .f32 0x45000000#32)
    = Ideal.div (∑ k : Fin 2048, val_main_v39 (F := Ideal) x0 x18 x19 (ix2 r k)) (Ideal.ofBits .f32 0x45000000#32)
  rw [Ideal.ofBits_zero_f32, zero_add]

/-- The centred stage at (r, 0, k): row r's entry k minus row r's mean. The program computes this array
    twice (once for the variance, once for the result); both are this. -/
private theorem centredA_row (x0 : (⟨S32768x512, .f32⟩ : BufTy).Contents (Elt Ideal)) (x18 : (⟨S512x2048, .f32⟩ : BufTy).Contents (Elt Ideal)) (x19 : (⟨S2048, .f32⟩ : BufTy).Contents (Elt Ideal))
    (r : Fin 32768) (k : Fin 2048) :
    val_main_v46 (F := Ideal) x0 x18 x19 (ix3 r (0 : Fin 1) k)
      = centred n2048 (rowOf (val_main_v39 (F := Ideal) x0 x18 x19) r) k := by
  rw [val_main_v46_apply, val_main_v45_apply, idx45_row, v40_row, mean1_row]
  rfl

private theorem centredB_row (x0 : (⟨S32768x512, .f32⟩ : BufTy).Contents (Elt Ideal)) (x18 : (⟨S512x2048, .f32⟩ : BufTy).Contents (Elt Ideal)) (x19 : (⟨S2048, .f32⟩ : BufTy).Contents (Elt Ideal))
    (r : Fin 32768) (k : Fin 2048) :
    val_main_v53 (F := Ideal) x0 x18 x19 (ix3 r (0 : Fin 1) k)
      = centred n2048 (rowOf (val_main_v39 (F := Ideal) x0 x18 x19) r) k := by
  rw [val_main_v53_apply, val_main_v52_apply, idx52_row, v40_row, mean1_row]
  rfl

/-- The variance stage at sample r: the sum of the squares of row r's centred entries, divided by the
    channel count. -/
private theorem var1_row (x0 : (⟨S32768x512, .f32⟩ : BufTy).Contents (Elt Ideal)) (x18 : (⟨S512x2048, .f32⟩ : BufTy).Contents (Elt Ideal)) (x19 : (⟨S2048, .f32⟩ : BufTy).Contents (Elt Ideal))
    (r : Fin 32768) :
    val_main_v51 (F := Ideal) x0 x18 x19 (ix3 r (0 : Fin 1) (0 : Fin 1))
      = variance n2048 (rowOf (val_main_v39 (F := Ideal) x0 x18 x19) r) := by
  rw [val_main_v51_apply, val_main_v49_apply, val_main_v50_apply, val_main_v48_apply]
  have hsum : (∑ k : Fin 2048, val_main_v47 (F := Ideal) x0 x18 x19
        (idx_main_v48 (idx_main_v49 (ix3 r (0 : Fin 1) (0 : Fin 1))) k))
      = ∑ k : Fin 2048, centred n2048 (rowOf (val_main_v39 (F := Ideal) x0 x18 x19) r) k
          * centred n2048 (rowOf (val_main_v39 (F := Ideal) x0 x18 x19) r) k :=
    Finset.sum_congr rfl fun k _ => by
      rw [idx48_row, val_main_v47_apply, centredA_row]
      rfl
  rw [hsum]
  show Ideal.div (Ideal.ofBits .f32 0x00000000#32
        + ∑ k : Fin 2048, centred n2048 (rowOf (val_main_v39 (F := Ideal) x0 x18 x19) r) k
          * centred n2048 (rowOf (val_main_v39 (F := Ideal) x0 x18 x19) r) k)
      (Ideal.ofBits .f32 0x45000000#32)
    = Ideal.div (∑ k : Fin 2048, centred n2048 (rowOf (val_main_v39 (F := Ideal) x0 x18 x19) r) k
          * centred n2048 (rowOf (val_main_v39 (F := Ideal) x0 x18 x19) r) k)
      (Ideal.ofBits .f32 0x45000000#32)
  rw [Ideal.ofBits_zero_f32, zero_add]

/-- The normalised first hidden array, at sample r: the row normalised over its channels. -/
theorem norm1_row (x0 : (⟨S32768x512, .f32⟩ : BufTy).Contents (Elt Ideal)) (x18 : (⟨S512x2048, .f32⟩ : BufTy).Contents (Elt Ideal)) (x19 : (⟨S2048, .f32⟩ : BufTy).Contents (Elt Ideal))
    (r : Fin 32768) (q : Fin 2048) :
    val_main_v59 (F := Ideal) x0 x18 x19 (ix2 r q)
      = norm n2048 (rowOf (val_main_v39 (F := Ideal) x0 x18 x19) r) q := by
  rw [val_main_v59_apply, idx59_row, val_main_v58_apply, val_main_v57_apply, idx57_row, val_main_v56_apply,
    val_main_v55_apply, val_main_v54_apply, var1_row, centredB_row]
  rfl

/-- The modulated, rectified first hidden array, at sample r. -/
theorem mod1_row (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x18 : (⟨S512x2048, .f32⟩ : BufTy).Contents (Elt Ideal)) (x19 : (⟨S2048, .f32⟩ : BufTy).Contents (Elt Ideal))
    (r : Fin 32768) (q : Fin 2048) :
    val_main_v62 (F := Ideal) x0 x1 x2 x3 x4 x5 x6 x7 x8 x9 x18 x19 (ix2 r q)
      = modulated n2048 (rowOf (val_main_v39 (F := Ideal) x0 x18 x19) r)
          (rowOf (val_main_v8 (F := Ideal) x1 x2 x3 x4 x5) r) (rowOf (val_main_v17 (F := Ideal) x1 x6 x7 x8 x9) r) q := by
  rw [val_main_v62_apply, val_main_v61_apply, val_main_v60_apply, norm1_row, val_main_call4_v0_apply]
  rfl

/-- The second linear layer over the batch, at sample r. -/
theorem lin2_row (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal))
    (r : Fin 32768) (q : Fin 1024) :
    val_main_v66 (F := Ideal) x0 x1 x2 x3 x4 x5 x6 x7 x8 x9 x18 x19 x20 x21 (ix2 r q)
      = aff (rowOf (val_main_v62 (F := Ideal) x0 x1 x2 x3 x4 x5 x6 x7 x8 x9 x18 x19) r) (matOf x20) (vecOf x21) q := by
  rw [val_main_v66_apply, val_main_v63_apply, val_main_v65_apply, val_main_v64_apply]
  have el : ∀ k : Fin 2048, lidx_main_v63 (ix2 r q) k = ix2 r k := fun k => by
    funext a; match a with | ⟨0, _⟩ => rfl | ⟨1, _⟩ => rfl
  have er : ∀ k : Fin 2048, ridx_main_v63 (ix2 r q) k = ix2 k q := fun k => by
    funext a; match a with | ⟨0, _⟩ => rfl | ⟨1, _⟩ => rfl
  have eb : idx_main_v64 (idx_main_v65 (ix2 r q)) = ix1 q := by
    funext a; match a with | ⟨0, _⟩ => rfl
  simp only [el, er, eb]
  rfl

end Cert.ReferenceIdeal.Rows

end
-- ==== Proof.RefRows3.lean ====
/-
  The reference's second normalisation at one sample, under its per-sample scale and shift, the closing
  linear layer and the log-softmax.

  The second normalisation is the first one's steps on the [32768, 1024] hidden array. The log-softmax
  takes each sample's maximum over its classes (a fold of max from the starting value, once more
  against it), subtracts it, and subtracts the logarithm of the sum of the exponentials over the
  sample's classes: the row function's log-softmax on row r.
-/
import proofs.«145171_j88673894793362_1_alg».proof.Proof.RefRead
import proofs.«145171_j88673894793362_1_alg».proof.Proof.Spec
import proofs.«145171_j88673894793362_1_alg».proof.Proof.RowRead

noncomputable section

open scoped BigOperators

namespace Cert.ReferenceIdeal.Rows

open Cert.ReferenceIdeal Cert.ReferenceIdeal.Gen Cert.ReferenceIdeal.Read Idealize.ShloMosaic Idealize.ShloMosaic.ValueIdx Cert.RowNet Cert.RowRead

/-! ### Index maps at a sample

The second normalisation views the [32768, 1024] array as [32768, 1, 1024]: one group per sample. The group
axis has a single coordinate, so entry (r, u, k) of the view is entry (r, k) of the array, a per-sample
scalar sits at (r, 0, 0), and a sum along the last axis at (r, u) runs over (r, u, k). -/

private theorem view_in (r : Fin 32768) (u : Fin 1) (k : Fin 1024) :
    idx_main_v67 (ix3 r u k) = ix2 r k := by
  funext a; apply Fin.ext
  have hr := r.isLt; have hu := u.isLt; have hk := k.isLt
  match a with
  | ⟨0, _⟩ => show ((r.val * 1 + u.val) * 1024 + k.val) / 1024 = r.val; omega
  | ⟨1, _⟩ => show ((r.val * 1 + u.val) * 1024 + k.val) % 1024 = k.val; omega

private theorem view_out (r : Fin 32768) (q : Fin 1024) :
    idx_main_v86 (ix2 r q) = ix3 r (0 : Fin 1) q := by
  funext a; apply Fin.ext
  have hr := r.isLt; have hq := q.isLt
  match a with
  | ⟨0, _⟩ => show (r.val * 1024 + q.val) / 1024 = r.val; omega
  | ⟨1, _⟩ => rfl
  | ⟨2, _⟩ => show (r.val * 1024 + q.val) % 1024 = q.val; omega

private theorem sumIdx_mean (r : Fin 32768) (u : Fin 1) (k : Fin 1024) :
    idx_main_v68 (ix2 r u) k = ix3 r u k := by
  funext a; match a with | ⟨0, _⟩ => rfl | ⟨1, _⟩ => rfl | ⟨2, _⟩ => rfl

private theorem sumIdx_var (r : Fin 32768) (u : Fin 1) (k : Fin 1024) :
    idx_main_v75 (ix2 r u) k = ix3 r u k := by
  funext a; match a with | ⟨0, _⟩ => rfl | ⟨1, _⟩ => rfl | ⟨2, _⟩ => rfl

private theorem colIdx_mean (r : Fin 32768) (u v : Fin 1) :
    idx_main_v69 (ix3 r u v) = ix2 r (0 : Fin 1) := by
  funext a; match a with | ⟨0, _⟩ => rfl | ⟨1, _⟩ => rfl

private theorem colIdx_var (r : Fin 32768) (u v : Fin 1) :
    idx_main_v76 (ix3 r u v) = ix2 r (0 : Fin 1) := by
  funext a; match a with | ⟨0, _⟩ => rfl | ⟨1, _⟩ => rfl

private theorem bcastIdx_mean (r : Fin 32768) (u : Fin 1) (k : Fin 1024) :
    idx_main_v72 (ix3 r u k) = ix3 r (0 : Fin 1) (0 : Fin 1) := by
  funext a; match a with | ⟨0, _⟩ => rfl | ⟨1, _⟩ => rfl | ⟨2, _⟩ => rfl

private theorem bcastIdx_mean' (r : Fin 32768) (u : Fin 1) (k : Fin 1024) :
    idx_main_v79 (ix3 r u k) = ix3 r (0 : Fin 1) (0 : Fin 1) := by
  funext a; match a with | ⟨0, _⟩ => rfl | ⟨1, _⟩ => rfl | ⟨2, _⟩ => rfl

private theorem bcastIdx_rsqrt (r : Fin 32768) (u : Fin 1) (k : Fin 1024) :
    idx_main_v84 (ix3 r u k) = ix3 r (0 : Fin 1) (0 : Fin 1) := by
  funext a; match a with | ⟨0, _⟩ => rfl | ⟨1, _⟩ => rfl | ⟨2, _⟩ => rfl

section Norm2

variable (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal))

/-- The viewed hidden array at (r, u, k) is the hidden array at (r, k). -/
private theorem viewed_at (r : Fin 32768) (u : Fin 1) (k : Fin 1024) :
    val_main_v67 (F := Ideal) x0 x1 x2 x3 x4 x5 x6 x7 x8 x9 x18 x19 x20 x21 (ix3 r u k) = val_main_v66 (F := Ideal) x0 x1 x2 x3 x4 x5 x6 x7 x8 x9 x18 x19 x20 x21 (ix2 r k) := by
  rw [val_main_v67_apply, view_in]

/-- The sum along the last axis, at sample r: the sum of the sample's channels (the sum starts from zero). -/
private theorem chanSum_at (r : Fin 32768) :
    val_main_v68 (F := Ideal) x0 x1 x2 x3 x4 x5 x6 x7 x8 x9 x18 x19 x20 x21 (ix2 r (0 : Fin 1))
      = ∑ k : Fin 1024, val_main_v66 (F := Ideal) x0 x1 x2 x3 x4 x5 x6 x7 x8 x9 x18 x19 x20 x21 (ix2 r k) := by
  refine (val_main_v68_apply x0 x1 x2 x3 x4 x5 x6 x7 x8 x9 x18 x19 x20 x21 (ix2 r (0 : Fin 1))).trans ?_
  have hz : val_main_cst_4 (F := Ideal) (Shape.Idx.first h_S_) = (0 : EReal) := Ideal.ofBits_zero_f32
  rw [hz, zero_add]
  refine Finset.sum_congr rfl fun k _ => ?_
  rw [sumIdx_mean, viewed_at]

/-- The mean stage at sample r: the mean of the sample's row. -/
private theorem mean_at (r : Fin 32768) :
    val_main_v71 (F := Ideal) x0 x1 x2 x3 x4 x5 x6 x7 x8 x9 x18 x19 x20 x21 (ix3 r (0 : Fin 1) (0 : Fin 1))
      = mean n1024 (rowOf (val_main_v66 (F := Ideal) x0 x1 x2 x3 x4 x5 x6 x7 x8 x9 x18 x19 x20 x21) r) := by
  rewrite [val_main_v71_apply, val_main_v69_apply, val_main_v70_apply, colIdx_mean, chanSum_at]
  rfl

/-- The centred stage (the one that is squared) at (r, u, k): the sample's centred row at k. -/
private theorem centred_at (r : Fin 32768) (u : Fin 1) (k : Fin 1024) :
    val_main_v73 (F := Ideal) x0 x1 x2 x3 x4 x5 x6 x7 x8 x9 x18 x19 x20 x21 (ix3 r u k)
      = centred n1024 (rowOf (val_main_v66 (F := Ideal) x0 x1 x2 x3 x4 x5 x6 x7 x8 x9 x18 x19 x20 x21) r) k := by
  rewrite [val_main_v73_apply, val_main_v72_apply, bcastIdx_mean, mean_at, viewed_at]
  rfl

/-- The centred stage (the one that is scaled) at (r, u, k): the same centred row. -/
private theorem centred_at' (r : Fin 32768) (u : Fin 1) (k : Fin 1024) :
    val_main_v80 (F := Ideal) x0 x1 x2 x3 x4 x5 x6 x7 x8 x9 x18 x19 x20 x21 (ix3 r u k)
      = centred n1024 (rowOf (val_main_v66 (F := Ideal) x0 x1 x2 x3 x4 x5 x6 x7 x8 x9 x18 x19 x20 x21) r) k := by
  rewrite [val_main_v80_apply, val_main_v79_apply, bcastIdx_mean', mean_at, viewed_at]
  rfl

/-- The sum of the squares along the last axis, at sample r. -/
private theorem sqSum_at (r : Fin 32768) :
    val_main_v75 (F := Ideal) x0 x1 x2 x3 x4 x5 x6 x7 x8 x9 x18 x19 x20 x21 (ix2 r (0 : Fin 1))
      = ∑ k : Fin 1024, centred n1024 (rowOf (val_main_v66 (F := Ideal) x0 x1 x2 x3 x4 x5 x6 x7 x8 x9 x18 x19 x20 x21) r) k * centred n1024 (rowOf (val_main_v66 (F := Ideal) x0 x1 x2 x3 x4 x5 x6 x7 x8 x9 x18 x19 x20 x21) r) k := by
  refine (val_main_v75_apply x0 x1 x2 x3 x4 x5 x6 x7 x8 x9 x18 x19 x20 x21 (ix2 r (0 : Fin 1))).trans ?_
  have hz : val_main_cst_6 (F := Ideal) (Shape.Idx.first h_S_) = (0 : EReal) := Ideal.ofBits_zero_f32
  rw [hz, zero_add]
  refine Finset.sum_congr rfl fun k _ => ?_
  rewrite [sumIdx_var, val_main_v74_apply, centred_at]
  rfl

/-- The variance stage at sample r: the variance of the sample's row. -/
private theorem variance_at (r : Fin 32768) :
    val_main_v78 (F := Ideal) x0 x1 x2 x3 x4 x5 x6 x7 x8 x9 x18 x19 x20 x21 (ix3 r (0 : Fin 1) (0 : Fin 1))
      = variance n1024 (rowOf (val_main_v66 (F := Ideal) x0 x1 x2 x3 x4 x5 x6 x7 x8 x9 x18 x19 x20 x21) r) := by
  rewrite [val_main_v78_apply, val_main_v76_apply, val_main_v77_apply, colIdx_var, sqSum_at]
  rfl

end Norm2

/-- The normalised second hidden array, at sample r. -/
theorem norm2_row (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal))
    (r : Fin 32768) (q : Fin 1024) :
    val_main_v86 (F := Ideal) x0 x1 x2 x3 x4 x5 x6 x7 x8 x9 x18 x19 x20 x21 (ix2 r q)
      = norm n1024 (rowOf (val_main_v66 (F := Ideal) x0 x1 x2 x3 x4 x5 x6 x7 x8 x9 x18 x19 x20 x21) r) q := by
  rewrite [val_main_v86_apply, view_out, val_main_v85_apply, val_main_v84_apply, bcastIdx_rsqrt,
    val_main_v83_apply, val_main_v82_apply, val_main_v81_apply, variance_at, centred_at']
  rfl

/-- The modulated, rectified second hidden array, at sample r. -/
theorem mod2_row (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x10 : (⟨S8x32, .f32⟩ : BufTy).Contents (Elt Ideal)) (x11 : (⟨S32, .f32⟩ : BufTy).Contents (Elt Ideal)) (x12 : (⟨S32x1024, .f32⟩ : BufTy).Contents (Elt Ideal)) (x13 : (⟨S1024, .f32⟩ : BufTy).Contents (Elt Ideal)) (x14 : (⟨S8x32, .f32⟩ : BufTy).Contents (Elt Ideal)) (x15 : (⟨S32, .f32⟩ : BufTy).Contents (Elt Ideal)) (x16 : (⟨S32x1024, .f32⟩ : BufTy).Contents (Elt Ideal)) (x17 : (⟨S1024, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal))
    (r : Fin 32768) (q : Fin 1024) :
    val_main_v89 (F := Ideal) x0 x1 x2 x3 x4 x5 x6 x7 x8 x9 x10 x11 x12 x13 x14 x15 x16 x17 x18 x19 x20 x21 (ix2 r q)
      = modulated n1024 (rowOf (val_main_v66 (F := Ideal) x0 x1 x2 x3 x4 x5 x6 x7 x8 x9 x18 x19 x20 x21) r)
          (rowOf (val_main_v26 (F := Ideal) x1 x10 x11 x12 x13) r) (rowOf (val_main_v35 (F := Ideal) x1 x14 x15 x16 x17) r) q := by
  rewrite [val_main_v89_apply, val_main_v88_apply, val_main_v87_apply, val_main_call5_v0_apply, norm2_row]
  rfl

/-- The contracted index of the closing product: row r of the left operand against column q of the right. -/
private theorem dotIdx_left (r : Fin 32768) (q : Fin 256) (k : Fin 1024) :
    lidx_main_v90 (ix2 r q) k = ix2 r k := by
  funext a; match a with | ⟨0, _⟩ => rfl | ⟨1, _⟩ => rfl

private theorem dotIdx_right (r : Fin 32768) (q : Fin 256) (k : Fin 1024) :
    ridx_main_v90 (ix2 r q) k = ix2 k q := by
  funext a; match a with | ⟨0, _⟩ => rfl | ⟨1, _⟩ => rfl

/-- The bias broadcast over the batch reads the bias at the class. -/
private theorem biasIdx (r : Fin 32768) (q : Fin 256) :
    idx_main_v91 (idx_main_v92 (ix2 r q)) = ix1 q := by
  funext a; match a with | ⟨0, _⟩ => rfl

/-- The closing linear layer over the batch, at sample r. -/
theorem lin3_row (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x10 : (⟨S8x32, .f32⟩ : BufTy).Contents (Elt Ideal)) (x11 : (⟨S32, .f32⟩ : BufTy).Contents (Elt Ideal)) (x12 : (⟨S32x1024, .f32⟩ : BufTy).Contents (Elt Ideal)) (x13 : (⟨S1024, .f32⟩ : BufTy).Contents (Elt Ideal)) (x14 : (⟨S8x32, .f32⟩ : BufTy).Contents (Elt Ideal)) (x15 : (⟨S32, .f32⟩ : BufTy).Contents (Elt Ideal)) (x16 : (⟨S32x1024, .f32⟩ : BufTy).Contents (Elt Ideal)) (x17 : (⟨S1024, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal)) (x22 : (⟨S1024x256, .f32⟩ : BufTy).Contents (Elt Ideal)) (x23 : (⟨S256, .f32⟩ : BufTy).Contents (Elt Ideal))
    (r : Fin 32768) (q : Fin 256) :
    val_main_v93 (F := Ideal) x0 x1 x2 x3 x4 x5 x6 x7 x8 x9 x10 x11 x12 x13 x14 x15 x16 x17 x18 x19 x20 x21 x22 x23 (ix2 r q)
      = aff (rowOf (val_main_v89 (F := Ideal) x0 x1 x2 x3 x4 x5 x6 x7 x8 x9 x10 x11 x12 x13 x14 x15 x16 x17 x18 x19 x20 x21) r) (matOf x22) (vecOf x23) q := by
  rw [val_main_v93_apply, val_main_v90_apply, val_main_v92_apply, val_main_v91_apply, biasIdx]
  have hsum : (∑ k : Fin 1024, (val_main_v89 (F := Ideal) x0 x1 x2 x3 x4 x5 x6 x7 x8 x9 x10 x11 x12 x13 x14 x15 x16 x17 x18 x19 x20 x21) (lidx_main_v90 (ix2 r q) k) * x22 (ridx_main_v90 (ix2 r q) k))
      = ∑ k : Fin 1024, (val_main_v89 (F := Ideal) x0 x1 x2 x3 x4 x5 x6 x7 x8 x9 x10 x11 x12 x13 x14 x15 x16 x17 x18 x19 x20 x21) (ix2 r k) * x22 (ix2 k q) :=
    Finset.sum_congr rfl fun k _ => by rw [dotIdx_left, dotIdx_right]
  rewrite [hsum]
  rfl

/-! ### The log-softmax at a sample

A per-sample scalar of the log-softmax (the maximum, the logarithm of the sum) is a rank-1 array read at r,
broadcast back along the classes. -/

private theorem maxIdx (r : Fin 32768) (q : Fin 256) :
    idx_main_call6_v3 (idx_main_call6_v4 (ix2 r q)) = ix1 r := by
  funext a; match a with | ⟨0, _⟩ => rfl

private theorem logIdx (r : Fin 32768) (q : Fin 256) :
    idx_main_call6_v8 (idx_main_call6_v10 (ix2 r q)) = ix1 r := by
  funext a; match a with | ⟨0, _⟩ => rfl

private theorem expSumIdx (r : Fin 32768) (k : Fin 256) :
    idx_main_call6_v7 (ix1 r) k = ix2 r k := by
  funext a; match a with | ⟨0, _⟩ => rfl | ⟨1, _⟩ => rfl

section LogSoftmax

variable (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x10 : (⟨S8x32, .f32⟩ : BufTy).Contents (Elt Ideal)) (x11 : (⟨S32, .f32⟩ : BufTy).Contents (Elt Ideal)) (x12 : (⟨S32x1024, .f32⟩ : BufTy).Contents (Elt Ideal)) (x13 : (⟨S1024, .f32⟩ : BufTy).Contents (Elt Ideal)) (x14 : (⟨S8x32, .f32⟩ : BufTy).Contents (Elt Ideal)) (x15 : (⟨S32, .f32⟩ : BufTy).Contents (Elt Ideal)) (x16 : (⟨S32x1024, .f32⟩ : BufTy).Contents (Elt Ideal)) (x17 : (⟨S1024, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal)) (x22 : (⟨S1024x256, .f32⟩ : BufTy).Contents (Elt Ideal)) (x23 : (⟨S256, .f32⟩ : BufTy).Contents (Elt Ideal))

/-- The maximum stage at sample r: the fold of max over the sample's classes from the starting value, once
    more against the starting value. -/
private theorem rowMax_at (r : Fin 32768) :
    val_main_call6_v2 (F := Ideal) x0 x1 x2 x3 x4 x5 x6 x7 x8 x9 x10 x11 x12 x13 x14 x15 x16 x17 x18 x19 x20 x21 x22 x23 (ix1 r)
      = rowMax (rowOf (val_main_v93 (F := Ideal) x0 x1 x2 x3 x4 x5 x6 x7 x8 x9 x10 x11 x12 x13 x14 x15 x16 x17 x18 x19 x20 x21 x22 x23) r) := by
  have h0 : val_main_call6_v0 (F := Ideal) x0 x1 x2 x3 x4 x5 x6 x7 x8 x9 x10 x11 x12 x13 x14 x15 x16 x17 x18 x19 x20 x21 x22 x23 (ix1 r)
      = (Finset.univ : Finset (Fin 256)).fold max (val_main_call6_cst (F := Ideal) (Shape.Idx.first h_S_))
          fun k => val_main_v93 (F := Ideal) x0 x1 x2 x3 x4 x5 x6 x7 x8 x9 x10 x11 x12 x13 x14 x15 x16 x17 x18 x19 x20 x21 x22 x23 (ix2 r k) :=
    hostRowMax_apply (M := 32768) (N := 256) (φ := .f32) (val_main_v93 (F := Ideal) x0 x1 x2 x3 x4 x5 x6 x7 x8 x9 x10 x11 x12 x13 x14 x15 x16 x17 x18 x19 x20 x21 x22 x23) (val_main_call6_cst (F := Ideal))
      reducesTo_S32768x256_S32768_d1 (by decide) h_S_ r
  rewrite [val_main_call6_v2_apply, val_main_call6_v1_apply, h0]
  rfl

/-- The shifted stage at (r, k): the sample's row minus its maximum. -/
private theorem shifted_at (r : Fin 32768) (k : Fin 256) :
    val_main_call6_v5 (F := Ideal) x0 x1 x2 x3 x4 x5 x6 x7 x8 x9 x10 x11 x12 x13 x14 x15 x16 x17 x18 x19 x20 x21 x22 x23 (ix2 r k)
      = shifted (rowOf (val_main_v93 (F := Ideal) x0 x1 x2 x3 x4 x5 x6 x7 x8 x9 x10 x11 x12 x13 x14 x15 x16 x17 x18 x19 x20 x21 x22 x23) r) k := by
  rewrite [val_main_call6_v5_apply, val_main_call6_v4_apply, val_main_call6_v3_apply, maxIdx, rowMax_at]
  rfl

/-- The sum of the exponentials over the sample's classes (the sum starts from zero). -/
private theorem expSum_at (r : Fin 32768) :
    val_main_call6_v7 (F := Ideal) x0 x1 x2 x3 x4 x5 x6 x7 x8 x9 x10 x11 x12 x13 x14 x15 x16 x17 x18 x19 x20 x21 x22 x23 (ix1 r)
      = ∑ k : Fin 256, Ideal.exp (shifted (rowOf (val_main_v93 (F := Ideal) x0 x1 x2 x3 x4 x5 x6 x7 x8 x9 x10 x11 x12 x13 x14 x15 x16 x17 x18 x19 x20 x21 x22 x23) r) k) := by
  refine (val_main_call6_v7_apply x0 x1 x2 x3 x4 x5 x6 x7 x8 x9 x10 x11 x12 x13 x14 x15 x16 x17 x18 x19 x20 x21 x22 x23 (ix1 r)).trans ?_
  have hz : val_main_call6_cst_1 (F := Ideal) (Shape.Idx.first h_S_) = (0 : EReal) := Ideal.ofBits_zero_f32
  rw [hz, zero_add]
  refine Finset.sum_congr rfl fun k _ => ?_
  rewrite [expSumIdx, val_main_call6_v6_apply, shifted_at]
  rfl

end LogSoftmax

/-- The log-softmax over the classes, at sample r. -/
theorem logSoftmax_row (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x10 : (⟨S8x32, .f32⟩ : BufTy).Contents (Elt Ideal)) (x11 : (⟨S32, .f32⟩ : BufTy).Contents (Elt Ideal)) (x12 : (⟨S32x1024, .f32⟩ : BufTy).Contents (Elt Ideal)) (x13 : (⟨S1024, .f32⟩ : BufTy).Contents (Elt Ideal)) (x14 : (⟨S8x32, .f32⟩ : BufTy).Contents (Elt Ideal)) (x15 : (⟨S32, .f32⟩ : BufTy).Contents (Elt Ideal)) (x16 : (⟨S32x1024, .f32⟩ : BufTy).Contents (Elt Ideal)) (x17 : (⟨S1024, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal)) (x22 : (⟨S1024x256, .f32⟩ : BufTy).Contents (Elt Ideal)) (x23 : (⟨S256, .f32⟩ : BufTy).Contents (Elt Ideal))
    (r : Fin 32768) (q : Fin 256) :
    val_main_v94 (F := Ideal) x0 x1 x2 x3 x4 x5 x6 x7 x8 x9 x10 x11 x12 x13 x14 x15 x16 x17 x18 x19 x20 x21 x22 x23 (ix2 r q)
      = logSoftmax (rowOf (val_main_v93 (F := Ideal) x0 x1 x2 x3 x4 x5 x6 x7 x8 x9 x10 x11 x12 x13 x14 x15 x16 x17 x18 x19 x20 x21 x22 x23) r) q := by
  rewrite [val_main_v94_apply, val_main_call6_v10_apply, val_main_call6_v9_apply, val_main_call6_v8_apply, logIdx,
    expSum_at, shifted_at]
  rfl

end Cert.ReferenceIdeal.Rows

end
-- ==== Proof.RefRows.lean ====
/-
  THE REFERENCE'S RESULT AT ONE SAMPLE: its stages, each read at sample r as a row function of the
  stage before, compose to the specification's network on row r of the feature and parameter arrays.
-/
import proofs.«145171_j88673894793362_1_alg».proof.Proof.RefRead
import proofs.«145171_j88673894793362_1_alg».proof.Proof.Spec
import proofs.«145171_j88673894793362_1_alg».proof.Proof.RowRead
import proofs.«145171_j88673894793362_1_alg».proof.Proof.RefRows1
import proofs.«145171_j88673894793362_1_alg».proof.Proof.RefRows2
import proofs.«145171_j88673894793362_1_alg».proof.Proof.RefRows3

noncomputable section

open scoped BigOperators

namespace Cert.ReferenceIdeal.Rows

open Cert.ReferenceIdeal Cert.ReferenceIdeal.Read Idealize.ShloMosaic Idealize.ShloMosaic.ValueIdx Cert.RowNet Cert.RowRead

/-- The reference's result at sample r and class q is the network on the sample's rows. -/
theorem result_row (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x10 : (⟨S8x32, .f32⟩ : BufTy).Contents (Elt Ideal)) (x11 : (⟨S32, .f32⟩ : BufTy).Contents (Elt Ideal)) (x12 : (⟨S32x1024, .f32⟩ : BufTy).Contents (Elt Ideal)) (x13 : (⟨S1024, .f32⟩ : BufTy).Contents (Elt Ideal)) (x14 : (⟨S8x32, .f32⟩ : BufTy).Contents (Elt Ideal)) (x15 : (⟨S32, .f32⟩ : BufTy).Contents (Elt Ideal)) (x16 : (⟨S32x1024, .f32⟩ : BufTy).Contents (Elt Ideal)) (x17 : (⟨S1024, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal)) (x22 : (⟨S1024x256, .f32⟩ : BufTy).Contents (Elt Ideal)) (x23 : (⟨S256, .f32⟩ : BufTy).Contents (Elt Ideal))
    (r : Fin 32768) (q : Fin 256) :
    val_main_v94 (F := Ideal) x0 x1 x2 x3 x4 x5 x6 x7 x8 x9 x10 x11 x12 x13 x14 x15 x16 x17 x18 x19 x20 x21 x22 x23 (ix2 r q)
      = rowNet (rowOf x0 r) (rowOf x1 r)
          (matOf x2) (vecOf x3) (matOf x4) (vecOf x5) (matOf x6) (vecOf x7) (matOf x8) (vecOf x9)
          (matOf x10) (vecOf x11) (matOf x12) (vecOf x13) (matOf x14) (vecOf x15) (matOf x16) (vecOf x17)
          (matOf x18) (vecOf x19) (matOf x20) (vecOf x21) (matOf x22) (vecOf x23) q := by
  have e39 : rowOf (val_main_v39 (F := Ideal) x0 x18 x19) r = aff (rowOf x0 r) (matOf x18) (vecOf x19) :=
    funext fun j => lin1_row x0 x18 x19 r j
  have e8 : rowOf (val_main_v8 (F := Ideal) x1 x2 x3 x4 x5) r = hyper (rowOf x1 r) (matOf x2) (vecOf x3) (matOf x4) (vecOf x5) :=
    funext fun j => scale1_row x1 x2 x3 x4 x5 r j
  have e17 : rowOf (val_main_v17 (F := Ideal) x1 x6 x7 x8 x9) r = hyper (rowOf x1 r) (matOf x6) (vecOf x7) (matOf x8) (vecOf x9) :=
    funext fun j => shift1_row x1 x6 x7 x8 x9 r j
  have e26 : rowOf (val_main_v26 (F := Ideal) x1 x10 x11 x12 x13) r = hyper (rowOf x1 r) (matOf x10) (vecOf x11) (matOf x12) (vecOf x13) :=
    funext fun j => scale2_row x1 x10 x11 x12 x13 r j
  have e35 : rowOf (val_main_v35 (F := Ideal) x1 x14 x15 x16 x17) r = hyper (rowOf x1 r) (matOf x14) (vecOf x15) (matOf x16) (vecOf x17) :=
    funext fun j => shift2_row x1 x14 x15 x16 x17 r j
  have e62 : rowOf (val_main_v62 (F := Ideal) x0 x1 x2 x3 x4 x5 x6 x7 x8 x9 x18 x19) r
      = modulated n2048 (aff (rowOf x0 r) (matOf x18) (vecOf x19))
          (hyper (rowOf x1 r) (matOf x2) (vecOf x3) (matOf x4) (vecOf x5))
          (hyper (rowOf x1 r) (matOf x6) (vecOf x7) (matOf x8) (vecOf x9)) :=
    funext fun j => (mod1_row x0 x1 x2 x3 x4 x5 x6 x7 x8 x9 x18 x19 r j).trans (by rw [e39, e8, e17])
  have e66 : rowOf (val_main_v66 (F := Ideal) x0 x1 x2 x3 x4 x5 x6 x7 x8 x9 x18 x19 x20 x21) r
      = aff (modulated n2048 (aff (rowOf x0 r) (matOf x18) (vecOf x19))
          (hyper (rowOf x1 r) (matOf x2) (vecOf x3) (matOf x4) (vecOf x5))
          (hyper (rowOf x1 r) (matOf x6) (vecOf x7) (matOf x8) (vecOf x9))) (matOf x20) (vecOf x21) :=
    funext fun j => (lin2_row x0 x1 x2 x3 x4 x5 x6 x7 x8 x9 x18 x19 x20 x21 r j).trans (by rw [e62])
  have e89 : rowOf (val_main_v89 (F := Ideal) x0 x1 x2 x3 x4 x5 x6 x7 x8 x9 x10 x11 x12 x13 x14 x15 x16 x17 x18 x19 x20 x21) r
      = modulated n1024 (aff (modulated n2048 (aff (rowOf x0 r) (matOf x18) (vecOf x19))
          (hyper (rowOf x1 r) (matOf x2) (vecOf x3) (matOf x4) (vecOf x5))
          (hyper (rowOf x1 r) (matOf x6) (vecOf x7) (matOf x8) (vecOf x9))) (matOf x20) (vecOf x21))
          (hyper (rowOf x1 r) (matOf x10) (vecOf x11) (matOf x12) (vecOf x13))
          (hyper (rowOf x1 r) (matOf x14) (vecOf x15) (matOf x16) (vecOf x17)) :=
    funext fun j => (mod2_row x0 x1 x2 x3 x4 x5 x6 x7 x8 x9 x10 x11 x12 x13 x14 x15 x16 x17 x18 x19 x20 x21 r j).trans (by rw [e66, e26, e35])
  have e93 : rowOf (val_main_v93 (F := Ideal) x0 x1 x2 x3 x4 x5 x6 x7 x8 x9 x10 x11 x12 x13 x14 x15 x16 x17 x18 x19 x20 x21 x22 x23) r
      = aff (modulated n1024 (aff (modulated n2048 (aff (rowOf x0 r) (matOf x18) (vecOf x19))
          (hyper (rowOf x1 r) (matOf x2) (vecOf x3) (matOf x4) (vecOf x5))
          (hyper (rowOf x1 r) (matOf x6) (vecOf x7) (matOf x8) (vecOf x9))) (matOf x20) (vecOf x21))
          (hyper (rowOf x1 r) (matOf x10) (vecOf x11) (matOf x12) (vecOf x13))
          (hyper (rowOf x1 r) (matOf x14) (vecOf x15) (matOf x16) (vecOf x17))) (matOf x22) (vecOf x23) :=
    funext fun j => (lin3_row x0 x1 x2 x3 x4 x5 x6 x7 x8 x9 x10 x11 x12 x13 x14 x15 x16 x17 x18 x19 x20 x21 x22 x23 r j).trans (by rw [e89])
  refine (logSoftmax_row x0 x1 x2 x3 x4 x5 x6 x7 x8 x9 x10 x11 x12 x13 x14 x15 x16 x17 x18 x19 x20 x21 x22 x23 r q).trans ?_
  rw [e93]
  rfl

end Cert.ReferenceIdeal.Rows

end
-- ==== Proof.RefLink.lean ====
/-
  The reference's run, read stretch by stretch.

  The reference is a straight line of 131 array operations; what a buffer holds after the line is the
  fold of the operations' results from the launch contents. Read in one piece, the last buffer's
  contents is a term in which every shared intermediate array is written out once per use. Cut at the
  network's own seams (the four hypernets, the three linear layers, the two normalisations, the
  log-softmax) each stretch is short: its last buffer is one stage of the network as a function of
  the buffers it reads, and it leaves every buffer it does not write as it was. Carrying the stages
  and the arguments across the stretches gives the result array as the last stage of the argument
  arrays, which at every sample is the specification's network (Proof/RefRows.lean).
-/
import proofs.«145171_j88673894793362_1_alg».proof.Proof.RefRun
import proofs.«145171_j88673894793362_1_alg».proof.Proof.RefKept
import proofs.«145171_j88673894793362_1_alg».proof.Proof.RefRows
import Idealize.ShloMosaic.Lib.Pipeline.Frame

noncomputable section

namespace Cert.ReferenceIdeal.Link

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Idealize.ShloMosaic.ValueIdx Cert.RowNet

section Stretches

variable {F : FTy → Type} [FloatOps F] (V : Valuation τ sig (Elt F))

/-! ## What each stretch leaves in its last buffer

A stretch's last buffer holds one stage of the network: of the argument buffers it reads, for the four
hypernets and the first linear layer; of the earlier stages' buffers it reads (given as hypotheses: they
hold those stages of some arrays x), for the rest. -/

theorem stretch1 : after ops_c1 V (Proc.devRef .tc main_v8)
    = val_main_v8 (F := F) (V (Proc.devRef .tc main_arg1)) (V (Proc.devRef .tc main_arg2)) (V (Proc.devRef .tc main_arg3)) (V (Proc.devRef .tc main_arg4)) (V (Proc.devRef .tc main_arg5)) := by
  after_results_simp <;> (try simp only [TRef.ofBuf, TRef.toBuf, cast_eq]) <;> rfl

theorem stretch2 : after ops_c2 V (Proc.devRef .tc main_v17)
    = val_main_v17 (F := F) (V (Proc.devRef .tc main_arg1)) (V (Proc.devRef .tc main_arg6)) (V (Proc.devRef .tc main_arg7)) (V (Proc.devRef .tc main_arg8)) (V (Proc.devRef .tc main_arg9)) := by
  after_results_simp <;> (try simp only [TRef.ofBuf, TRef.toBuf, cast_eq]) <;> rfl

theorem stretch3 : after ops_c3 V (Proc.devRef .tc main_v26)
    = val_main_v26 (F := F) (V (Proc.devRef .tc main_arg1)) (V (Proc.devRef .tc main_arg10)) (V (Proc.devRef .tc main_arg11)) (V (Proc.devRef .tc main_arg12)) (V (Proc.devRef .tc main_arg13)) := by
  after_results_simp <;> (try simp only [TRef.ofBuf, TRef.toBuf, cast_eq]) <;> rfl

theorem stretch4 : after ops_c4 V (Proc.devRef .tc main_v35)
    = val_main_v35 (F := F) (V (Proc.devRef .tc main_arg1)) (V (Proc.devRef .tc main_arg14)) (V (Proc.devRef .tc main_arg15)) (V (Proc.devRef .tc main_arg16)) (V (Proc.devRef .tc main_arg17)) := by
  after_results_simp <;> (try simp only [TRef.ofBuf, TRef.toBuf, cast_eq]) <;> rfl

theorem stretch5 : after ops_c5 V (Proc.devRef .tc main_v39)
    = val_main_v39 (F := F) (V (Proc.devRef .tc main_arg0)) (V (Proc.devRef .tc main_arg18)) (V (Proc.devRef .tc main_arg19)) := by
  after_results_simp <;> (try simp only [TRef.ofBuf, TRef.toBuf, cast_eq]) <;> rfl

theorem stretch6 {x0 : (⟨S32768x512, .f32⟩ : BufTy).Contents (Elt F)} {x1 : (⟨S32768x8, .f32⟩ : BufTy).Contents (Elt F)} {x2 : (⟨S8x32, .f32⟩ : BufTy).Contents (Elt F)} {x3 : (⟨S32, .f32⟩ : BufTy).Contents (Elt F)} {x4 : (⟨S32x2048, .f32⟩ : BufTy).Contents (Elt F)} {x5 : (⟨S2048, .f32⟩ : BufTy).Contents (Elt F)} {x6 : (⟨S8x32, .f32⟩ : BufTy).Contents (Elt F)} {x7 : (⟨S32, .f32⟩ : BufTy).Contents (Elt F)} {x8 : (⟨S32x2048, .f32⟩ : BufTy).Contents (Elt F)} {x9 : (⟨S2048, .f32⟩ : BufTy).Contents (Elt F)} {x18 : (⟨S512x2048, .f32⟩ : BufTy).Contents (Elt F)} {x19 : (⟨S2048, .f32⟩ : BufTy).Contents (Elt F)}
    (h39 : V (Proc.devRef .tc main_v39) = val_main_v39 (F := F) x0 x18 x19)
    (h8 : V (Proc.devRef .tc main_v8) = val_main_v8 (F := F) x1 x2 x3 x4 x5)
    (h17 : V (Proc.devRef .tc main_v17) = val_main_v17 (F := F) x1 x6 x7 x8 x9) :
    after ops_c6 V (Proc.devRef .tc main_v62) = val_main_v62 (F := F) x0 x1 x2 x3 x4 x5 x6 x7 x8 x9 x18 x19 := by
  after_results_simp <;> (try simp only [TRef.ofBuf, TRef.toBuf, cast_eq])
  rw [h39, h8, h17]
  rfl

theorem stretch7 {x0 : (⟨S32768x512, .f32⟩ : BufTy).Contents (Elt F)} {x1 : (⟨S32768x8, .f32⟩ : BufTy).Contents (Elt F)} {x2 : (⟨S8x32, .f32⟩ : BufTy).Contents (Elt F)} {x3 : (⟨S32, .f32⟩ : BufTy).Contents (Elt F)} {x4 : (⟨S32x2048, .f32⟩ : BufTy).Contents (Elt F)} {x5 : (⟨S2048, .f32⟩ : BufTy).Contents (Elt F)} {x6 : (⟨S8x32, .f32⟩ : BufTy).Contents (Elt F)} {x7 : (⟨S32, .f32⟩ : BufTy).Contents (Elt F)} {x8 : (⟨S32x2048, .f32⟩ : BufTy).Contents (Elt F)} {x9 : (⟨S2048, .f32⟩ : BufTy).Contents (Elt F)} {x18 : (⟨S512x2048, .f32⟩ : BufTy).Contents (Elt F)} {x19 : (⟨S2048, .f32⟩ : BufTy).Contents (Elt F)}
    (h62 : V (Proc.devRef .tc main_v62) = val_main_v62 (F := F) x0 x1 x2 x3 x4 x5 x6 x7 x8 x9 x18 x19) :
    after ops_c7 V (Proc.devRef .tc main_v66)
      = val_main_v66 (F := F) x0 x1 x2 x3 x4 x5 x6 x7 x8 x9 x18 x19 (V (Proc.devRef .tc main_arg20)) (V (Proc.devRef .tc main_arg21)) := by
  after_results_simp <;> (try simp only [TRef.ofBuf, TRef.toBuf, cast_eq])
  rw [h62]
  rfl

theorem stretch8 {x0 : (⟨S32768x512, .f32⟩ : BufTy).Contents (Elt F)} {x1 : (⟨S32768x8, .f32⟩ : BufTy).Contents (Elt F)} {x2 : (⟨S8x32, .f32⟩ : BufTy).Contents (Elt F)} {x3 : (⟨S32, .f32⟩ : BufTy).Contents (Elt F)} {x4 : (⟨S32x2048, .f32⟩ : BufTy).Contents (Elt F)} {x5 : (⟨S2048, .f32⟩ : BufTy).Contents (Elt F)} {x6 : (⟨S8x32, .f32⟩ : BufTy).Contents (Elt F)} {x7 : (⟨S32, .f32⟩ : BufTy).Contents (Elt F)} {x8 : (⟨S32x2048, .f32⟩ : BufTy).Contents (Elt F)} {x9 : (⟨S2048, .f32⟩ : BufTy).Contents (Elt F)} {x10 : (⟨S8x32, .f32⟩ : BufTy).Contents (Elt F)} {x11 : (⟨S32, .f32⟩ : BufTy).Contents (Elt F)} {x12 : (⟨S32x1024, .f32⟩ : BufTy).Contents (Elt F)} {x13 : (⟨S1024, .f32⟩ : BufTy).Contents (Elt F)} {x14 : (⟨S8x32, .f32⟩ : BufTy).Contents (Elt F)} {x15 : (⟨S32, .f32⟩ : BufTy).Contents (Elt F)} {x16 : (⟨S32x1024, .f32⟩ : BufTy).Contents (Elt F)} {x17 : (⟨S1024, .f32⟩ : BufTy).Contents (Elt F)} {x18 : (⟨S512x2048, .f32⟩ : BufTy).Contents (Elt F)} {x19 : (⟨S2048, .f32⟩ : BufTy).Contents (Elt F)} {x20 : (⟨S2048x1024, .f32⟩ : BufTy).Contents (Elt F)} {x21 : (⟨S1024, .f32⟩ : BufTy).Contents (Elt F)}
    (h66 : V (Proc.devRef .tc main_v66) = val_main_v66 (F := F) x0 x1 x2 x3 x4 x5 x6 x7 x8 x9 x18 x19 x20 x21)
    (h26 : V (Proc.devRef .tc main_v26) = val_main_v26 (F := F) x1 x10 x11 x12 x13)
    (h35 : V (Proc.devRef .tc main_v35) = val_main_v35 (F := F) x1 x14 x15 x16 x17) :
    after ops_c8 V (Proc.devRef .tc main_v89) = val_main_v89 (F := F) x0 x1 x2 x3 x4 x5 x6 x7 x8 x9 x10 x11 x12 x13 x14 x15 x16 x17 x18 x19 x20 x21 := by
  after_results_simp <;> (try simp only [TRef.ofBuf, TRef.toBuf, cast_eq])
  rw [h66, h26, h35]
  rfl

theorem stretch9 {x0 : (⟨S32768x512, .f32⟩ : BufTy).Contents (Elt F)} {x1 : (⟨S32768x8, .f32⟩ : BufTy).Contents (Elt F)} {x2 : (⟨S8x32, .f32⟩ : BufTy).Contents (Elt F)} {x3 : (⟨S32, .f32⟩ : BufTy).Contents (Elt F)} {x4 : (⟨S32x2048, .f32⟩ : BufTy).Contents (Elt F)} {x5 : (⟨S2048, .f32⟩ : BufTy).Contents (Elt F)} {x6 : (⟨S8x32, .f32⟩ : BufTy).Contents (Elt F)} {x7 : (⟨S32, .f32⟩ : BufTy).Contents (Elt F)} {x8 : (⟨S32x2048, .f32⟩ : BufTy).Contents (Elt F)} {x9 : (⟨S2048, .f32⟩ : BufTy).Contents (Elt F)} {x10 : (⟨S8x32, .f32⟩ : BufTy).Contents (Elt F)} {x11 : (⟨S32, .f32⟩ : BufTy).Contents (Elt F)} {x12 : (⟨S32x1024, .f32⟩ : BufTy).Contents (Elt F)} {x13 : (⟨S1024, .f32⟩ : BufTy).Contents (Elt F)} {x14 : (⟨S8x32, .f32⟩ : BufTy).Contents (Elt F)} {x15 : (⟨S32, .f32⟩ : BufTy).Contents (Elt F)} {x16 : (⟨S32x1024, .f32⟩ : BufTy).Contents (Elt F)} {x17 : (⟨S1024, .f32⟩ : BufTy).Contents (Elt F)} {x18 : (⟨S512x2048, .f32⟩ : BufTy).Contents (Elt F)} {x19 : (⟨S2048, .f32⟩ : BufTy).Contents (Elt F)} {x20 : (⟨S2048x1024, .f32⟩ : BufTy).Contents (Elt F)} {x21 : (⟨S1024, .f32⟩ : BufTy).Contents (Elt F)}
    (h89 : V (Proc.devRef .tc main_v89) = val_main_v89 (F := F) x0 x1 x2 x3 x4 x5 x6 x7 x8 x9 x10 x11 x12 x13 x14 x15 x16 x17 x18 x19 x20 x21) :
    after ops_c9 V (Proc.devRef .tc main_v93)
      = val_main_v93 (F := F) x0 x1 x2 x3 x4 x5 x6 x7 x8 x9 x10 x11 x12 x13 x14 x15 x16 x17 x18 x19 x20 x21 (V (Proc.devRef .tc main_arg22)) (V (Proc.devRef .tc main_arg23)) := by
  after_results_simp <;> (try simp only [TRef.ofBuf, TRef.toBuf, cast_eq])
  rw [h89]
  rfl

/-- Contents moved to a typed reference's buffer and back are the contents: the two transports are along one
    equation and its inverse. -/
theorem ofBuf_toBuf {T : BufTy} (x : TRef sig T) (v : T.Contents (Elt F)) : x.ofBuf (x.toBuf v) = v := by
  obtain ⟨r, h, hd, hu⟩ := x
  subst h
  rfl

/-- The log-softmax stage as a function of the array it is taken of: the reference's own operations, in its
    order (the maximum over the classes from the starting value, once more against it; the shift; the logarithm of
    the sum of the exponentials; the second shift). -/
def lsmOf (y : (⟨S32768x256, .f32⟩ : BufTy).Contents (Elt F)) : (⟨S32768x256, .f32⟩ : BufTy).Contents (Elt F) :=
  subf
    (subf y (broadcastInDim S32768x256 ![0, 1] bcast_S32768x1_S32768x256_0_1 (broadcastInDim S32768x1 ![0] bcast_S32768_S32768x1_0
      (maximumf (broadcastInDim S32768 ![] bcast_S_S32768 (constant S_ .f32 0xFF800000#32))
        (Host.reduce FloatOps.maximumf y (constant S_ .f32 0xFF800000#32) reducesTo_S32768x256_S32768_d1 h_S_)))))
    (broadcastInDim S32768x256 ![0, 1] bcast_S32768x1_S32768x256_0_1 (Host.log (broadcastInDim S32768x1 ![0] bcast_S32768_S32768x1_0
      (Host.reduceAdd (Host.exp
        (subf y (broadcastInDim S32768x256 ![0, 1] bcast_S32768x1_S32768x256_0_1 (broadcastInDim S32768x1 ![0] bcast_S32768_S32768x1_0
          (maximumf (broadcastInDim S32768 ![] bcast_S_S32768 (constant S_ .f32 0xFF800000#32))
            (Host.reduce FloatOps.maximumf y (constant S_ .f32 0xFF800000#32) reducesTo_S32768x256_S32768_d1 h_S_))))))
        (constant S_ .f32 0x00000000#32) reducesTo_S32768x256_S32768_d1 h_S_))))

/-- The last stretch, whatever its input buffer holds: the typed references of the inlined call are the buffers
    themselves, so the transports between them compute away. -/
theorem stretch10_any : after ops_c10 V (Proc.devRef .tc main_v94) = lsmOf (F := F) (V (Proc.devRef .tc main_v93)) := by
  after_results_simp
  simp only [ofBuf_toBuf]
  rfl

/-- The last stage of the network is that function of the stage before it. -/
theorem last_stage (x0 : (⟨S32768x512, .f32⟩ : BufTy).Contents (Elt F)) (x1 : (⟨S32768x8, .f32⟩ : BufTy).Contents (Elt F)) (x2 : (⟨S8x32, .f32⟩ : BufTy).Contents (Elt F)) (x3 : (⟨S32, .f32⟩ : BufTy).Contents (Elt F)) (x4 : (⟨S32x2048, .f32⟩ : BufTy).Contents (Elt F)) (x5 : (⟨S2048, .f32⟩ : BufTy).Contents (Elt F)) (x6 : (⟨S8x32, .f32⟩ : BufTy).Contents (Elt F)) (x7 : (⟨S32, .f32⟩ : BufTy).Contents (Elt F)) (x8 : (⟨S32x2048, .f32⟩ : BufTy).Contents (Elt F)) (x9 : (⟨S2048, .f32⟩ : BufTy).Contents (Elt F)) (x10 : (⟨S8x32, .f32⟩ : BufTy).Contents (Elt F)) (x11 : (⟨S32, .f32⟩ : BufTy).Contents (Elt F)) (x12 : (⟨S32x1024, .f32⟩ : BufTy).Contents (Elt F)) (x13 : (⟨S1024, .f32⟩ : BufTy).Contents (Elt F)) (x14 : (⟨S8x32, .f32⟩ : BufTy).Contents (Elt F)) (x15 : (⟨S32, .f32⟩ : BufTy).Contents (Elt F)) (x16 : (⟨S32x1024, .f32⟩ : BufTy).Contents (Elt F)) (x17 : (⟨S1024, .f32⟩ : BufTy).Contents (Elt F)) (x18 : (⟨S512x2048, .f32⟩ : BufTy).Contents (Elt F)) (x19 : (⟨S2048, .f32⟩ : BufTy).Contents (Elt F)) (x20 : (⟨S2048x1024, .f32⟩ : BufTy).Contents (Elt F)) (x21 : (⟨S1024, .f32⟩ : BufTy).Contents (Elt F)) (x22 : (⟨S1024x256, .f32⟩ : BufTy).Contents (Elt F)) (x23 : (⟨S256, .f32⟩ : BufTy).Contents (Elt F)) :
    val_main_v94 (F := F) x0 x1 x2 x3 x4 x5 x6 x7 x8 x9 x10 x11 x12 x13 x14 x15 x16 x17 x18 x19 x20 x21 x22 x23 = lsmOf (F := F) (val_main_v93 (F := F) x0 x1 x2 x3 x4 x5 x6 x7 x8 x9 x10 x11 x12 x13 x14 x15 x16 x17 x18 x19 x20 x21 x22 x23) := rfl

theorem stretch10 {x0 : (⟨S32768x512, .f32⟩ : BufTy).Contents (Elt F)} {x1 : (⟨S32768x8, .f32⟩ : BufTy).Contents (Elt F)} {x2 : (⟨S8x32, .f32⟩ : BufTy).Contents (Elt F)} {x3 : (⟨S32, .f32⟩ : BufTy).Contents (Elt F)} {x4 : (⟨S32x2048, .f32⟩ : BufTy).Contents (Elt F)} {x5 : (⟨S2048, .f32⟩ : BufTy).Contents (Elt F)} {x6 : (⟨S8x32, .f32⟩ : BufTy).Contents (Elt F)} {x7 : (⟨S32, .f32⟩ : BufTy).Contents (Elt F)} {x8 : (⟨S32x2048, .f32⟩ : BufTy).Contents (Elt F)} {x9 : (⟨S2048, .f32⟩ : BufTy).Contents (Elt F)} {x10 : (⟨S8x32, .f32⟩ : BufTy).Contents (Elt F)} {x11 : (⟨S32, .f32⟩ : BufTy).Contents (Elt F)} {x12 : (⟨S32x1024, .f32⟩ : BufTy).Contents (Elt F)} {x13 : (⟨S1024, .f32⟩ : BufTy).Contents (Elt F)} {x14 : (⟨S8x32, .f32⟩ : BufTy).Contents (Elt F)} {x15 : (⟨S32, .f32⟩ : BufTy).Contents (Elt F)} {x16 : (⟨S32x1024, .f32⟩ : BufTy).Contents (Elt F)} {x17 : (⟨S1024, .f32⟩ : BufTy).Contents (Elt F)} {x18 : (⟨S512x2048, .f32⟩ : BufTy).Contents (Elt F)} {x19 : (⟨S2048, .f32⟩ : BufTy).Contents (Elt F)} {x20 : (⟨S2048x1024, .f32⟩ : BufTy).Contents (Elt F)} {x21 : (⟨S1024, .f32⟩ : BufTy).Contents (Elt F)} {x22 : (⟨S1024x256, .f32⟩ : BufTy).Contents (Elt F)} {x23 : (⟨S256, .f32⟩ : BufTy).Contents (Elt F)}
    (h93 : V (Proc.devRef .tc main_v93) = val_main_v93 (F := F) x0 x1 x2 x3 x4 x5 x6 x7 x8 x9 x10 x11 x12 x13 x14 x15 x16 x17 x18 x19 x20 x21 x22 x23) :
    after ops_c10 V (Proc.devRef .tc main_v94) = val_main_v94 (F := F) x0 x1 x2 x3 x4 x5 x6 x7 x8 x9 x10 x11 x12 x13 x14 x15 x16 x17 x18 x19 x20 x21 x22 x23 := by
  rw [stretch10_any, h93, last_stage]

end Stretches

/-! ## The whole line -/

section Whole

variable {F : FTy → Type} [FloatOps F] (V₀ : Valuation τ sig (Elt F))

/-- After all 131 operations the last buffer holds the last stage of the argument buffers' launch contents, and
    every argument buffer is as launched: the stretches in order, each reading the stages and the arguments the
    stretches before it left in place. -/
theorem after_ops :
    after ops V₀ (Proc.devRef .tc main_v94) = val_main_v94 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) (V₀ (Proc.devRef .tc main_arg17)) (V₀ (Proc.devRef .tc main_arg18)) (V₀ (Proc.devRef .tc main_arg19)) (V₀ (Proc.devRef .tc main_arg20)) (V₀ (Proc.devRef .tc main_arg21)) (V₀ (Proc.devRef .tc main_arg22)) (V₀ (Proc.devRef .tc main_arg23))
    ∧ ∀ r ∈ argList, after ops V₀ (Proc.devRef .tc r) = V₀ (Proc.devRef .tc r) := by
  simp only [ops, StableHlo.after_append]
  generalize hV1 : after ops_c1 V₀ = V1
  generalize hV2 : after ops_c2 V1 = V2
  generalize hV3 : after ops_c3 V2 = V3
  generalize hV4 : after ops_c4 V3 = V4
  generalize hV5 : after ops_c5 V4 = V5
  generalize hV6 : after ops_c6 V5 = V6
  generalize hV7 : after ops_c7 V6 = V7
  generalize hV8 : after ops_c8 V7 = V8
  generalize hV9 : after ops_c9 V8 = V9
  -- the argument buffers, stretch by stretch
  have a1 : ∀ r ∈ argList, V1 (Proc.devRef .tc r) = V₀ (Proc.devRef .tc r) := by
    intro r hr; rw [← hV1]; exact keptArgs1 V₀ r hr
  have a2 : ∀ r ∈ argList, V2 (Proc.devRef .tc r) = V₀ (Proc.devRef .tc r) := by
    intro r hr; rw [← hV2]; exact (keptArgs2 V1 r hr).trans (a1 r hr)
  have a3 : ∀ r ∈ argList, V3 (Proc.devRef .tc r) = V₀ (Proc.devRef .tc r) := by
    intro r hr; rw [← hV3]; exact (keptArgs3 V2 r hr).trans (a2 r hr)
  have a4 : ∀ r ∈ argList, V4 (Proc.devRef .tc r) = V₀ (Proc.devRef .tc r) := by
    intro r hr; rw [← hV4]; exact (keptArgs4 V3 r hr).trans (a3 r hr)
  have a5 : ∀ r ∈ argList, V5 (Proc.devRef .tc r) = V₀ (Proc.devRef .tc r) := by
    intro r hr; rw [← hV5]; exact (keptArgs5 V4 r hr).trans (a4 r hr)
  have a6 : ∀ r ∈ argList, V6 (Proc.devRef .tc r) = V₀ (Proc.devRef .tc r) := by
    intro r hr; rw [← hV6]; exact (keptArgs6 V5 r hr).trans (a5 r hr)
  have a7 : ∀ r ∈ argList, V7 (Proc.devRef .tc r) = V₀ (Proc.devRef .tc r) := by
    intro r hr; rw [← hV7]; exact (keptArgs7 V6 r hr).trans (a6 r hr)
  have a8 : ∀ r ∈ argList, V8 (Proc.devRef .tc r) = V₀ (Proc.devRef .tc r) := by
    intro r hr; rw [← hV8]; exact (keptArgs8 V7 r hr).trans (a7 r hr)
  have a9 : ∀ r ∈ argList, V9 (Proc.devRef .tc r) = V₀ (Proc.devRef .tc r) := by
    intro r hr; rw [← hV9]; exact (keptArgs9 V8 r hr).trans (a8 r hr)
  -- the scale of the first normalisation: made by stretch 1, read by stretch 6
  have s8_1 : V1 (Proc.devRef .tc main_v8) = val_main_v8 (F := F) (V₀ (Proc.devRef .tc main_arg1)) (V₀ (Proc.devRef .tc main_arg2)) (V₀ (Proc.devRef .tc main_arg3)) (V₀ (Proc.devRef .tc main_arg4)) (V₀ (Proc.devRef .tc main_arg5)) := by
    rw [← hV1]; exact stretch1 V₀
  have s8_2 : V2 (Proc.devRef .tc main_v8) = val_main_v8 (F := F) (V₀ (Proc.devRef .tc main_arg1)) (V₀ (Proc.devRef .tc main_arg2)) (V₀ (Proc.devRef .tc main_arg3)) (V₀ (Proc.devRef .tc main_arg4)) (V₀ (Proc.devRef .tc main_arg5)) := by
    rw [← hV2, kept2 V1 main_v8 (by decide)]; exact s8_1
  have s8_3 : V3 (Proc.devRef .tc main_v8) = val_main_v8 (F := F) (V₀ (Proc.devRef .tc main_arg1)) (V₀ (Proc.devRef .tc main_arg2)) (V₀ (Proc.devRef .tc main_arg3)) (V₀ (Proc.devRef .tc main_arg4)) (V₀ (Proc.devRef .tc main_arg5)) := by
    rw [← hV3, kept3 V2 main_v8 (by decide)]; exact s8_2
  have s8_4 : V4 (Proc.devRef .tc main_v8) = val_main_v8 (F := F) (V₀ (Proc.devRef .tc main_arg1)) (V₀ (Proc.devRef .tc main_arg2)) (V₀ (Proc.devRef .tc main_arg3)) (V₀ (Proc.devRef .tc main_arg4)) (V₀ (Proc.devRef .tc main_arg5)) := by
    rw [← hV4, kept4 V3 main_v8 (by decide)]; exact s8_3
  have s8_5 : V5 (Proc.devRef .tc main_v8) = val_main_v8 (F := F) (V₀ (Proc.devRef .tc main_arg1)) (V₀ (Proc.devRef .tc main_arg2)) (V₀ (Proc.devRef .tc main_arg3)) (V₀ (Proc.devRef .tc main_arg4)) (V₀ (Proc.devRef .tc main_arg5)) := by
    rw [← hV5, kept5 V4 main_v8 (by decide)]; exact s8_4
  -- its shift: made by stretch 2
  have s17_2 : V2 (Proc.devRef .tc main_v17) = val_main_v17 (F := F) (V₀ (Proc.devRef .tc main_arg1)) (V₀ (Proc.devRef .tc main_arg6)) (V₀ (Proc.devRef .tc main_arg7)) (V₀ (Proc.devRef .tc main_arg8)) (V₀ (Proc.devRef .tc main_arg9)) := by
    rw [← hV2, stretch2 V1, a1 main_arg1 (by decide : main_arg1 ∈ argList), a1 main_arg6 (by decide : main_arg6 ∈ argList), a1 main_arg7 (by decide : main_arg7 ∈ argList), a1 main_arg8 (by decide : main_arg8 ∈ argList), a1 main_arg9 (by decide : main_arg9 ∈ argList)]
  have s17_3 : V3 (Proc.devRef .tc main_v17) = val_main_v17 (F := F) (V₀ (Proc.devRef .tc main_arg1)) (V₀ (Proc.devRef .tc main_arg6)) (V₀ (Proc.devRef .tc main_arg7)) (V₀ (Proc.devRef .tc main_arg8)) (V₀ (Proc.devRef .tc main_arg9)) := by
    rw [← hV3, kept3 V2 main_v17 (by decide)]; exact s17_2
  have s17_4 : V4 (Proc.devRef .tc main_v17) = val_main_v17 (F := F) (V₀ (Proc.devRef .tc main_arg1)) (V₀ (Proc.devRef .tc main_arg6)) (V₀ (Proc.devRef .tc main_arg7)) (V₀ (Proc.devRef .tc main_arg8)) (V₀ (Proc.devRef .tc main_arg9)) := by
    rw [← hV4, kept4 V3 main_v17 (by decide)]; exact s17_3
  have s17_5 : V5 (Proc.devRef .tc main_v17) = val_main_v17 (F := F) (V₀ (Proc.devRef .tc main_arg1)) (V₀ (Proc.devRef .tc main_arg6)) (V₀ (Proc.devRef .tc main_arg7)) (V₀ (Proc.devRef .tc main_arg8)) (V₀ (Proc.devRef .tc main_arg9)) := by
    rw [← hV5, kept5 V4 main_v17 (by decide)]; exact s17_4
  -- the scale of the second normalisation: made by stretch 3, read by stretch 8
  have s26_3 : V3 (Proc.devRef .tc main_v26) = val_main_v26 (F := F) (V₀ (Proc.devRef .tc main_arg1)) (V₀ (Proc.devRef .tc main_arg10)) (V₀ (Proc.devRef .tc main_arg11)) (V₀ (Proc.devRef .tc main_arg12)) (V₀ (Proc.devRef .tc main_arg13)) := by
    rw [← hV3, stretch3 V2, a2 main_arg1 (by decide : main_arg1 ∈ argList), a2 main_arg10 (by decide : main_arg10 ∈ argList), a2 main_arg11 (by decide : main_arg11 ∈ argList), a2 main_arg12 (by decide : main_arg12 ∈ argList), a2 main_arg13 (by decide : main_arg13 ∈ argList)]
  have s26_4 : V4 (Proc.devRef .tc main_v26) = val_main_v26 (F := F) (V₀ (Proc.devRef .tc main_arg1)) (V₀ (Proc.devRef .tc main_arg10)) (V₀ (Proc.devRef .tc main_arg11)) (V₀ (Proc.devRef .tc main_arg12)) (V₀ (Proc.devRef .tc main_arg13)) := by
    rw [← hV4, kept4 V3 main_v26 (by decide)]; exact s26_3
  have s26_5 : V5 (Proc.devRef .tc main_v26) = val_main_v26 (F := F) (V₀ (Proc.devRef .tc main_arg1)) (V₀ (Proc.devRef .tc main_arg10)) (V₀ (Proc.devRef .tc main_arg11)) (V₀ (Proc.devRef .tc main_arg12)) (V₀ (Proc.devRef .tc main_arg13)) := by
    rw [← hV5, kept5 V4 main_v26 (by decide)]; exact s26_4
  have s26_6 : V6 (Proc.devRef .tc main_v26) = val_main_v26 (F := F) (V₀ (Proc.devRef .tc main_arg1)) (V₀ (Proc.devRef .tc main_arg10)) (V₀ (Proc.devRef .tc main_arg11)) (V₀ (Proc.devRef .tc main_arg12)) (V₀ (Proc.devRef .tc main_arg13)) := by
    rw [← hV6, kept6 V5 main_v26 (by decide)]; exact s26_5
  have s26_7 : V7 (Proc.devRef .tc main_v26) = val_main_v26 (F := F) (V₀ (Proc.devRef .tc main_arg1)) (V₀ (Proc.devRef .tc main_arg10)) (V₀ (Proc.devRef .tc main_arg11)) (V₀ (Proc.devRef .tc main_arg12)) (V₀ (Proc.devRef .tc main_arg13)) := by
    rw [← hV7, kept7 V6 main_v26 (by decide)]; exact s26_6
  -- its shift: made by stretch 4
  have s35_4 : V4 (Proc.devRef .tc main_v35) = val_main_v35 (F := F) (V₀ (Proc.devRef .tc main_arg1)) (V₀ (Proc.devRef .tc main_arg14)) (V₀ (Proc.devRef .tc main_arg15)) (V₀ (Proc.devRef .tc main_arg16)) (V₀ (Proc.devRef .tc main_arg17)) := by
    rw [← hV4, stretch4 V3, a3 main_arg1 (by decide : main_arg1 ∈ argList), a3 main_arg14 (by decide : main_arg14 ∈ argList), a3 main_arg15 (by decide : main_arg15 ∈ argList), a3 main_arg16 (by decide : main_arg16 ∈ argList), a3 main_arg17 (by decide : main_arg17 ∈ argList)]
  have s35_5 : V5 (Proc.devRef .tc main_v35) = val_main_v35 (F := F) (V₀ (Proc.devRef .tc main_arg1)) (V₀ (Proc.devRef .tc main_arg14)) (V₀ (Proc.devRef .tc main_arg15)) (V₀ (Proc.devRef .tc main_arg16)) (V₀ (Proc.devRef .tc main_arg17)) := by
    rw [← hV5, kept5 V4 main_v35 (by decide)]; exact s35_4
  have s35_6 : V6 (Proc.devRef .tc main_v35) = val_main_v35 (F := F) (V₀ (Proc.devRef .tc main_arg1)) (V₀ (Proc.devRef .tc main_arg14)) (V₀ (Proc.devRef .tc main_arg15)) (V₀ (Proc.devRef .tc main_arg16)) (V₀ (Proc.devRef .tc main_arg17)) := by
    rw [← hV6, kept6 V5 main_v35 (by decide)]; exact s35_5
  have s35_7 : V7 (Proc.devRef .tc main_v35) = val_main_v35 (F := F) (V₀ (Proc.devRef .tc main_arg1)) (V₀ (Proc.devRef .tc main_arg14)) (V₀ (Proc.devRef .tc main_arg15)) (V₀ (Proc.devRef .tc main_arg16)) (V₀ (Proc.devRef .tc main_arg17)) := by
    rw [← hV7, kept7 V6 main_v35 (by decide)]; exact s35_6
  -- the main line: each stage from the one before
  have s39_5 : V5 (Proc.devRef .tc main_v39) = val_main_v39 (F := F) (V₀ (Proc.devRef .tc main_arg0)) (V₀ (Proc.devRef .tc main_arg18)) (V₀ (Proc.devRef .tc main_arg19)) := by
    rw [← hV5, stretch5 V4, a4 main_arg0 (by decide : main_arg0 ∈ argList), a4 main_arg18 (by decide : main_arg18 ∈ argList), a4 main_arg19 (by decide : main_arg19 ∈ argList)]
  have s62_6 : V6 (Proc.devRef .tc main_v62) = val_main_v62 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg18)) (V₀ (Proc.devRef .tc main_arg19)) := by
    rw [← hV6]; exact stretch6 V5 s39_5 s8_5 s17_5
  have s66_7 : V7 (Proc.devRef .tc main_v66) = val_main_v66 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg18)) (V₀ (Proc.devRef .tc main_arg19)) (V₀ (Proc.devRef .tc main_arg20)) (V₀ (Proc.devRef .tc main_arg21)) := by
    rw [← hV7, stretch7 V6 s62_6, a6 main_arg20 (by decide : main_arg20 ∈ argList), a6 main_arg21 (by decide : main_arg21 ∈ argList)]
  have s89_8 : V8 (Proc.devRef .tc main_v89) = val_main_v89 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) (V₀ (Proc.devRef .tc main_arg17)) (V₀ (Proc.devRef .tc main_arg18)) (V₀ (Proc.devRef .tc main_arg19)) (V₀ (Proc.devRef .tc main_arg20)) (V₀ (Proc.devRef .tc main_arg21)) := by
    rw [← hV8]; exact stretch8 V7 s66_7 s26_7 s35_7
  have s93_9 : V9 (Proc.devRef .tc main_v93) = val_main_v93 (F := F) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) (V₀ (Proc.devRef .tc main_arg17)) (V₀ (Proc.devRef .tc main_arg18)) (V₀ (Proc.devRef .tc main_arg19)) (V₀ (Proc.devRef .tc main_arg20)) (V₀ (Proc.devRef .tc main_arg21)) (V₀ (Proc.devRef .tc main_arg22)) (V₀ (Proc.devRef .tc main_arg23)) := by
    rw [← hV9, stretch9 V8 s89_8, a8 main_arg22 (by decide : main_arg22 ∈ argList), a8 main_arg23 (by decide : main_arg23 ∈ argList)]
  exact ⟨stretch10 V9 s93_9, fun r hr => (keptArgs10 V9 r hr).trans (a9 r hr)⟩

end Whole

/-! ## The run -/

/-- At the ideal instance the last stage is the whole-batch network: at every sample the row lemma. -/
theorem last_eq_net (x0 : (⟨S32768x512, .f32⟩ : BufTy).Contents (Elt Ideal)) (x1 : (⟨S32768x8, .f32⟩ : BufTy).Contents (Elt Ideal)) (x2 : (⟨S8x32, .f32⟩ : BufTy).Contents (Elt Ideal)) (x3 : (⟨S32, .f32⟩ : BufTy).Contents (Elt Ideal)) (x4 : (⟨S32x2048, .f32⟩ : BufTy).Contents (Elt Ideal)) (x5 : (⟨S2048, .f32⟩ : BufTy).Contents (Elt Ideal)) (x6 : (⟨S8x32, .f32⟩ : BufTy).Contents (Elt Ideal)) (x7 : (⟨S32, .f32⟩ : BufTy).Contents (Elt Ideal)) (x8 : (⟨S32x2048, .f32⟩ : BufTy).Contents (Elt Ideal)) (x9 : (⟨S2048, .f32⟩ : BufTy).Contents (Elt Ideal)) (x10 : (⟨S8x32, .f32⟩ : BufTy).Contents (Elt Ideal)) (x11 : (⟨S32, .f32⟩ : BufTy).Contents (Elt Ideal)) (x12 : (⟨S32x1024, .f32⟩ : BufTy).Contents (Elt Ideal)) (x13 : (⟨S1024, .f32⟩ : BufTy).Contents (Elt Ideal)) (x14 : (⟨S8x32, .f32⟩ : BufTy).Contents (Elt Ideal)) (x15 : (⟨S32, .f32⟩ : BufTy).Contents (Elt Ideal)) (x16 : (⟨S32x1024, .f32⟩ : BufTy).Contents (Elt Ideal)) (x17 : (⟨S1024, .f32⟩ : BufTy).Contents (Elt Ideal)) (x18 : (⟨S512x2048, .f32⟩ : BufTy).Contents (Elt Ideal)) (x19 : (⟨S2048, .f32⟩ : BufTy).Contents (Elt Ideal)) (x20 : (⟨S2048x1024, .f32⟩ : BufTy).Contents (Elt Ideal)) (x21 : (⟨S1024, .f32⟩ : BufTy).Contents (Elt Ideal)) (x22 : (⟨S1024x256, .f32⟩ : BufTy).Contents (Elt Ideal)) (x23 : (⟨S256, .f32⟩ : BufTy).Contents (Elt Ideal)) :
    val_main_v94 (F := Ideal) x0 x1 x2 x3 x4 x5 x6 x7 x8 x9 x10 x11 x12 x13 x14 x15 x16 x17 x18 x19 x20 x21 x22 x23 = net x0 x1 x2 x3 x4 x5 x6 x7 x8 x9 x10 x11 x12 x13 x14 x15 x16 x17 x18 x19 x20 x21 x22 x23 := by
  funext i
  obtain ⟨r, q, rfl⟩ : ∃ (r : Fin 32768) (q : Fin 256), i = ix2 r q := ⟨i 0, i 1, eq_ix2 i⟩
  exact Rows.result_row x0 x1 x2 x3 x4 x5 x6 x7 x8 x9 x10 x11 x12 x13 x14 x15 x16 x17 x18 x19 x20 x21 x22 x23 r q

/-- THE REFERENCE'S RUN, READ: every weakly fair execution of the reference terminates with its result array at
    the whole-batch network of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = Cert.RowNet.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v94).trans (((after_ops (launchContents m c)).1).trans (last_eq_net ..)),
      (h c main_arg0).trans ((after_ops (launchContents m c)).2 main_arg0 (by decide)),
      (h c main_arg1).trans ((after_ops (launchContents m c)).2 main_arg1 (by decide)),
      (h c main_arg2).trans ((after_ops (launchContents m c)).2 main_arg2 (by decide)),
      (h c main_arg3).trans ((after_ops (launchContents m c)).2 main_arg3 (by decide)),
      (h c main_arg4).trans ((after_ops (launchContents m c)).2 main_arg4 (by decide)),
      (h c main_arg5).trans ((after_ops (launchContents m c)).2 main_arg5 (by decide)),
      (h c main_arg6).trans ((after_ops (launchContents m c)).2 main_arg6 (by decide)),
      (h c main_arg7).trans ((after_ops (launchContents m c)).2 main_arg7 (by decide)),
      (h c main_arg8).trans ((after_ops (launchContents m c)).2 main_arg8 (by decide)),
      (h c main_arg9).trans ((after_ops (launchContents m c)).2 main_arg9 (by decide)),
      (h c main_arg10).trans ((after_ops (launchContents m c)).2 main_arg10 (by decide)),
      (h c main_arg11).trans ((after_ops (launchContents m c)).2 main_arg11 (by decide)),
      (h c main_arg12).trans ((after_ops (launchContents m c)).2 main_arg12 (by decide)),
      (h c main_arg13).trans ((after_ops (launchContents m c)).2 main_arg13 (by decide)),
      (h c main_arg14).trans ((after_ops (launchContents m c)).2 main_arg14 (by decide)),
      (h c main_arg15).trans ((after_ops (launchContents m c)).2 main_arg15 (by decide)),
      (h c main_arg16).trans ((after_ops (launchContents m c)).2 main_arg16 (by decide)),
      (h c main_arg17).trans ((after_ops (launchContents m c)).2 main_arg17 (by decide)),
      (h c main_arg18).trans ((after_ops (launchContents m c)).2 main_arg18 (by decide)),
      (h c main_arg19).trans ((after_ops (launchContents m c)).2 main_arg19 (by decide)),
      (h c main_arg20).trans ((after_ops (launchContents m c)).2 main_arg20 (by decide)),
      (h c main_arg21).trans ((after_ops (launchContents m c)).2 main_arg21 (by decide)),
      (h c main_arg22).trans ((after_ops (launchContents m c)).2 main_arg22 (by decide)),
      (h c main_arg23).trans ((after_ops (launchContents m c)).2 main_arg23 (by decide))⟩)
    (run_seq scopedRefs_eq scopedSems_eq defs main (fun _ => ops) main_eq (fun _ => ops_sub) m ρ)

end Cert.ReferenceIdeal.Link

end
-- ==== Proof.lean ====
/-
  A per-sample network whose two normalisations take their scale and shift from hypernets of a parameter
  row, closed by a log-softmax: a tiled accelerator kernel against a plain array program.

  The kernel cuts the batch of 32768 samples into 128 tiles of 256 rows and runs the whole network on a
  tile at a time, its three large matrix products fed in a shorter float format; the reference runs
  the same network on whole arrays, viewing each hidden array as one group per sample for the
  normalisation. At the ideal instance a change of float format is the identity, a matrix product into
  a zero accumulator and a general dot product are the same sum over the contracted channel, and a
  lane reduction and a host reduction are the same sum (or fold of max) over a sample's channels. Every
  operation of the network acts on one sample at a time, so both programs compute ONE function of a
  single sample's rows (Proof/Spec.lean); the kernel's tiles cover the result array (Proof/Blocks.lean),
  and the reference's stages compose to the same function (Proof/RefRows.lean). No law that joins
  the two sides needs a finite input: the precondition is not opened.

  The frames of the two kernel programs are the generated ones; the reference's frame is its run with
  the result dropped; the idealization rewrote no operation, so there is nothing to preserve.
-/
import proofs.«145171_j88673894793362_1_alg».proof.Defs
import proofs.«145171_j88673894793362_1_alg».proof.Proof.Gen.Kernel
import proofs.«145171_j88673894793362_1_alg».proof.Proof.Gen.Kernel.Skeleton
import proofs.«145171_j88673894793362_1_alg».proof.Proof.Gen.Kernel.Launch
import proofs.«145171_j88673894793362_1_alg».proof.Proof.Gen.Kernel.Points
import proofs.«145171_j88673894793362_1_alg».proof.Proof.Gen.Kernel.Frame
import proofs.«145171_j88673894793362_1_alg».proof.Proof.Gen.KernelIdeal
import proofs.«145171_j88673894793362_1_alg».proof.Proof.Gen.KernelIdeal.Skeleton
import proofs.«145171_j88673894793362_1_alg».proof.Proof.Gen.KernelIdeal.Launch
import proofs.«145171_j88673894793362_1_alg».proof.Proof.Gen.KernelIdeal.Points
import proofs.«145171_j88673894793362_1_alg».proof.Proof.Gen.KernelIdeal.Frame
import proofs.«145171_j88673894793362_1_alg».proof.Proof.Gen.ReferenceIdeal
import proofs.«145171_j88673894793362_1_alg».proof.Proof.Gen.Pre_finite_inputs
import proofs.«145171_j88673894793362_1_alg».proof.Proof.Gen.KernelIdeal.Value
import proofs.«145171_j88673894793362_1_alg».proof.Proof.Blocks
import proofs.«145171_j88673894793362_1_alg».proof.Proof.RefLink
import Idealize.ShloMosaic.Adequacy
import Idealize.ShloMosaic.Init

noncomputable section

namespace Cert.Proof

open Idealize.ShloMosaic Idealize.SL.Sem

/-- The word-level kernel runs and leaves its arguments unchanged: the generated frame. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Link.run m ρ)

/-- From memories agreeing on the arguments both programs end with the whole-batch network of the kernel's
    argument arrays in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.result m c, ?_, ?_⟩
  · exact (θ_run Cert.KernelIdeal.defs _ _).mono
      (fun r h c => ⟨(h c).1.trans (Cert.KernelIdeal.Blocks.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Link.run m' ρ')
    obtain ⟨h0, h1, h2, h3, h4, h5, h6, h7, h8, h9, h10, h11, h12, h13, h14, h15, h16, h17, h18, h19, h20, h21, h22, h23⟩ := hagree c
    rw [h0, h1, h2, h3, h4, h5, h6, h7, h8, h9, h10, h11, h12, h13, h14, h15, h16, h17, h18, h19, h20, h21, h22, h23]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
